-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S4x16x2048x64 : Shape := ⟨4, ![4, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x3072 : Shape := ⟨2, ![512, 3072]⟩
abbrev S1x3072 : Shape := ⟨2, ![1, 3072]⟩
abbrev S512x16x64 : Shape := ⟨3, ![512, 16, 64]⟩
abbrev S16x512x64 : Shape := ⟨3, ![16, 512, 64]⟩
abbrev S1x2x256x64 : Shape := ⟨4, ![1, 2, 256, 64]⟩
abbrev S1x2x2048x64 : Shape := ⟨4, ![1, 2, 2048, 64]⟩
abbrev S1x256x128 : Shape := ⟨3, ![1, 256, 128]⟩
abbrev S2x256x64 : Shape := ⟨3, ![2, 256, 64]⟩
abbrev S2x2048x64 : Shape := ⟨3, ![2, 2048, 64]⟩
abbrev S2x256x2048 : Shape := ⟨3, ![2, 256, 2048]⟩
abbrev S2x256 : Shape := ⟨2, ![2, 256]⟩
abbrev S2x256x1 : Shape := ⟨3, ![2, 256, 1]⟩
abbrev S256x2x64 : Shape := ⟨3, ![256, 2, 64]⟩
abbrev S256x128 : Shape := ⟨2, ![256, 128]⟩
abbrev S1x1024x1024 : Shape := ⟨3, ![1, 1024, 1024]⟩
abbrev S1x1024 : Shape := ⟨2, ![1, 1024]⟩

abbrev nBuf : Space → Nat
  | .hbm => 18
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S3072x1024, .f32⟩
  | .hbm, ⟨10, _⟩ => ⟨S3072x1024, .bf16⟩
  | .hbm, ⟨11, _⟩ => ⟨S3072, .f32⟩
  | .hbm, ⟨12, _⟩ => ⟨S1024x1024, .bf16⟩
  | .hbm, ⟨13, _⟩ => ⟨S4x16x2048x64, .bf16⟩
  | .hbm, ⟨14, _⟩ => ⟨S4x16x2048x64, .bf16⟩
  | .hbm, ⟨15, _⟩ => ⟨S4x16x2048x64, .bf16⟩
  | .hbm, ⟨16, _⟩ => ⟨S4x2048x1024, .bf16⟩
  | .hbm, ⟨17, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S3072x1024, .bf16⟩
  | .local _ .vmem, ⟨3, _⟩ => ⟨S3072, .f32⟩
  | .local _ .vmem, ⟨4, _⟩ => ⟨S1x16x512x64, .bf16⟩
  | .local _ .vmem, ⟨5, _⟩ => ⟨S1x16x512x64, .bf16⟩
  | .local _ .vmem, ⟨6, _⟩ => ⟨S1x16x512x64, .bf16⟩
  | .local _ .vmem, ⟨7, _⟩ => ⟨S1x16x512x64, .bf16⟩
  | .local _ .vmem, ⟨8, _⟩ => ⟨S1x16x512x64, .bf16⟩
  | .local _ .vmem, ⟨9, _⟩ => ⟨S1x16x512x64, .bf16⟩
  | .local _ .vmem, ⟨10, _⟩ => ⟨S1x2x256x64, .bf16⟩
  | .local _ .vmem, ⟨11, _⟩ => ⟨S1x2x256x64, .bf16⟩
  | .local _ .vmem, ⟨12, _⟩ => ⟨S1x2x2048x64, .bf16⟩
  | .local _ .vmem, ⟨13, _⟩ => ⟨S1x2x2048x64, .bf16⟩
  | .local _ .vmem, ⟨14, _⟩ => ⟨S1x2x2048x64, .bf16⟩
  | .local _ .vmem, ⟨15, _⟩ => ⟨S1x2x2048x64, .bf16⟩
  | .local _ .vmem, ⟨16, _⟩ => ⟨S1x256x128, .bf16⟩
  | .local _ .vmem, ⟨17, _⟩ => ⟨S1x256x128, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1024x1024, .bf16⟩
  | .local _ .vmem, ⟨21, _⟩ => ⟨S1024, .f32⟩
  | .local _ .vmem, ⟨22, _⟩ => ⟨S1x1024x1024, .f32⟩
  | .local _ .vmem, ⟨23, _⟩ => ⟨S1x1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![4, 8, 8], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x2x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![4, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  concatenates_S1024x1024_S1024x1024_S1024x1024_S3072x1024_d0 : Shape.Concatenates [S1024x1024, S1024x1024, S1024x1024] S3072x1024 0
  bitsLt_bf16_f32 : FTy.bits .bf16 < FTy.bits .f32
  concatenates_S1024_S1024_S1024_S3072_d0 : Shape.Concatenates [S1024, S1024, S1024] S3072 0
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  slices_S512x3072_o0_0_S512x1024 : S512x3072.Slices ![0, 0] S512x1024
  shapeCasts_S512x1024_S512x16x64 : S512x1024.ShapeCasts S512x16x64
  transposes_S512x16x64_p1_0_2_S16x512x64 : S512x16x64.Transposes [1, 0, 2] S16x512x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  packedbf16_S1x16x512x64_S1x16x512x64_0_0_0_0 : (Rect.unit (s := S1x16x512x64) ![0, 0, 0, 0] S1x16x512x64.size inb_S1x16x512x64_S1x16x512x64_0_0_0_0).PackedRows (EltTy.packing .bf16)
  slices_S512x3072_o0_1024_S512x1024 : S512x3072.Slices ![0, 1024] S512x1024
  slices_S512x3072_o0_2048_S512x1024 : S512x3072.Slices ![0, 2048] S512x1024
  inb_S1x2x256x64_S1x2x256x64_0_0_0_0 : ∀ a, (![0, 0, 0, 0] : Fin 4 → Nat) a + S1x2x256x64.size a ≤ S1x2x256x64.size a
  h_S1x2x256x64 : 0 < S1x2x256x64.numel
  shapeCasts_S1x2x256x64_S2x256x64 : S1x2x256x64.ShapeCasts S2x256x64
  inb_S1x2x2048x64_S1x2x2048x64_0_0_0_0 : ∀ a, (![0, 0, 0, 0] : Fin 4 → Nat) a + S1x2x2048x64.size a ≤ S1x2x2048x64.size a
  h_S1x2x2048x64 : 0 < S1x2x2048x64.numel
  shapeCasts_S1x2x2048x64_S2x2048x64 : S1x2x2048x64.ShapeCasts S2x2048x64
  reduces_S2x256x2048_S2x256 : S2x256x2048.Reduces [2] S2x256
  shapeCasts_S2x256_S2x256x1 : S2x256.ShapeCasts S2x256x1
  broadcasts_S2x256x1_S2x256x2048 : S2x256x1.Broadcasts S2x256x2048
  broadcasts_S2x256x1_S2x256x64 : S2x256x1.Broadcasts S2x256x64
  transposes_S2x256x64_p1_0_2_S256x2x64 : S2x256x64.Transposes [1, 0, 2] S256x2x64
  shapeCasts_S256x2x64_S256x128 : S256x2x64.ShapeCasts S256x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  packedbf16_S1x256x128_S1x256x128_0_0_0 : (Rect.unit (s := S1x256x128) ![0, 0, 0] S1x256x128.size inb_S1x256x128_S1x256x128_0_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S1024x1024_S1x1024x1024 : S1024x1024.ShapeCasts S1x1024x1024
  dot_S512x1024_S3072x1024_S512x3072_1_1_0_0_n_n_wf : DotDims.WF S512x1024 S3072x1024 S512x3072 [1] [1] [0] [0] [] []
  dot_S2x256x64_S2x2048x64_S2x256x2048_2_2_1_1_0_0_wf : DotDims.WF S2x256x64 S2x2048x64 S2x256x2048 [2] [2] [1] [1] [0] [0]
  dot_S2x256x2048_S2x2048x64_S2x256x64_2_1_1_2_0_0_wf : DotDims.WF S2x256x2048 S2x2048x64 S2x256x64 [2] [1] [1] [2] [0] [0]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S4x16x2048x64.size a
  hwx0_3 : ∀ i : grid0.Coords, EltTy.bits .bf16 = 32 ∨ (Rect.block (s := S4x16x2048x64) S1x16x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x64.size a ≤ S4x16x2048x64.size a
  hwx0_4 : ∀ i : grid0.Coords, EltTy.bits .bf16 = 32 ∨ (Rect.block (s := S4x16x2048x64) S1x16x512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512x64.size a ≤ S4x16x2048x64.size a
  hwx0_5 : ∀ i : grid0.Coords, EltTy.bits .bf16 = 32 ∨ (Rect.block (s := S4x16x2048x64) S1x16x512x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x256x64.size a ≤ S4x16x2048x64.size a
  hwx1_0 : ∀ i : grid1.Coords, EltTy.bits .bf16 = 32 ∨ (Rect.block (s := S4x16x2048x64) S1x2x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2x2048x64.size a ≤ S4x16x2048x64.size a
  hwx1_1 : ∀ i : grid1.Coords, EltTy.bits .bf16 = 32 ∨ (Rect.block (s := S4x16x2048x64) S1x2x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2x2048x64.size a ≤ S4x16x2048x64.size a
  hwx1_2 : ∀ i : grid1.Coords, EltTy.bits .bf16 = 32 ∨ (Rect.block (s := S4x16x2048x64) S1x2x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x128.size a ≤ S4x2048x1024.size a
  hwx1_3 : ∀ i : grid1.Coords, EltTy.bits .bf16 = 32 ∨ (Rect.block (s := S4x2048x1024) S1x256x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S4x2048x1024.size a
  hwx2_0 : ∀ i : grid2.Coords, EltTy.bits .bf16 = 32 ∨ (Rect.block (s := S4x2048x1024) S1x1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x1024.size a ≤ S4x2048x1024.size a
  hwx2_3 : ∀ i : grid2.Coords, EltTy.bits .f32 = 32 ∨ (Rect.block (s := S4x2048x1024) S1x1024x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S2x256x64_S2x2048x64_S2x256x2048_2_2_1_1_0_0 : DotDims S2x256x64 S2x2048x64 S2x256x2048 where
  lhsContracting := [2]
  rhsContracting := [2]
  lhsNonContracting := [1]
  rhsNonContracting := [1]
  lhsBatch := [0]
  rhsBatch := [0]
  wf := dot_S2x256x64_S2x2048x64_S2x256x2048_2_2_1_1_0_0_wf
def dot_S2x256x2048_S2x2048x64_S2x256x64_2_1_1_2_0_0 : DotDims S2x256x2048 S2x2048x64 S2x256x64 where
  lhsContracting := [2]
  rhsContracting := [1]
  lhsNonContracting := [1]
  rhsNonContracting := [2]
  lhsBatch := [0]
  rhsBatch := [0]
  wf := dot_S2x256x2048_S2x2048x64_S2x256x64_2_1_1_2_0_0_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x16x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x16x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S1x16x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4_0) S1x2x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x2x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1x2x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x16x64, .f32⟩
  | .hbm, ⟨20, _⟩ => ⟨S4x16x2048x64, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x16x64, .f32⟩
  | .hbm, ⟨26, _⟩ => ⟨S4x16x2048x64, .f32⟩
  | .hbm, ⟨27, _⟩ => ⟨S4x16x2048x2048, .f32⟩
  | .hbm, ⟨28, _⟩ => ⟨S_, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S_, .f32⟩
  | .hbm, ⟨34, _⟩ => ⟨S4x16x2048, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S4x16x2048x1, .f32⟩
  | .hbm, ⟨43, _⟩ => ⟨S4x16x2048x2048, .f32⟩
  | .hbm, ⟨44, _⟩ => ⟨S4x16x2048x2048, .f32⟩
  | .hbm, ⟨45, _⟩ => ⟨S4x16x2048x64, .f32⟩
  | .hbm, ⟨46, _⟩ => ⟨S4x2048x16x64, .f32⟩
  | .hbm, ⟨47, _⟩ => ⟨S4x2048x1024, .f32⟩
  | .hbm, ⟨48, _⟩ => ⟨S4x2048x1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KReg0.lean ====
/-
  The first kernel region (the fused query / key / value projection) at an arbitrary entry state of the core's buffers.

  At a grid point the body reads three staged blocks whole — 512 rows of the input, the whole stacked weight matrix, the
  whole stacked bias — and overwrites three output blocks, one each for queries, keys and values, every one with a single
  value computed from the three inputs.  This module names the blocks the windows cut out of their arrays and the values
  the body leaves in the three output blocks, and proves that the body, run on staging buffers holding those blocks,
  terminates leaving the inputs as found and each output at its value.  From this follows the obligation the pipeline
  asks of a body at every grid point.
-/
import proofs.«423255_j9981503996505_3_alg».proof.Proof.Gen.Kernel.Launch
import proofs.«423255_j9981503996505_3_alg».proof.Proof.Gen.Kernel.Skeleton
import proofs.«423255_j9981503996505_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/- The contents of the core's unscoped buffers when the region is entered: everything below is stated at this parameter. -/
variable (V : (c : Dev nD) → (b : Ref sig .tc) → Buf (Elt F) ((c : Thread nD τ).loc b))

/-! ## The windows' blocks -/

/-- Window `w`'s block at grid point `t`, cut out of the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input-rows window's staging buffer, wherever the body is handed it, holds the window's block at that point:
    fetched there it is that block, and where it is not fetched the block index has not moved since it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the stacked-weights window, fetched once: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for the stacked-bias window, fetched once. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store takes a whole staging buffer -/

abbrev r0_0 : Rect S1x512x1024 := Rect.unit (s := S1x512x1024) ![0, 0, 0] S1x512x1024.size inb_S1x512x1024_S1x512x1024_0_0_0
abbrev r0_1 : Rect S3072x1024 := Rect.unit (s := S3072x1024) ![0, 0] S3072x1024.size inb_S3072x1024_S3072x1024_0_0
abbrev r0_2 : Rect S3072 := Rect.unit (s := S3072) ![0] S3072.size inb_S3072_S3072_0
abbrev r0_3 : Rect S1x16x512x64 := Rect.unit (s := S1x16x512x64) ![0, 0, 0, 0] S1x16x512x64.size inb_S1x16x512x64_S1x16x512x64_0_0_0_0

/-! ## What the body leaves in each output block -/

/-- The query window's staging buffer after the body, from the three input blocks: its one store, of the whole buffer. -/
def out0_3 (x0 : Vec F S1x512x1024 .f32) (x1 : Vec F S3072x1024 .bf16) (x2 : Vec F S3072 .f32) : Vec F S1x16x512x64 .bf16 :=
  View.canon [⟨r0_3, k0_pay2 (View.ld x0 r0_0) (View.ld x1 r0_1) (View.ld x2 r0_2)⟩]
/-- The key window's, likewise. -/
def out0_4 (x0 : Vec F S1x512x1024 .f32) (x1 : Vec F S3072x1024 .bf16) (x2 : Vec F S3072 .f32) : Vec F S1x16x512x64 .bf16 :=
  View.canon [⟨r0_3, k0_pay3 (View.ld x0 r0_0) (View.ld x1 r0_1) (View.ld x2 r0_2)⟩]
/-- The value window's, likewise. -/
def out0_5 (x0 : Vec F S1x512x1024 .f32) (x1 : Vec F S3072x1024 .bf16) (x2 : Vec F S3072 .f32) : Vec F S1x16x512x64 .bf16 :=
  View.canon [⟨r0_3, k0_pay4 (View.ld x0 r0_0) (View.ld x1 r0_1) (View.ld x2 r0_2)⟩]

/-- The one stored rectangle is the whole buffer, so it covers every index. -/
theorem cover0_3 (p0 : Vec F S1x16x512x64 .bf16) (y : S1x16x512x64.Idx) :
    ∃ pc ∈ ([⟨r0_3, p0⟩] : List (View.Piece (Elt F) S1x16x512x64 .bf16)), y ∈ pc.1.set :=
  View.cover_of_tiled [⟨r0_3, p0⟩] S1x16x512x64.size (by rfl) y

/-! ## The body's triple -/

set_option maxHeartbeats 1000000 in
/-- The body on whole staging memrefs — the inputs' holding `x0`, `x1`, `x2`, the outputs' anything — runs to its
    continuation with the inputs' as they were and each output's at its value of them. -/
theorem sound_kernel0 (c : Dev nD) (E : Set ℕ) (i : grid0.Coords) (arg2 : Memref sig .tc .vmem S1x512x1024 .f32) (harg2 : arg2.IsWhole) (arg3 : Memref sig .tc .vmem S3072x1024 .bf16) (harg3 : arg3.IsWhole) (arg4 : Memref sig .tc .vmem S3072 .f32) (harg4 : arg4.IsWhole) (arg5 : Memref sig .tc .vmem S1x16x512x64 .bf16) (harg5 : arg5.IsWhole) (arg6 : Memref sig .tc .vmem S1x16x512x64 .bf16) (harg6 : arg6.IsWhole) (arg7 : Memref sig .tc .vmem S1x16x512x64 .bf16) (harg7 : arg7.IsWhole)
    (x0 : Vec F S1x512x1024 .f32) (x1 : Vec F S3072x1024 .bf16) (x2 : Vec F S3072 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2) ∗ owns (c : Thread nD τ) arg7 fullShare (out0_5 x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_3 _)
  iexists _; isplitr
  swap; · iexact H5
  ipureintro
  exact View.read_writes_eq_canon _ _ _ (cover0_3 _)

/-! ## The pipeline's proof data -/

/-- The proof data of this pipeline on core `c`: the windows' arrays as the region finds them; after the body at point
    `t` each input's buffer at its block and each output's at its value of the input blocks; the invariant carries the
    scoped rest and the generator register through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
/-
  The second kernel region (attention over two heads and a tile of queries) at an arbitrary entry state of the core's
  buffers.

  At a grid point the body reads three staged blocks whole — a tile of queries, all keys and all values of the two heads —
  and overwrites the one output block with a single value computed from them.  This module names the blocks the windows
  cut out of their arrays and the value the body leaves in the output block, and proves that the body, run on staging
  buffers holding those blocks, terminates leaving the inputs as found and the output at that value.  From this follows
  the obligation the pipeline asks of a body at every grid point.
-/
import proofs.«423255_j9981503996505_3_alg».proof.Proof.Gen.Kernel.Launch
import proofs.«423255_j9981503996505_3_alg».proof.Proof.Gen.Kernel.Skeleton
import proofs.«423255_j9981503996505_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/- The contents of the core's unscoped buffers when the region is entered: everything below is stated at this parameter. -/
variable (V : (c : Dev nD) → (b : Ref sig .tc) → Buf (Elt F) ((c : Thread nD τ).loc b))

/-! ## The windows' blocks -/

/-- Window `w`'s block at grid point `t`, cut out of the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer, wherever the body is handed it, holds the window's block at that point: fetched
    there it is that block, and where it is not fetched the block index has not moved since it was. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the key window, fetched only where the batch or the head pair changes. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the value window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole staging buffer -/

abbrev r1_0 : Rect S1x2x256x64 := Rect.unit (s := S1x2x256x64) ![0, 0, 0, 0] S1x2x256x64.size inb_S1x2x256x64_S1x2x256x64_0_0_0_0
abbrev r1_1 : Rect S1x2x2048x64 := Rect.unit (s := S1x2x2048x64) ![0, 0, 0, 0] S1x2x2048x64.size inb_S1x2x2048x64_S1x2x2048x64_0_0_0_0
abbrev r1_3 : Rect S1x256x128 := Rect.unit (s := S1x256x128) ![0, 0, 0] S1x256x128.size inb_S1x256x128_S1x256x128_0_0_0

/-! ## What the body leaves in the output block -/

/-- The output window's staging buffer after the body, from the three input blocks: its one store, of the whole buffer. -/
def out1_3 (x0 : Vec F S1x2x256x64 .bf16) (x1 : Vec F S1x2x2048x64 .bf16) (x2 : Vec F S1x2x2048x64 .bf16) : Vec F S1x256x128 .bf16 :=
  View.canon [⟨r1_3, k1_pay1 (View.ld x0 r1_0) (View.ld x1 r1_1) (View.ld x2 r1_1)⟩]

/-- The one stored rectangle is the whole buffer, so it covers every index. -/
theorem cover1_3 (p0 : Vec F S1x256x128 .bf16) (y : S1x256x128.Idx) :
    ∃ pc ∈ ([⟨r1_3, p0⟩] : List (View.Piece (Elt F) S1x256x128 .bf16)), y ∈ pc.1.set :=
  View.cover_of_tiled [⟨r1_3, p0⟩] S1x256x128.size (by rfl) y

/-! ## The body's triple -/

set_option maxHeartbeats 1000000 in
/-- The body on whole staging memrefs — the inputs' holding `x0`, `x1`, `x2`, the output's anything — runs to its
    continuation with the inputs' as they were and the output's at `out1_3` of them. -/
theorem sound_kernel1 (c : Dev nD) (E : Set ℕ) (i : grid1.Coords) (arg3 : Memref sig .tc .vmem S1x2x256x64 .bf16) (harg3 : arg3.IsWhole) (arg4 : Memref sig .tc .vmem S1x2x2048x64 .bf16) (harg4 : arg4.IsWhole) (arg5 : Memref sig .tc .vmem S1x2x2048x64 .bf16) (harg5 : arg5.IsWhole) (arg6 : Memref sig .tc .vmem S1x256x128 .bf16) (harg6 : arg6.IsWhole)
    (x0 : Vec F S1x2x256x64 .bf16) (x1 : Vec F S1x2x2048x64 .bf16) (x2 : Vec F S1x2x2048x64 .bf16) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the windows' arrays as the region finds them; after the body at point
    `t` each input's buffer at its block and the output's at `out1_3` of the input blocks; the invariant carries the scoped
    rest and the generator register through untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2.lean ====
/-
  The third kernel region (the output projection) at an arbitrary entry state of the core's buffers.

  At a grid point the body reads three staged blocks whole — a block of context rows, the whole weight matrix, the whole
  bias vector — and overwrites the one output block with a single value computed from them.  This module names the blocks
  the windows cut out of their arrays, the value the body leaves in the output block, and proves that the body, run on
  staging buffers holding those blocks, terminates leaving the inputs as found and the output at that value.  From this
  follows the obligation the pipeline asks of a body at every grid point.
-/
import proofs.«423255_j9981503996505_3_alg».proof.Proof.Gen.Kernel.Launch
import proofs.«423255_j9981503996505_3_alg».proof.Proof.Gen.Kernel.Skeleton
import proofs.«423255_j9981503996505_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/- The contents of the core's unscoped buffers when the region is entered: everything below is stated at this parameter. -/
variable (V : (c : Dev nD) → (b : Ref sig .tc) → Buf (Elt F) ((c : Thread nD τ).loc b))

/-! ## The windows' blocks -/

/-- Window `w`'s block at grid point `t`, cut out of the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The context window's staging buffer, wherever the body is handed it, holds the window's block at that point: fetched
    there it is that block, and where it is not fetched the block index has not moved since it was. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for the weight window, fetched once: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for the bias window, fetched once. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole staging buffer -/

abbrev r2_0 : Rect S1x1024x1024 := Rect.unit (s := S1x1024x1024) ![0, 0, 0] S1x1024x1024.size inb_S1x1024x1024_S1x1024x1024_0_0_0
abbrev r2_1 : Rect S1024x1024 := Rect.unit (s := S1024x1024) ![0, 0] S1024x1024.size inb_S1024x1024_S1024x1024_0_0
abbrev r2_2 : Rect S1024 := Rect.unit (s := S1024) ![0] S1024.size inb_S1024_S1024_0

/-! ## What the body leaves in the output block -/

/-- The output window's staging buffer after the body, from the three input blocks: its one store, of the whole buffer. -/
def out2_3 (x0 : Vec F S1x1024x1024 .bf16) (x1 : Vec F S1024x1024 .bf16) (x2 : Vec F S1024 .f32) : Vec F S1x1024x1024 .f32 :=
  View.canon [⟨r2_0, k2_pay1 (View.ld x0 r2_0) (View.ld x1 r2_1) (View.ld x2 r2_2)⟩]

/-- The one stored rectangle is the whole buffer, so it covers every index. -/
theorem cover2_3 (p0 : Vec F S1x1024x1024 .f32) (y : S1x1024x1024.Idx) :
    ∃ pc ∈ ([⟨r2_0, p0⟩] : List (View.Piece (Elt F) S1x1024x1024 .f32)), y ∈ pc.1.set :=
  View.cover_of_tiled [⟨r2_0, p0⟩] S1x1024x1024.size (by rfl) y

/-! ## The body's triple -/

set_option maxHeartbeats 1000000 in
/-- The body on whole staging memrefs — the inputs' holding `x0`, `x1`, `x2`, the output's anything — runs to its
    continuation with the inputs' as they were and the output's at `out2_3` of them. -/
theorem sound_kernel2 (c : Dev nD) (E : Set ℕ) (i : grid2.Coords) (arg2 : Memref sig .tc .vmem S1x1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1x1024x1024 .f32) (harg5 : arg5.IsWhole)
    (x0 : Vec F S1x1024x1024 .bf16) (x1 : Vec F S1024x1024 .bf16) (x2 : Vec F S1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__o_proj_kernel i arg2 harg2 arg3 harg3 arg4 harg4 arg5 harg5) K := by
  simp only [cc2__o_proj_kernel_eq_skeleton]; unfold cc2__o_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the windows' arrays as the region finds them; after the body at point
    `t` each input's buffer at its block and the output's at `out2_3` of the input blocks; the invariant carries the scoped
    rest and the generator register through untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The whole run of the program: a stretch of host operations, then the three kernel regions one after the other.

  The contents of a core's buffers are followed from the launch to the return.  The host stretch leaves them at its
  composed result; each region leaves every array one of its windows writes back at what the write-backs of all grid
  points leave there, and every other buffer as it found it.  Each region is entered with exactly the contents the item
  before it left, so the regions' records chain, and at the return every buffer holds the last of these contents.  Read at
  the argument arrays — no host operation writes one, and a region only reads them — this gives that the arguments end as
  launched; read at the last region's output array it gives the program's result.
-/
import proofs.«423255_j9981503996505_3_alg».proof.Proof.KReg0
import proofs.«423255_j9981503996505_3_alg».proof.Proof.KReg1
import proofs.«423255_j9981503996505_3_alg».proof.Proof.KReg2
import proofs.«423255_j9981503996505_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the host stretch: what the first region is entered from. -/
abbrev W1 : Dev nD → Valuation τ sig (Elt F) := fun c => StableHlo.after hostOps0 (W0 m c)
/-- The same read at the core's own references. -/
abbrev E1 : (c : Dev nD) → (b : Ref sig .tc) → Buf (Elt F) ((c : Thread nD τ).loc b) := fun c b => W1 m c b

/-- After the first region: its windows' arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second region. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- After the third region: what the program returns with. -/
def W4 (c : Dev nD) : Valuation τ sig (Elt F) :=
  Pipeline.withArrays spec2 c (W3 m c) fun w => (dat2 (E3 m) c).arrAt w cfg2.N
theorem W4_arr (c : Dev nD) (w : Fin cfg2.W) :
    W4 m c (Proc.devRef .tc (Pipeline.arrRef spec2 w)) = (dat2 (E3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev E4 : (c : Dev nD) → (b : Ref sig .tc) → Buf (Elt F) ((c : Thread nD τ).loc b) := fun c b => W4 m c b
theorem hF2 (c : Dev nD) (w : Fin cfg2.W) : (dat2 (E3 m) c).arrAt w cfg2.N = E4 m c (Pipeline.arrRef spec2 w) :=
  (W4_arr m c w).symm
theorem hrest2 (c : Dev nD) : ∀ b, b ∉ Finset.univ.image (Pipeline.arrRef spec2) → E4 m c b = E3 m c b :=
  fun b hb => W4_of_ne m c b fun w e => hb (Finset.mem_image.mpr ⟨w, Finset.mem_univ _, e⟩)

/-! ## What the host stretch leaves unchanged -/

/-- A buffer the host stretch does not write is as launched. -/
theorem W1_of (c : Dev nD) (r : Ref sig .tc) (h : r ∉ (hostOps0_W : List (Ref sig .tc))) : W1 m c (Proc.devRef .tc r) = m ((c : Thread nD τ).loc r) :=
  (V1_of m c r h).trans rfl

/-! ## The arguments end as launched -/

/-- The input array: the first region stages it through an input window, nothing else touches it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (E1 m) c).arrAt_in 0 rfl _).trans (A_eq0 (E1 m) c 0))
    _ = m ((c : Thread nD τ).loc main_arg0) := W1_of m c main_arg0 (by decide)
/-- A weight or bias the host stretch only reads and no region stages. -/
theorem W4_of_untouched (c : Dev nD) (b : Ref sig .tc) (h0 : b ∉ (hostOps0_W : List (Ref sig .tc)))
    (h1 : ∀ w, Pipeline.arrRef spec0 w ≠ b) (h2 : ∀ w, Pipeline.arrRef spec1 w ≠ b) (h3 : ∀ w, Pipeline.arrRef spec2 w ≠ b) :
    W4 m c (Proc.devRef .tc b) = m ((c : Thread nD τ).loc b) :=
  (W4_of_ne m c b h3).trans ((W3_of_ne m c b h2).trans ((W2_of_ne m c b h1).trans (W1_of m c b h0)))
theorem W4_main_arg1 (c : Dev nD) : W4 m c (Proc.devRef .tc main_arg1) = m ((c : Thread nD τ).loc main_arg1) :=
  W4_of_untouched m c main_arg1 (by decide) (by decide) (by decide) (by decide)
theorem W4_main_arg2 (c : Dev nD) : W4 m c (Proc.devRef .tc main_arg2) = m ((c : Thread nD τ).loc main_arg2) :=
  W4_of_untouched m c main_arg2 (by decide) (by decide) (by decide) (by decide)
theorem W4_main_arg3 (c : Dev nD) : W4 m c (Proc.devRef .tc main_arg3) = m ((c : Thread nD τ).loc main_arg3) :=
  W4_of_untouched m c main_arg3 (by decide) (by decide) (by decide) (by decide)
theorem W4_main_arg4 (c : Dev nD) : W4 m c (Proc.devRef .tc main_arg4) = m ((c : Thread nD τ).loc main_arg4) :=
  W4_of_untouched m c main_arg4 (by decide) (by decide) (by decide) (by decide)
theorem W4_main_arg5 (c : Dev nD) : W4 m c (Proc.devRef .tc main_arg5) = m ((c : Thread nD τ).loc main_arg5) :=
  W4_of_untouched m c main_arg5 (by decide) (by decide) (by decide) (by decide)
theorem W4_main_arg6 (c : Dev nD) : W4 m c (Proc.devRef .tc main_arg6) = m ((c : Thread nD τ).loc main_arg6) :=
  W4_of_untouched m c main_arg6 (by decide) (by decide) (by decide) (by decide)
theorem W4_main_arg7 (c : Dev nD) : W4 m c (Proc.devRef .tc main_arg7) = m ((c : Thread nD τ).loc main_arg7) :=
  W4_of_untouched m c main_arg7 (by decide) (by decide) (by decide) (by decide)
/-- The closing bias: the last region stages it through an input window. -/
theorem W3_main_arg8 (c : Dev nD) : W3 m c (Proc.devRef .tc main_arg8) = m ((c : Thread nD τ).loc main_arg8) :=
  (W3_of_ne m c main_arg8 (by decide)).trans ((W2_of_ne m c main_arg8 (by decide)).trans (W1_of m c main_arg8 (by decide)))
theorem W4_main_arg8 (c : Dev nD) : W4 m c (Proc.devRef .tc main_arg8) = m ((c : Thread nD τ).loc main_arg8) :=
  ((W4_arr m c 2).trans (((dat2 (E3 m) c).arrAt_in 2 rfl _).trans (A_eq2 (E3 m) c 2))).trans (W3_main_arg8 m c)

/-! ## What each region is entered with, and what the program returns -/

/-- The result array at the return is what the last region's write-backs leave. -/
theorem W4_main_v6 (c : Dev nD) : W4 m c (Proc.devRef .tc main_v6) = (dat2 (E3 m) c).arrAt 3 cfg2.N := W4_arr m c 3
/-- The last region finds the context array at what the second region's write-backs left, -/
theorem E3_main_v5 (c : Dev nD) : E3 m c main_v5 = (dat1 (E2 m) c).arrAt 3 cfg1.N := W3_arr m c 3
/-- the closing weights as the host stretch left them, -/
theorem E3_main_v3 (c : Dev nD) : E3 m c main_v3 = E1 m c main_v3 :=
  (W3_of_ne m c main_v3 (by decide)).trans (W2_of_ne m c main_v3 (by decide))
/-- and the closing bias as launched. -/
theorem E3_main_arg8 (c : Dev nD) : E3 m c main_arg8 = m ((c : Thread nD τ).loc main_arg8) := W3_main_arg8 m c
/-- The second region finds the query, key and value arrays at what the first region's write-backs left. -/
theorem E2_main_v4_0 (c : Dev nD) : E2 m c main_v4_0 = (dat0 (E1 m) c).arrAt 3 cfg0.N := W2_arr m c 3
theorem E2_main_v4_1 (c : Dev nD) : E2 m c main_v4_1 = (dat0 (E1 m) c).arrAt 4 cfg0.N := W2_arr m c 4
theorem E2_main_v4_2 (c : Dev nD) : E2 m c main_v4_2 = (dat0 (E1 m) c).arrAt 5 cfg0.N := W2_arr m c 5
/-- The first region finds the input as launched. -/
theorem E1_main_arg0 (c : Dev nD) : E1 m c main_arg0 = m ((c : Thread nD τ).loc main_arg0) := W1_of m c main_arg0 (by decide)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
  | ⟨2, _⟩ => fun c => dat2 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- The host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at `W1`, left at `W2`.  Its arrays are split
    out of the unscoped buffers and put back at the exit contents; the generator register goes into the pipeline's invariant
    and out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region over the thread state: entered from every unscoped buffer at `W3`, left at `W4`, what the launch
    reads at the end. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four items in order: the host stretch from the launch contents, then a region per kernel call. -/
abbrev items : List (Pipeline.Seg (pcfgs (F := F)) adm (pdats m) () defs₀ 𝒱₀ L lv) :=
  [ .host (hseg hostOps0 hostOps0_sub hostOps0_fresh (W0 m)),
    .region (reg0 m),
    .region (reg1 m),
    .region (reg2 m) ]
/-- The program is the run of its items. -/
theorem main_run (c : Dev nD) : main (F := F) c = Pipeline.Seg.run (items m) := (main_chain c).trans (by chain_rfl)

set_option backward.isDefEq.respectTransparency.types false in
/-- From any memory with zero counters every weakly fair execution of the program terminates, nothing faulting, and in
    every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c)⟩) (run_all m ρ)

/-- The arguments end as launched and the result array ends at what the last region's write-backs leave. -/
theorem run_value : θ_run defs (onTc (τ := τ) (main (F := F))) ⟨m, fun _ => 0, ρ⟩ (fun r => ∀ c : Dev nD,
      r.2.mem ((c.tc : Thread nD τ).loc main_v6) = (dat2 (E3 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v6 (by decide))).trans (W4_main_v6 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c)⟩) (run_all m ρ)

end Cert.Kernel.Hand

end
-- ==== Proof.KIReg0.lean ====
/-
  The first kernel region (the fused query / key / value projection) at an arbitrary entry state of the core's buffers.

  At a grid point the body reads three staged blocks whole — 512 rows of the input, the whole stacked weight matrix, the
  whole stacked bias — and overwrites three output blocks, one each for queries, keys and values, every one with a single
  value computed from the three inputs.  This module names the blocks the windows cut out of their arrays and the values
  the body leaves in the three output blocks, and proves that the body, run on staging buffers holding those blocks,
  terminates leaving the inputs as found and each output at its value.  From this follows the obligation the pipeline
  asks of a body at every grid point.
-/
import proofs.«423255_j9981503996505_3_alg».proof.Proof.Gen.KernelIdeal.Launch
import proofs.«423255_j9981503996505_3_alg».proof.Proof.Gen.KernelIdeal.Skeleton
import proofs.«423255_j9981503996505_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/- The contents of the core's unscoped buffers when the region is entered: everything below is stated at this parameter. -/
variable (V : (c : Dev nD) → (b : Ref sig .tc) → Buf (Elt F) ((c : Thread nD τ).loc b))

/-! ## The windows' blocks -/

/-- Window `w`'s block at grid point `t`, cut out of the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input-rows window's staging buffer, wherever the body is handed it, holds the window's block at that point:
    fetched there it is that block, and where it is not fetched the block index has not moved since it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the stacked-weights window, fetched once: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for the stacked-bias window, fetched once. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store takes a whole staging buffer -/

abbrev r0_0 : Rect S1x512x1024 := Rect.unit (s := S1x512x1024) ![0, 0, 0] S1x512x1024.size inb_S1x512x1024_S1x512x1024_0_0_0
abbrev r0_1 : Rect S3072x1024 := Rect.unit (s := S3072x1024) ![0, 0] S3072x1024.size inb_S3072x1024_S3072x1024_0_0
abbrev r0_2 : Rect S3072 := Rect.unit (s := S3072) ![0] S3072.size inb_S3072_S3072_0
abbrev r0_3 : Rect S1x16x512x64 := Rect.unit (s := S1x16x512x64) ![0, 0, 0, 0] S1x16x512x64.size inb_S1x16x512x64_S1x16x512x64_0_0_0_0

/-! ## What the body leaves in each output block -/

/-- The query window's staging buffer after the body, from the three input blocks: its one store, of the whole buffer. -/
def out0_3 (x0 : Vec F S1x512x1024 .f32) (x1 : Vec F S3072x1024 .bf16) (x2 : Vec F S3072 .f32) : Vec F S1x16x512x64 .bf16 :=
  View.canon [⟨r0_3, k0_pay2 (View.ld x0 r0_0) (View.ld x1 r0_1) (View.ld x2 r0_2)⟩]
/-- The key window's, likewise. -/
def out0_4 (x0 : Vec F S1x512x1024 .f32) (x1 : Vec F S3072x1024 .bf16) (x2 : Vec F S3072 .f32) : Vec F S1x16x512x64 .bf16 :=
  View.canon [⟨r0_3, k0_pay3 (View.ld x0 r0_0) (View.ld x1 r0_1) (View.ld x2 r0_2)⟩]
/-- The value window's, likewise. -/
def out0_5 (x0 : Vec F S1x512x1024 .f32) (x1 : Vec F S3072x1024 .bf16) (x2 : Vec F S3072 .f32) : Vec F S1x16x512x64 .bf16 :=
  View.canon [⟨r0_3, k0_pay4 (View.ld x0 r0_0) (View.ld x1 r0_1) (View.ld x2 r0_2)⟩]

/-- The one stored rectangle is the whole buffer, so it covers every index. -/
theorem cover0_3 (p0 : Vec F S1x16x512x64 .bf16) (y : S1x16x512x64.Idx) :
    ∃ pc ∈ ([⟨r0_3, p0⟩] : List (View.Piece (Elt F) S1x16x512x64 .bf16)), y ∈ pc.1.set :=
  View.cover_of_tiled [⟨r0_3, p0⟩] S1x16x512x64.size (by rfl) y

/-! ## The body's triple -/

set_option maxHeartbeats 1000000 in
/-- The body on whole staging memrefs — the inputs' holding `x0`, `x1`, `x2`, the outputs' anything — runs to its
    continuation with the inputs' as they were and each output's at its value of them. -/
theorem sound_kernel0 (c : Dev nD) (E : Set ℕ) (i : grid0.Coords) (arg2 : Memref sig .tc .vmem S1x512x1024 .f32) (harg2 : arg2.IsWhole) (arg3 : Memref sig .tc .vmem S3072x1024 .bf16) (harg3 : arg3.IsWhole) (arg4 : Memref sig .tc .vmem S3072 .f32) (harg4 : arg4.IsWhole) (arg5 : Memref sig .tc .vmem S1x16x512x64 .bf16) (harg5 : arg5.IsWhole) (arg6 : Memref sig .tc .vmem S1x16x512x64 .bf16) (harg6 : arg6.IsWhole) (arg7 : Memref sig .tc .vmem S1x16x512x64 .bf16) (harg7 : arg7.IsWhole)
    (x0 : Vec F S1x512x1024 .f32) (x1 : Vec F S3072x1024 .bf16) (x2 : Vec F S3072 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2) ∗ owns (c : Thread nD τ) arg7 fullShare (out0_5 x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_3 _)
  iexists _; isplitr
  swap; · iexact H5
  ipureintro
  exact View.read_writes_eq_canon _ _ _ (cover0_3 _)

/-! ## The pipeline's proof data -/

/-- The proof data of this pipeline on core `c`: the windows' arrays as the region finds them; after the body at point
    `t` each input's buffer at its block and each output's at its value of the input blocks; the invariant carries the
    scoped rest and the generator register through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
/-
  The second kernel region (attention over two heads and a tile of queries) at an arbitrary entry state of the core's
  buffers.

  At a grid point the body reads three staged blocks whole — a tile of queries, all keys and all values of the two heads —
  and overwrites the one output block with a single value computed from them.  This module names the blocks the windows
  cut out of their arrays and the value the body leaves in the output block, and proves that the body, run on staging
  buffers holding those blocks, terminates leaving the inputs as found and the output at that value.  From this follows
  the obligation the pipeline asks of a body at every grid point.
-/
import proofs.«423255_j9981503996505_3_alg».proof.Proof.Gen.KernelIdeal.Launch
import proofs.«423255_j9981503996505_3_alg».proof.Proof.Gen.KernelIdeal.Skeleton
import proofs.«423255_j9981503996505_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/- The contents of the core's unscoped buffers when the region is entered: everything below is stated at this parameter. -/
variable (V : (c : Dev nD) → (b : Ref sig .tc) → Buf (Elt F) ((c : Thread nD τ).loc b))

/-! ## The windows' blocks -/

/-- Window `w`'s block at grid point `t`, cut out of the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer, wherever the body is handed it, holds the window's block at that point: fetched
    there it is that block, and where it is not fetched the block index has not moved since it was. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the key window, fetched only where the batch or the head pair changes. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the value window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole staging buffer -/

abbrev r1_0 : Rect S1x2x256x64 := Rect.unit (s := S1x2x256x64) ![0, 0, 0, 0] S1x2x256x64.size inb_S1x2x256x64_S1x2x256x64_0_0_0_0
abbrev r1_1 : Rect S1x2x2048x64 := Rect.unit (s := S1x2x2048x64) ![0, 0, 0, 0] S1x2x2048x64.size inb_S1x2x2048x64_S1x2x2048x64_0_0_0_0
abbrev r1_3 : Rect S1x256x128 := Rect.unit (s := S1x256x128) ![0, 0, 0] S1x256x128.size inb_S1x256x128_S1x256x128_0_0_0

/-! ## What the body leaves in the output block -/

/-- The output window's staging buffer after the body, from the three input blocks: its one store, of the whole buffer. -/
def out1_3 (x0 : Vec F S1x2x256x64 .bf16) (x1 : Vec F S1x2x2048x64 .bf16) (x2 : Vec F S1x2x2048x64 .bf16) : Vec F S1x256x128 .bf16 :=
  View.canon [⟨r1_3, k1_pay1 (View.ld x0 r1_0) (View.ld x1 r1_1) (View.ld x2 r1_1)⟩]

/-- The one stored rectangle is the whole buffer, so it covers every index. -/
theorem cover1_3 (p0 : Vec F S1x256x128 .bf16) (y : S1x256x128.Idx) :
    ∃ pc ∈ ([⟨r1_3, p0⟩] : List (View.Piece (Elt F) S1x256x128 .bf16)), y ∈ pc.1.set :=
  View.cover_of_tiled [⟨r1_3, p0⟩] S1x256x128.size (by rfl) y

/-! ## The body's triple -/

set_option maxHeartbeats 1000000 in
/-- The body on whole staging memrefs — the inputs' holding `x0`, `x1`, `x2`, the output's anything — runs to its
    continuation with the inputs' as they were and the output's at `out1_3` of them. -/
theorem sound_kernel1 (c : Dev nD) (E : Set ℕ) (i : grid1.Coords) (arg3 : Memref sig .tc .vmem S1x2x256x64 .bf16) (harg3 : arg3.IsWhole) (arg4 : Memref sig .tc .vmem S1x2x2048x64 .bf16) (harg4 : arg4.IsWhole) (arg5 : Memref sig .tc .vmem S1x2x2048x64 .bf16) (harg5 : arg5.IsWhole) (arg6 : Memref sig .tc .vmem S1x256x128 .bf16) (harg6 : arg6.IsWhole)
    (x0 : Vec F S1x2x256x64 .bf16) (x1 : Vec F S1x2x2048x64 .bf16) (x2 : Vec F S1x2x2048x64 .bf16) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the windows' arrays as the region finds them; after the body at point
    `t` each input's buffer at its block and the output's at `out1_3` of the input blocks; the invariant carries the scoped
    rest and the generator register through untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIReg2.lean ====
/-
  The third kernel region (the output projection) at an arbitrary entry state of the core's buffers.

  At a grid point the body reads three staged blocks whole — a block of context rows, the whole weight matrix, the whole
  bias vector — and overwrites the one output block with a single value computed from them.  This module names the blocks
  the windows cut out of their arrays, the value the body leaves in the output block, and proves that the body, run on
  staging buffers holding those blocks, terminates leaving the inputs as found and the output at that value.  From this
  follows the obligation the pipeline asks of a body at every grid point.
-/
import proofs.«423255_j9981503996505_3_alg».proof.Proof.Gen.KernelIdeal.Launch
import proofs.«423255_j9981503996505_3_alg».proof.Proof.Gen.KernelIdeal.Skeleton
import proofs.«423255_j9981503996505_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/- The contents of the core's unscoped buffers when the region is entered: everything below is stated at this parameter. -/
variable (V : (c : Dev nD) → (b : Ref sig .tc) → Buf (Elt F) ((c : Thread nD τ).loc b))

/-! ## The windows' blocks -/

/-- Window `w`'s block at grid point `t`, cut out of the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The context window's staging buffer, wherever the body is handed it, holds the window's block at that point: fetched
    there it is that block, and where it is not fetched the block index has not moved since it was. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for the weight window, fetched once: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for the bias window, fetched once. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole staging buffer -/

abbrev r2_0 : Rect S1x1024x1024 := Rect.unit (s := S1x1024x1024) ![0, 0, 0] S1x1024x1024.size inb_S1x1024x1024_S1x1024x1024_0_0_0
abbrev r2_1 : Rect S1024x1024 := Rect.unit (s := S1024x1024) ![0, 0] S1024x1024.size inb_S1024x1024_S1024x1024_0_0
abbrev r2_2 : Rect S1024 := Rect.unit (s := S1024) ![0] S1024.size inb_S1024_S1024_0

/-! ## What the body leaves in the output block -/

/-- The output window's staging buffer after the body, from the three input blocks: its one store, of the whole buffer. -/
def out2_3 (x0 : Vec F S1x1024x1024 .bf16) (x1 : Vec F S1024x1024 .bf16) (x2 : Vec F S1024 .f32) : Vec F S1x1024x1024 .f32 :=
  View.canon [⟨r2_0, k2_pay1 (View.ld x0 r2_0) (View.ld x1 r2_1) (View.ld x2 r2_2)⟩]

/-- The one stored rectangle is the whole buffer, so it covers every index. -/
theorem cover2_3 (p0 : Vec F S1x1024x1024 .f32) (y : S1x1024x1024.Idx) :
    ∃ pc ∈ ([⟨r2_0, p0⟩] : List (View.Piece (Elt F) S1x1024x1024 .f32)), y ∈ pc.1.set :=
  View.cover_of_tiled [⟨r2_0, p0⟩] S1x1024x1024.size (by rfl) y

/-! ## The body's triple -/

set_option maxHeartbeats 1000000 in
/-- The body on whole staging memrefs — the inputs' holding `x0`, `x1`, `x2`, the output's anything — runs to its
    continuation with the inputs' as they were and the output's at `out2_3` of them. -/
theorem sound_kernel2 (c : Dev nD) (E : Set ℕ) (i : grid2.Coords) (arg2 : Memref sig .tc .vmem S1x1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1x1024x1024 .f32) (harg5 : arg5.IsWhole)
    (x0 : Vec F S1x1024x1024 .bf16) (x1 : Vec F S1024x1024 .bf16) (x2 : Vec F S1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__o_proj_kernel i arg2 harg2 arg3 harg3 arg4 harg4 arg5 harg5) K := by
  simp only [cc2__o_proj_kernel_eq_skeleton]; unfold cc2__o_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the windows' arrays as the region finds them; after the body at point
    `t` each input's buffer at its block and the output's at `out2_3` of the input blocks; the invariant carries the scoped
    rest and the generator register through untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
/-
  The whole run of the program: a stretch of host operations, then the three kernel regions one after the other.

  The contents of a core's buffers are followed from the launch to the return.  The host stretch leaves them at its
  composed result; each region leaves every array one of its windows writes back at what the write-backs of all grid
  points leave there, and every other buffer as it found it.  Each region is entered with exactly the contents the item
  before it left, so the regions' records chain, and at the return every buffer holds the last of these contents.  Read at
  the argument arrays — no host operation writes one, and a region only reads them — this gives that the arguments end as
  launched; read at the last region's output array it gives the program's result.
-/
import proofs.«423255_j9981503996505_3_alg».proof.Proof.KIReg0
import proofs.«423255_j9981503996505_3_alg».proof.Proof.KIReg1
import proofs.«423255_j9981503996505_3_alg».proof.Proof.KIReg2
import proofs.«423255_j9981503996505_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the host stretch: what the first region is entered from. -/
abbrev W1 : Dev nD → Valuation τ sig (Elt F) := fun c => StableHlo.after hostOps0 (W0 m c)
/-- The same read at the core's own references. -/
abbrev E1 : (c : Dev nD) → (b : Ref sig .tc) → Buf (Elt F) ((c : Thread nD τ).loc b) := fun c b => W1 m c b

/-- After the first region: its windows' arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second region. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- After the third region: what the program returns with. -/
def W4 (c : Dev nD) : Valuation τ sig (Elt F) :=
  Pipeline.withArrays spec2 c (W3 m c) fun w => (dat2 (E3 m) c).arrAt w cfg2.N
theorem W4_arr (c : Dev nD) (w : Fin cfg2.W) :
    W4 m c (Proc.devRef .tc (Pipeline.arrRef spec2 w)) = (dat2 (E3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev E4 : (c : Dev nD) → (b : Ref sig .tc) → Buf (Elt F) ((c : Thread nD τ).loc b) := fun c b => W4 m c b
theorem hF2 (c : Dev nD) (w : Fin cfg2.W) : (dat2 (E3 m) c).arrAt w cfg2.N = E4 m c (Pipeline.arrRef spec2 w) :=
  (W4_arr m c w).symm
theorem hrest2 (c : Dev nD) : ∀ b, b ∉ Finset.univ.image (Pipeline.arrRef spec2) → E4 m c b = E3 m c b :=
  fun b hb => W4_of_ne m c b fun w e => hb (Finset.mem_image.mpr ⟨w, Finset.mem_univ _, e⟩)

/-! ## What the host stretch leaves unchanged -/

/-- A buffer the host stretch does not write is as launched. -/
theorem W1_of (c : Dev nD) (r : Ref sig .tc) (h : r ∉ (hostOps0_W : List (Ref sig .tc))) : W1 m c (Proc.devRef .tc r) = m ((c : Thread nD τ).loc r) :=
  (V1_of m c r h).trans rfl

/-! ## The arguments end as launched -/

/-- The input array: the first region stages it through an input window, nothing else touches it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (E1 m) c).arrAt_in 0 rfl _).trans (A_eq0 (E1 m) c 0))
    _ = m ((c : Thread nD τ).loc main_arg0) := W1_of m c main_arg0 (by decide)
/-- A weight or bias the host stretch only reads and no region stages. -/
theorem W4_of_untouched (c : Dev nD) (b : Ref sig .tc) (h0 : b ∉ (hostOps0_W : List (Ref sig .tc)))
    (h1 : ∀ w, Pipeline.arrRef spec0 w ≠ b) (h2 : ∀ w, Pipeline.arrRef spec1 w ≠ b) (h3 : ∀ w, Pipeline.arrRef spec2 w ≠ b) :
    W4 m c (Proc.devRef .tc b) = m ((c : Thread nD τ).loc b) :=
  (W4_of_ne m c b h3).trans ((W3_of_ne m c b h2).trans ((W2_of_ne m c b h1).trans (W1_of m c b h0)))
theorem W4_main_arg1 (c : Dev nD) : W4 m c (Proc.devRef .tc main_arg1) = m ((c : Thread nD τ).loc main_arg1) :=
  W4_of_untouched m c main_arg1 (by decide) (by decide) (by decide) (by decide)
theorem W4_main_arg2 (c : Dev nD) : W4 m c (Proc.devRef .tc main_arg2) = m ((c : Thread nD τ).loc main_arg2) :=
  W4_of_untouched m c main_arg2 (by decide) (by decide) (by decide) (by decide)
theorem W4_main_arg3 (c : Dev nD) : W4 m c (Proc.devRef .tc main_arg3) = m ((c : Thread nD τ).loc main_arg3) :=
  W4_of_untouched m c main_arg3 (by decide) (by decide) (by decide) (by decide)
theorem W4_main_arg4 (c : Dev nD) : W4 m c (Proc.devRef .tc main_arg4) = m ((c : Thread nD τ).loc main_arg4) :=
  W4_of_untouched m c main_arg4 (by decide) (by decide) (by decide) (by decide)
theorem W4_main_arg5 (c : Dev nD) : W4 m c (Proc.devRef .tc main_arg5) = m ((c : Thread nD τ).loc main_arg5) :=
  W4_of_untouched m c main_arg5 (by decide) (by decide) (by decide) (by decide)
theorem W4_main_arg6 (c : Dev nD) : W4 m c (Proc.devRef .tc main_arg6) = m ((c : Thread nD τ).loc main_arg6) :=
  W4_of_untouched m c main_arg6 (by decide) (by decide) (by decide) (by decide)
theorem W4_main_arg7 (c : Dev nD) : W4 m c (Proc.devRef .tc main_arg7) = m ((c : Thread nD τ).loc main_arg7) :=
  W4_of_untouched m c main_arg7 (by decide) (by decide) (by decide) (by decide)
/-- The closing bias: the last region stages it through an input window. -/
theorem W3_main_arg8 (c : Dev nD) : W3 m c (Proc.devRef .tc main_arg8) = m ((c : Thread nD τ).loc main_arg8) :=
  (W3_of_ne m c main_arg8 (by decide)).trans ((W2_of_ne m c main_arg8 (by decide)).trans (W1_of m c main_arg8 (by decide)))
theorem W4_main_arg8 (c : Dev nD) : W4 m c (Proc.devRef .tc main_arg8) = m ((c : Thread nD τ).loc main_arg8) :=
  ((W4_arr m c 2).trans (((dat2 (E3 m) c).arrAt_in 2 rfl _).trans (A_eq2 (E3 m) c 2))).trans (W3_main_arg8 m c)

/-! ## What each region is entered with, and what the program returns -/

/-- The result array at the return is what the last region's write-backs leave. -/
theorem W4_main_v6 (c : Dev nD) : W4 m c (Proc.devRef .tc main_v6) = (dat2 (E3 m) c).arrAt 3 cfg2.N := W4_arr m c 3
/-- The last region finds the context array at what the second region's write-backs left, -/
theorem E3_main_v5 (c : Dev nD) : E3 m c main_v5 = (dat1 (E2 m) c).arrAt 3 cfg1.N := W3_arr m c 3
/-- the closing weights as the host stretch left them, -/
theorem E3_main_v3 (c : Dev nD) : E3 m c main_v3 = E1 m c main_v3 :=
  (W3_of_ne m c main_v3 (by decide)).trans (W2_of_ne m c main_v3 (by decide))
/-- and the closing bias as launched. -/
theorem E3_main_arg8 (c : Dev nD) : E3 m c main_arg8 = m ((c : Thread nD τ).loc main_arg8) := W3_main_arg8 m c
/-- The second region finds the query, key and value arrays at what the first region's write-backs left. -/
theorem E2_main_v4_0 (c : Dev nD) : E2 m c main_v4_0 = (dat0 (E1 m) c).arrAt 3 cfg0.N := W2_arr m c 3
theorem E2_main_v4_1 (c : Dev nD) : E2 m c main_v4_1 = (dat0 (E1 m) c).arrAt 4 cfg0.N := W2_arr m c 4
theorem E2_main_v4_2 (c : Dev nD) : E2 m c main_v4_2 = (dat0 (E1 m) c).arrAt 5 cfg0.N := W2_arr m c 5
/-- The first region finds the input as launched. -/
theorem E1_main_arg0 (c : Dev nD) : E1 m c main_arg0 = m ((c : Thread nD τ).loc main_arg0) := W1_of m c main_arg0 (by decide)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
  | ⟨2, _⟩ => fun c => dat2 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- The host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at `W1`, left at `W2`.  Its arrays are split
    out of the unscoped buffers and put back at the exit contents; the generator register goes into the pipeline's invariant
    and out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region over the thread state: entered from every unscoped buffer at `W3`, left at `W4`, what the launch
    reads at the end. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four items in order: the host stretch from the launch contents, then a region per kernel call. -/
abbrev items : List (Pipeline.Seg (pcfgs (F := F)) adm (pdats m) () defs₀ 𝒱₀ L lv) :=
  [ .host (hseg hostOps0 hostOps0_sub hostOps0_fresh (W0 m)),
    .region (reg0 m),
    .region (reg1 m),
    .region (reg2 m) ]
/-- The program is the run of its items. -/
theorem main_run (c : Dev nD) : main (F := F) c = Pipeline.Seg.run (items m) := (main_chain c).trans (by chain_rfl)

set_option backward.isDefEq.respectTransparency.types false in
/-- From any memory with zero counters every weakly fair execution of the program terminates, nothing faulting, and in
    every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c)⟩) (run_all m ρ)

/-- The arguments end as launched and the result array ends at what the last region's write-backs leave. -/
theorem run_value : θ_run defs (onTc (τ := τ) (main (F := F))) ⟨m, fun _ => 0, ρ⟩ (fun r => ∀ c : Dev nD,
      r.2.mem ((c.tc : Thread nD τ).loc main_v6) = (dat2 (E3 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v6 (by decide))).trans (W4_main_v6 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c)⟩) (run_all m ρ)

end Cert.KernelIdeal.Hand

end
-- ==== Proof.Spec.lean ====
/-
  Multi-head attention as functions of coordinates, over the extended reals.

  An input `x` of 4 batches × 2048 positions × 1024 features is projected three times (queries, keys, values), each projection
  a product with the transpose of a 1024 × 1024 weight matrix plus a bias, and read as 16 heads of 64 features.  Within a
  head, the score of query position `q` against key position `k` is the inner product of their 64 features divided by 8;
  the weights of a query are the exponentials of its scores less their maximum; the context of the query is the average of
  the value rows under those weights.  The heads are laid side by side again and projected once more.

  Two spellings of the context are given.  One sums the weighted value rows first and divides the sum by the total weight;
  the other divides every weight by the total first.  Division does not distribute over sums at the infinities of the
  extended reals, so the two agree where the entries are real numbers: the scores are then real, their maximum is one of
  them, every weight is a positive real and so is their total.
-/
import Idealize.ShloMosaic.PureOps.Ideal
import Mathlib.Algebra.BigOperators.Fin
import Mathlib.Data.EReal.Operations

open scoped BigOperators

noncomputable section

namespace Cert.Spec

open Idealize.ShloMosaic

/-- batch × position × feature -/
abbrev T3 : Type := Fin 4 → Fin 2048 → Fin 1024 → EReal
/-- a weight matrix: output feature × input feature -/
abbrev T2 : Type := Fin 1024 → Fin 1024 → EReal
/-- a bias -/
abbrev T1 : Type := Fin 1024 → EReal
/-- batch × head × position × head feature -/
abbrev T4 : Type := Fin 4 → Fin 16 → Fin 2048 → Fin 64 → EReal
/-- batch × head × query position × key position -/
abbrev TS : Type := Fin 4 → Fin 16 → Fin 2048 → Fin 2048 → EReal

/-- Feature `d` of head `h` among the 1024 features. -/
def hc (h : Fin 16) (d : Fin 64) : Fin 1024 := ⟨h.val * 64 + d.val, by omega⟩

/-- The head a feature belongs to, and its place in it. -/
def headOf (e : Fin 1024) : Fin 16 := ⟨e.val / 64, by omega⟩
def featOf (e : Fin 1024) : Fin 64 := ⟨e.val % 64, by omega⟩

/-- A projection read by heads: `x · Wᵀ + b`, feature `hc h d` placed at head `h`, feature `d`. -/
def proj (x : T3) (W : T2) (b : T1) : T4 :=
  fun bi h s d => (∑ k : Fin 1024, x bi s k * W (hc h d) k) + b (hc h d)

/-- The scores: inner products of query and key rows, times one eighth. -/
def score (Q K : T4) : TS :=
  fun bi h q k => (∑ d : Fin 64, Q bi h q d * K bi h k d) * ((1 / 8 : ℝ) : EReal)

/-- A query's largest score (from `⊥`). -/
def rowMax (S : TS) : Fin 4 → Fin 16 → Fin 2048 → EReal :=
  fun bi h q => Finset.univ.fold max ⊥ (fun k : Fin 2048 => S bi h q k)

/-- The weights: exponentials of the scores less the query's largest. -/
def wexp (S : TS) : TS :=
  fun bi h q k => Ideal.exp (S bi h q k - rowMax S bi h q)

/-- A query's total weight. -/
def rowSum (S : TS) : Fin 4 → Fin 16 → Fin 2048 → EReal :=
  fun bi h q => ∑ k : Fin 2048, wexp S bi h q k

/-- The context, the weighted sum formed first and divided by the total weight. -/
def ctxSumFirst (Q K V : T4) : T4 :=
  fun bi h q d => Ideal.div (∑ k : Fin 2048, wexp (score Q K) bi h q k * V bi h k d) (rowSum (score Q K) bi h q)

/-- The context, every weight divided by the total first. -/
def ctxDivFirst (Q K V : T4) : T4 :=
  fun bi h q d => ∑ k : Fin 2048, Ideal.div (wexp (score Q K) bi h q k) (rowSum (score Q K) bi h q) * V bi h k d

/-- The heads side by side: feature `e` is feature `featOf e` of head `headOf e`. -/
def merge (C : T4) : T3 := fun bi s e => C bi (headOf e) s (featOf e)

/-- The closing projection: `c · Wᵀ + b`. -/
def oproj (c : T3) (W : T2) (b : T1) : T3 :=
  fun bi s e => (∑ k : Fin 1024, c bi s k * W e k) + b e

/-- The whole, with the sum-first context. -/
def mhaSumFirst (x : T3) (Wq : T2) (bq : T1) (Wk : T2) (bk : T1) (Wv : T2) (bv : T1) (Wo : T2) (bo : T1) : T3 :=
  oproj (merge (ctxSumFirst (proj x Wq bq) (proj x Wk bk) (proj x Wv bv))) Wo bo

/-- The whole, with the divide-first context. -/
def mhaDivFirst (x : T3) (Wq : T2) (bq : T1) (Wk : T2) (bk : T1) (Wv : T2) (bv : T1) (Wo : T2) (bo : T1) : T3 :=
  oproj (merge (ctxDivFirst (proj x Wq bq) (proj x Wk bk) (proj x Wv bv))) Wo bo

/-- `hc` and `headOf`, `featOf` are inverse. -/
theorem headOf_hc (h : Fin 16) (d : Fin 64) : headOf (hc h d) = h := by
  apply Fin.ext; simp only [headOf, hc]; omega
theorem featOf_hc (h : Fin 16) (d : Fin 64) : featOf (hc h d) = d := by
  apply Fin.ext; simp only [featOf, hc]; omega
theorem hc_headOf_featOf (e : Fin 1024) : hc (headOf e) (featOf e) = e := by
  apply Fin.ext; simp only [headOf, featOf, hc]; omega

/-! ### Real entries -/

/-- The coercion of a finite sum of reals is the sum of the coercions. -/
private theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of products of reals is real. -/
private theorem sum_mul_real {ι : Type} (s : Finset ι) (f g : ι → EReal)
    (hf : ∀ i, ∃ r : ℝ, f i = (r : EReal)) (hg : ∀ i, ∃ r : ℝ, g i = (r : EReal)) :
    ∃ r : ℝ, ∑ i ∈ s, f i * g i = (r : EReal) := by
  choose a ha using hf
  choose c hc' using hg
  refine ⟨∑ i ∈ s, a i * c i, ?_⟩
  rw [coe_sum]
  refine Finset.sum_congr rfl (fun i _ => ?_)
  rw [ha i, hc' i, EReal.coe_mul]

/-- The largest of finitely many reals, counted from `⊥`, is `⊥` or real. -/
private theorem fold_max_bot_or_real {ι : Type} (s : Finset ι) (f : ι → ℝ) :
    s.fold max (⊥ : EReal) (fun k => (f k : EReal)) = ⊥ ∨
      ∃ r : ℝ, s.fold max (⊥ : EReal) (fun k => (f k : EReal)) = (r : EReal) := by
  classical
  refine Finset.induction_on s ?_ ?_
  · left; exact Finset.fold_empty
  · intro a s ha ih
    right
    rw [Finset.fold_insert ha]
    rcases ih with h | ⟨r, h⟩
    · exact ⟨f a, by rw [h, max_bot_right]⟩
    · rw [h]
      rcases le_total (f a) r with hle | hle
      · exact ⟨r, max_eq_right (EReal.coe_le_coe_iff.2 hle)⟩
      · exact ⟨f a, max_eq_left (EReal.coe_le_coe_iff.2 hle)⟩

/-- Over a nonempty index set it is real: it is at least one of the values. -/
private theorem fold_max_real {ι : Type} (s : Finset ι) (hs : s.Nonempty) (f : ι → ℝ) :
    ∃ r : ℝ, s.fold max (⊥ : EReal) (fun k => (f k : EReal)) = (r : EReal) := by
  rcases fold_max_bot_or_real s f with h | h
  · exfalso
    obtain ⟨k, hk⟩ := hs
    have hle : (f k : EReal) ≤ s.fold max (⊥ : EReal) (fun k => (f k : EReal)) :=
      (Finset.le_fold_max _).2 (Or.inr ⟨k, hk, le_rfl⟩)
    rw [h, le_bot_iff] at hle
    exact EReal.coe_ne_bot _ hle
  · exact h

/-- One query's row: with real scores and values, dividing the weighted sum by the total weight is
    summing with every weight divided first.  The largest score is real, so every weight is the
    exponential of a real, a positive real, and so is the total; both sides are then the coercion
    of one real number. -/
private theorem row_eq {ι : Type} (s : Finset ι) (hs : s.Nonempty) (sc v : ι → ℝ) :
    Ideal.div
        (∑ k ∈ s, Ideal.exp ((sc k : EReal) - s.fold max (⊥ : EReal) (fun k => (sc k : EReal))) * (v k : EReal))
        (∑ k ∈ s, Ideal.exp ((sc k : EReal) - s.fold max (⊥ : EReal) (fun k => (sc k : EReal)))) =
      ∑ k ∈ s, Ideal.div (Ideal.exp ((sc k : EReal) - s.fold max (⊥ : EReal) (fun k => (sc k : EReal))))
        (∑ k ∈ s, Ideal.exp ((sc k : EReal) - s.fold max (⊥ : EReal) (fun k => (sc k : EReal)))) * (v k : EReal) := by
  obtain ⟨m, hm⟩ := fold_max_real s hs sc
  rw [hm]
  have hw : ∀ k, Ideal.exp ((sc k : EReal) - (m : EReal)) = ((Real.exp (sc k - m) : ℝ) : EReal) :=
    fun k => by rw [← EReal.coe_sub, Ideal.exp_coe]
  simp only [hw]
  have hL : ∑ k ∈ s, ((Real.exp (sc k - m) : ℝ) : EReal) = ((∑ k ∈ s, Real.exp (sc k - m) : ℝ) : EReal) :=
    (coe_sum s _).symm
  have hpos : 0 < ∑ k ∈ s, Real.exp (sc k - m) := Finset.sum_pos (fun k _ => Real.exp_pos _) hs
  rw [hL]
  simp only [Ideal.div_coe hpos.ne', ← EReal.coe_mul, ← coe_sum]
  congr 1
  rw [Finset.sum_mul]
  refine Finset.sum_congr rfl (fun k _ => ?_)
  ring

/-- The scores of real queries and keys are real. -/
private theorem score_real (Q K : T4)
    (hQ : ∀ bi h s d, ∃ r : ℝ, Q bi h s d = (r : EReal)) (hK : ∀ bi h s d, ∃ r : ℝ, K bi h s d = (r : EReal))
    (bi : Fin 4) (h : Fin 16) (q k : Fin 2048) : ∃ r : ℝ, score Q K bi h q k = (r : EReal) := by
  obtain ⟨r, hr⟩ := sum_mul_real Finset.univ (fun d => Q bi h q d) (fun d => K bi h k d) (fun d => hQ bi h q d) (fun d => hK bi h k d)
  exact ⟨r * (1 / 8), by rw [EReal.coe_mul]; unfold score; rw [hr]⟩

/-- A projection of real entries has real entries. -/
theorem proj_real (x : T3) (W : T2) (b : T1)
    (hx : ∀ bi s k, ∃ r : ℝ, x bi s k = (r : EReal)) (hW : ∀ e k, ∃ r : ℝ, W e k = (r : EReal)) (hb : ∀ e, ∃ r : ℝ, b e = (r : EReal))
    (bi : Fin 4) (h : Fin 16) (s : Fin 2048) (d : Fin 64) : ∃ r : ℝ, proj x W b bi h s d = (r : EReal) := by
  obtain ⟨r, hr⟩ := sum_mul_real Finset.univ (fun k => x bi s k) (fun k => W (hc h d) k) (fun k => hx bi s k) (fun k => hW (hc h d) k)
  obtain ⟨c, hc'⟩ := hb (hc h d)
  exact ⟨r + c, by rw [EReal.coe_add]; unfold proj; rw [hr, hc']⟩

/-- With real queries, keys and values the two spellings of the context are one function. -/
theorem ctxSumFirst_eq_ctxDivFirst (Q K V : T4)
    (hQ : ∀ bi h s d, ∃ r : ℝ, Q bi h s d = (r : EReal)) (hK : ∀ bi h s d, ∃ r : ℝ, K bi h s d = (r : EReal))
    (hV : ∀ bi h s d, ∃ r : ℝ, V bi h s d = (r : EReal)) : ctxSumFirst Q K V = ctxDivFirst Q K V := by
  choose sc hsc using score_real Q K hQ hK
  choose v hv using hV
  funext bi h q d
  simp only [ctxSumFirst, ctxDivFirst, rowSum, wexp, rowMax, hsc, hv]
  exact row_eq Finset.univ ⟨q, Finset.mem_univ q⟩ (fun k => sc bi h q k) (fun k => v bi h k d)

/-- With real inputs the two spellings of the whole are one function. -/
theorem mhaSumFirst_eq_mhaDivFirst (x : T3) (Wq : T2) (bq : T1) (Wk : T2) (bk : T1) (Wv : T2) (bv : T1) (Wo : T2) (bo : T1)
    (hx : ∀ bi s k, ∃ r : ℝ, x bi s k = (r : EReal))
    (hWq : ∀ e k, ∃ r : ℝ, Wq e k = (r : EReal)) (hbq : ∀ e, ∃ r : ℝ, bq e = (r : EReal))
    (hWk : ∀ e k, ∃ r : ℝ, Wk e k = (r : EReal)) (hbk : ∀ e, ∃ r : ℝ, bk e = (r : EReal))
    (hWv : ∀ e k, ∃ r : ℝ, Wv e k = (r : EReal)) (hbv : ∀ e, ∃ r : ℝ, bv e = (r : EReal)) :
    mhaSumFirst x Wq bq Wk bk Wv bv Wo bo = mhaDivFirst x Wq bq Wk bk Wv bv Wo bo := by
  unfold mhaSumFirst mhaDivFirst
  rw [ctxSumFirst_eq_ctxDivFirst _ _ _ (proj_real x Wq bq hx hWq hbq) (proj_real x Wk bk hx hWk hbk) (proj_real x Wv bv hx hWv hbv)]

end Cert.Spec

end
-- ==== Proof.KIVal0.lean ====
/-
  What the first kernel region (the fused query / key / value projection) leaves in its three output arrays, at the ideal
  values.

  Every grid point takes 512 positions of one batch, multiplies them with the transpose of the stacked 3072 × 1024 weight
  matrix, adds the stacked bias along the rows, cuts the 3072 columns into three slabs of 1024 and lays each slab out by
  heads.  The sixteen blocks tile each output array, so each array ends, entry by entry, at the projection of the input
  with its slab of the stacked weights and bias.
-/
import proofs.«423255_j9981503996505_3_alg».proof.Proof.KIReg0
import proofs.«423255_j9981503996505_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/- The contents of the core's unscoped buffers when the region is entered, at the ideal values. -/
variable (V : (c : Dev nD) → (b : Ref sig .tc) → Buf (Elt Ideal) ((c : Thread nD τ).loc b))

/-- The input as the region finds it, by coordinates. -/
def xIn (c : Dev nD) : Cert.Spec.T3 := fun bi s k => (V c main_arg0 : S4x2048x1024.Idx → EReal) (ix3 bi s k)
/-- Slab `i` (0 queries, 1 keys, 2 values) of the stacked weights and of the stacked bias, as the region finds them. -/
def wcIn (c : Dev nD) (i : Fin 3) : Cert.Spec.T2 :=
  fun r k => (V c main_v1 : S3072x1024.Idx → EReal) (ix2 (⟨i.val * 1024 + r.val, by omega⟩ : Fin 3072) k)
def bcIn (c : Dev nD) (i : Fin 3) : Cert.Spec.T1 :=
  fun r => (V c main_v2 : S3072.Idx → EReal) (ix1 (⟨i.val * 1024 + r.val, by omega⟩ : Fin 3072))

namespace R0

/-! ## The product's operand indices -/

theorem lhs0_0 (i : S512x3072.Idx) (q : dot_S512x1024_S3072x1024_S512x3072_1_1_0_0_n_n.contr.Idx) :
    (dot_S512x1024_S3072x1024_S512x3072_1_1_0_0_n_n.lhsIdx i q 0).val = (i 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
theorem lhs0_1 (i : S512x3072.Idx) (q : dot_S512x1024_S3072x1024_S512x3072_1_1_0_0_n_n.contr.Idx) :
    (dot_S512x1024_S3072x1024_S512x3072_1_1_0_0_n_n.lhsIdx i q 1).val = (q ⟨0, by decide⟩).val :=
  dot_S512x1024_S3072x1024_S512x3072_1_1_0_0_n_n.lhsIdx_val_of_single rfl i q
theorem rhs0_0 (i : S512x3072.Idx) (q : dot_S512x1024_S3072x1024_S512x3072_1_1_0_0_n_n.contr.Idx) :
    (dot_S512x1024_S3072x1024_S512x3072_1_1_0_0_n_n.rhsIdx i q 0).val = (i 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
theorem rhs0_1 (i : S512x3072.Idx) (q : dot_S512x1024_S3072x1024_S512x3072_1_1_0_0_n_n.contr.Idx) :
    (dot_S512x1024_S3072x1024_S512x3072_1_1_0_0_n_n.rhsIdx i q 1).val = (q ⟨0, by decide⟩).val :=
  dot_S512x1024_S3072x1024_S512x3072_1_1_0_0_n_n.rhsIdx_val_of_single rfl i q

/-- The product of the 512 rows with the transposed stacked weights, into zero, is a plain sum over the 1024 features. -/
theorem matmul0_apply (l : FVec Ideal S512x1024 .bf16) (w : FVec Ideal S3072x1024 .bf16) (r : Fin 512) (n : Fin 3072) :
    matmul dot_S512x1024_S3072x1024_S512x3072_1_1_0_0_n_n none l w (constant (F := Ideal) S512x3072 .f32 0x00000000#32) (ix2 r n)
      = ∑ k : Fin 1024, l (ix2 r k) * w (ix2 n k) := by
  refine (Ideal.matmul_constant_zero_apply _ none l w (ix2 r n)).trans ?_
  rw [← Equiv.sum_comp (ValueIdx.contrEquiv1 dot_S512x1024_S3072x1024_S512x3072_1_1_0_0_n_n 1024 rfl rfl).symm]
  refine Finset.sum_congr rfl fun k _ => ?_
  have hk := ValueIdx.contrEquiv1_symm_val dot_S512x1024_S3072x1024_S512x3072_1_1_0_0_n_n 1024 rfl rfl k
  have el : dot_S512x1024_S3072x1024_S512x3072_1_1_0_0_n_n.lhsIdx (ix2 r n) ((ValueIdx.contrEquiv1 dot_S512x1024_S3072x1024_S512x3072_1_1_0_0_n_n 1024 rfl rfl).symm k) = ix2 r k := funext fun a => Fin.ext (by
    match a with
    | ⟨0, _⟩ => exact lhs0_0 _ _
    | ⟨1, _⟩ => exact (lhs0_1 _ _).trans hk)
  have er : dot_S512x1024_S3072x1024_S512x3072_1_1_0_0_n_n.rhsIdx (ix2 r n) ((ValueIdx.contrEquiv1 dot_S512x1024_S3072x1024_S512x3072_1_1_0_0_n_n 1024 rfl rfl).symm k) = ix2 n k := funext fun a => Fin.ext (by
    match a with
    | ⟨0, _⟩ => exact rhs0_0 _ _
    | ⟨1, _⟩ => exact (rhs0_1 _ _).trans hk)
  rw [el, er]

/-- Entry (r, n) of the fused projection of a block: row r of the input against row n of the stacked weights, plus
    entry n of the stacked bias. -/
theorem pay1_apply (x0 : Vec Ideal S1x512x1024 .f32) (x1 : Vec Ideal S3072x1024 .bf16) (x2 : Vec Ideal S3072 .f32)
    (r : Fin 512) (n : Fin 3072) :
    k0_pay1 x0 x1 x2 (ix2 r n) = (∑ k : Fin 1024, x0 (ix3 (0 : Fin 1) r k) * x1 (ix2 n k)) + x2 (ix1 n) := by
  unfold k0_pay1
  rw [addf_apply, matmul0_apply, broadcastTo_1b_ab_apply, shapeCast_a_1a_apply, shapeCast_self, shapeCast_self]
  congr 1
  refine Finset.sum_congr rfl fun k _ => ?_
  rw [truncf_apply, shapeCast_1ab_ab_apply]

/-- The head-major layout of a slab of 1024 columns: sixteen heads of 64 features, head first. -/
theorem transpose_102_apply {a b e : ℕ} (x : (⟨3, ![a, b, e]⟩ : Shape).Idx → EReal)
    (h : (⟨3, ![a, b, e]⟩ : Shape).Transposes [1, 0, 2] ⟨3, ![b, a, e]⟩) (j : Fin b) (i : Fin a) (l : Fin e) :
    transpose ⟨3, ![b, a, e]⟩ [1, 0, 2] x h (ix3 j i l) = x (ix3 i j l) :=
  transpose_apply _ x h _ _ fun c => match c with | ⟨0, _⟩ => rfl | ⟨1, _⟩ => rfl | ⟨2, _⟩ => rfl

/-- A row of 1024 features read as sixteen heads of 64. -/
theorem heads_apply (x : S512x1024.Idx → EReal) (h : S512x1024.ShapeCasts S512x16x64) (r : Fin 512) (hd : Fin 16) (d : Fin 64)
    (e : Fin 1024) (he : e.val = hd.val * 64 + d.val) :
    shapeCast S512x16x64 x h (ix3 r hd d) = x (ix2 r e) :=
  shapeCast_apply x h _ _ (by
    rw [Shape.rowMajor_val_three, Shape.rowMajor_val_two]
    show r.val * 1024 + e.val = (r.val * 16 + hd.val) * 64 + d.val
    omega)

/-- What is stored for a slab starting at column o: entry (head, row, feature) is entry (row, o + 64·head + feature)
    of the fused projection. -/
theorem slab_apply (o : Nat) (P : FVec Ideal S512x3072 .f32) (hs : S512x3072.Slices ![0, o] S512x1024)
    (hc : S512x1024.ShapeCasts S512x16x64) (ht : S512x16x64.Transposes [1, 0, 2] S16x512x64)
    (hb : FTy.bits .bf16 < FTy.bits .f32) (hc' : S16x512x64.ShapeCasts S1x16x512x64)
    (u : Fin 1) (hd : Fin 16) (r : Fin 512) (d : Fin 64) (n : Fin 3072) (hn : n.val = o + (hd.val * 64 + d.val)) :
    shapeCast S1x16x512x64 (truncf .bf16 (transpose S16x512x64 [1, 0, 2] (shapeCast S512x16x64
        (extractStridedSlice S512x1024 ![0, o] P hs) hc) ht) hb : FVec Ideal S16x512x64 .bf16) hc' (ix4 u hd r d)
      = P (ix2 r n) := by
  have hlt : hd.val * 64 + d.val < 1024 := by omega
  rw [shapeCast_abc_1abc_apply, truncf_apply, transpose_102_apply, heads_apply _ _ r hd d ⟨hd.val * 64 + d.val, hlt⟩ rfl]
  exact slice2_axis1_apply o P hs r _ n hn

theorem pay2_apply (x0 : Vec Ideal S1x512x1024 .f32) (x1 : Vec Ideal S3072x1024 .bf16) (x2 : Vec Ideal S3072 .f32)
    (u : Fin 1) (hd : Fin 16) (r : Fin 512) (d : Fin 64) (n : Fin 3072) (hn : n.val = 0 + (hd.val * 64 + d.val)) :
    k0_pay2 x0 x1 x2 (ix4 u hd r d) = (∑ k : Fin 1024, x0 (ix3 (0 : Fin 1) r k) * x1 (ix2 n k)) + x2 (ix1 n) := by
  unfold k0_pay2
  exact (slab_apply 0 _ _ _ _ _ _ u hd r d n hn).trans (pay1_apply x0 x1 x2 r n)
theorem pay3_apply (x0 : Vec Ideal S1x512x1024 .f32) (x1 : Vec Ideal S3072x1024 .bf16) (x2 : Vec Ideal S3072 .f32)
    (u : Fin 1) (hd : Fin 16) (r : Fin 512) (d : Fin 64) (n : Fin 3072) (hn : n.val = 1024 + (hd.val * 64 + d.val)) :
    k0_pay3 x0 x1 x2 (ix4 u hd r d) = (∑ k : Fin 1024, x0 (ix3 (0 : Fin 1) r k) * x1 (ix2 n k)) + x2 (ix1 n) := by
  unfold k0_pay3
  exact (slab_apply 1024 _ _ _ _ _ _ u hd r d n hn).trans (pay1_apply x0 x1 x2 r n)
theorem pay4_apply (x0 : Vec Ideal S1x512x1024 .f32) (x1 : Vec Ideal S3072x1024 .bf16) (x2 : Vec Ideal S3072 .f32)
    (u : Fin 1) (hd : Fin 16) (r : Fin 512) (d : Fin 64) (n : Fin 3072) (hn : n.val = 2048 + (hd.val * 64 + d.val)) :
    k0_pay4 x0 x1 x2 (ix4 u hd r d) = (∑ k : Fin 1024, x0 (ix3 (0 : Fin 1) r k) * x1 (ix2 n k)) + x2 (ix1 n) := by
  unfold k0_pay4
  exact (slab_apply 2048 _ _ _ _ _ _ u hd r d n hn).trans (pay1_apply x0 x1 x2 r n)

/-! ## The blocks the windows cut -/

/-- The printed index maps over the sixteen grid points: point t is batch t / 4 and row tile t % 4; the input and the
    three outputs move with them, the stacked weights and bias stay whole. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 1) = 0
    ∧ win0_3.index t (0 : Fin 4) = t.val / 4 ∧ win0_3.index t (1 : Fin 4) = 0 ∧ win0_3.index t (2 : Fin 4) = t.val % 4 ∧ win0_3.index t (3 : Fin 4) = 0
    ∧ win0_4.index t (0 : Fin 4) = t.val / 4 ∧ win0_4.index t (1 : Fin 4) = 0 ∧ win0_4.index t (2 : Fin 4) = t.val % 4 ∧ win0_4.index t (3 : Fin 4) = 0
    ∧ win0_5.index t (0 : Fin 4) = t.val / 4 ∧ win0_5.index t (1 : Fin 4) = 0 ∧ win0_5.index t (2 : Fin 4) = t.val % 4 ∧ win0_5.index t (3 : Fin 4) = 0 :=
  (by decide +kernel : ∀ t : Fin grid0.N, _)

/-- The input block at point t: 512 rows of batch t / 4 from row 512 · (t % 4). -/
theorem iblk0_0_apply (c : Dev nD) (t : Fin cfg0.N) (r : Fin 512) (k : Fin 1024) (bi : Fin 4) (s : Fin 2048)
    (hb : bi.val = t.val / 4) (hs : s.val = (t.val % 4) * 512 + r.val) :
    (iblk0 V c 0 t : Vec Ideal S1x512x1024 .f32) (ix3 (0 : Fin 1) r k) = (V c main_arg0 : S4x2048x1024.Idx → EReal) (ix3 bi s k) := by
  obtain ⟨e0, e1, e2, -⟩ := idx_facts t
  unfold iblk0
  rw [View.read_apply]
  show V c main_arg0 _ = V c main_arg0 _
  congr 1
  funext a
  apply Fin.ext
  match a with
  | ⟨0, _⟩ => show win0_0.index t (0 : Fin 3) * 1 + 1 * (0 : Fin 1).val = bi.val; rw [e0, hb]; simp
  | ⟨1, _⟩ => show win0_0.index t (1 : Fin 3) * 512 + 1 * r.val = s.val; rw [e1, hs]; omega
  | ⟨2, _⟩ => show win0_0.index t (2 : Fin 3) * 1024 + 1 * k.val = k.val; rw [e2]; omega

/-- The stacked weights' block is the whole array at every point. -/
theorem iblk0_1_apply (c : Dev nD) (t : Fin cfg0.N) (n : Fin 3072) (k : Fin 1024) :
    (iblk0 V c 1 t : Vec Ideal S3072x1024 .bf16) (ix2 n k) = (V c main_v1 : S3072x1024.Idx → EReal) (ix2 n k) := by
  obtain ⟨-, -, -, e0, e1, -⟩ := idx_facts t
  unfold iblk0
  rw [View.read_apply]
  show V c main_v1 _ = V c main_v1 _
  congr 1
  funext a
  apply Fin.ext
  match a with
  | ⟨0, _⟩ => show win0_1.index t (0 : Fin 2) * 3072 + 1 * n.val = n.val; rw [e0]; omega
  | ⟨1, _⟩ => show win0_1.index t (1 : Fin 2) * 1024 + 1 * k.val = k.val; rw [e1]; omega

/-- The stacked bias' block likewise. -/
theorem iblk0_2_apply (c : Dev nD) (t : Fin cfg0.N) (n : Fin 3072) :
    (iblk0 V c 2 t : Vec Ideal S3072 .f32) (ix1 n) = (V c main_v2 : S3072.Idx → EReal) (ix1 n) := by
  obtain ⟨-, -, -, -, -, e0, -⟩ := idx_facts t
  unfold iblk0
  rw [View.read_apply]
  show V c main_v2 _ = V c main_v2 _
  congr 1
  funext a
  apply Fin.ext
  match a with
  | ⟨0, _⟩ => show win0_2.index t (0 : Fin 1) * 3072 + 1 * n.val = n.val; rw [e0]; omega

/-! ## A block's entries -/

theorem slab_lt (i : Fin 3) (hd : Fin 16) (d : Fin 64) : i.val * 1024 + (Cert.Spec.hc hd d).val < 3072 := by
  have := (Cert.Spec.hc hd d).isLt
  omega

/-- The sum of products of a row of the input block with a row of the stacked weights, plus the bias entry, where the
    blocks' entries are the arrays' at batch `bi` and row `s`, is the projection's entry there. -/
theorem block_value (c : Dev nD) (i : Fin 3) (hd : Fin 16) (r : Fin 512) (d : Fin 64) (bi : Fin 4) (s : Fin 2048)
    (n : Fin 3072) (hn : n.val = i.val * 1024 + (hd.val * 64 + d.val))
    (x0 : Vec Ideal S1x512x1024 .f32) (x1 : Vec Ideal S3072x1024 .bf16) (x2 : Vec Ideal S3072 .f32)
    (h0 : ∀ k : Fin 1024, x0 (ix3 (0 : Fin 1) r k) = (V c main_arg0 : S4x2048x1024.Idx → EReal) (ix3 bi s k))
    (h1 : ∀ k : Fin 1024, x1 (ix2 n k) = (V c main_v1 : S3072x1024.Idx → EReal) (ix2 n k))
    (h2 : x2 (ix1 n) = (V c main_v2 : S3072.Idx → EReal) (ix1 n)) :
    (∑ k : Fin 1024, x0 (ix3 (0 : Fin 1) r k) * x1 (ix2 n k)) + x2 (ix1 n)
      = Cert.Spec.proj (xIn V c) (wcIn V c i) (bcIn V c i) bi hd s d := by
  have hn' : n = ⟨i.val * 1024 + (Cert.Spec.hc hd d).val, slab_lt i hd d⟩ := Fin.ext hn
  subst hn'
  simp only [Cert.Spec.proj, xIn, wcIn, bcIn]
  rw [h2]
  congr 1
  refine Finset.sum_congr rfl fun k _ => ?_
  rw [h0 k, h1 k]

/-- What slab `i`'s output array ends at. -/
def projOut (c : Dev nD) (i : Fin 3) : S4x16x2048x64.Idx → EReal :=
  fun j => Cert.Spec.proj (xIn V c) (wcIn V c i) (bcIn V c i) (j 0) (j 1) (j 2) (j 3)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem N0_eq : cfg0.N = 16 := rfl

/-! ## The query array -/

/-- An entry of the query block stored at point t is the entry of the projection under it in the array. -/
theorem entry3 (c : Dev nD) (t : Fin cfg0.N) (y : S1x16x512x64.Idx) :
    k0_pay2 (iblk0 V c 0 t) (iblk0 V c 1 t) (iblk0 V c 2 t) y = projOut V c 0 (((cfg0.win 3).blk t).view.emb y) := by
  obtain ⟨u, hd, r, d, rfl⟩ : ∃ (u : Fin 1) (hd : Fin 16) (r : Fin 512) (d : Fin 64), y = ix4 u hd r d :=
    ⟨y 0, y 1, y 2, y 3, eq_ix4 y⟩
  have ht : t.val < 16 := N0_eq ▸ t.isLt
  have f := idx_facts t
  have hemb : ((cfg0.win 3).blk t).view.emb (ix4 u hd r d)
      = ix4 (⟨t.val / 4, by omega⟩ : Fin 4) hd (⟨(t.val % 4) * 512 + r.val, by omega⟩ : Fin 2048) d := by
    funext a
    apply Fin.ext
    match a with
    | ⟨0, _⟩ => show win0_3.index t (0 : Fin 4) * 1 + 1 * u.val = t.val / 4; omega
    | ⟨1, _⟩ => show win0_3.index t (1 : Fin 4) * 16 + 1 * hd.val = hd.val; omega
    | ⟨2, _⟩ => show win0_3.index t (2 : Fin 4) * 512 + 1 * r.val = (t.val % 4) * 512 + r.val; omega
    | ⟨3, _⟩ => show win0_3.index t (3 : Fin 4) * 64 + 1 * d.val = d.val; omega
  rw [hemb]
  refine (pay2_apply _ _ _ u hd r d ⟨0 + (hd.val * 64 + d.val), by omega⟩ rfl).trans ?_
  exact block_value V c 0 hd r d _ _ _ rfl _ _ _ (fun k => iblk0_0_apply V c t r k _ _ rfl rfl)
    (fun k => iblk0_1_apply V c t _ k) (iblk0_2_apply V c t _)

/-- What point t writes back to the query array is its block of the projection. -/
theorem flushed3_eq (c : Dev nD) (t : Fin cfg0.N) :
    (dat0 V c).flushed 3 t = ((cfg0.win 3).blk t).view.read (Elt Ideal) (projOut V c 0) := by
  show (cfg0.win 3).cut (grid0.coords t) ((dat0 V c).after 3 t) = _
  rw [after0_3]
  unfold out0_3
  rw [View.canon_unit_zero hz4]
  simp only [View.ld_unit_zero (S := S1x512x1024) hz3, View.ld_unit_zero (S := S3072x1024) hz2, View.ld_unit_zero (S := S3072) hz1]
  funext y
  exact entry3 V c t y

/-- An index of the query array lies in point t's block when each coordinate lies in the block's range. -/
theorem mem_blk3 (t : Fin cfg0.N) (i : S4x16x2048x64.Idx) :
    i ∈ ((cfg0.win 3).blk t).view.set ↔ ∀ a : Fin 4, win0_3.index t a * S1x16x512x64.size a ≤ (i a).val ∧ (i a).val < win0_3.index t a * S1x16x512x64.size a + S1x16x512x64.size a := by
  show i ∈ ((View.whole main_v4_0).slice (win0_3.rect t)).set ↔ _
  rw [View.set_slice_whole, Rect.mem_set_unit]
  exact Iff.rfl

/-- The sixteen blocks tile the query array: batch b, row s lies in the block of point 4 · b + s / 512. -/
theorem cover3 (i : S4x16x2048x64.Idx) :
    ∃ t : Fin cfg0.N, (cfg0.win 3).flush t = true ∧ i ∈ ((cfg0.win 3).blk t).view.set := by
  have h0 : (i 0).val < 4 := (i 0).isLt
  have h1 : (i 1).val < 16 := (i 1).isLt
  have h2 : (i 2).val < 2048 := (i 2).isLt
  have h3 : (i 3).val < 64 := (i 3).isLt
  obtain ⟨t, ht⟩ : ∃ t : Fin cfg0.N, t.val = (i 0).val * 4 + (i 2).val / 512 :=
    ⟨⟨(i 0).val * 4 + (i 2).val / 512, by rw [N0_eq]; omega⟩, rfl⟩
  refine ⟨t, flush0_3 t, ?_⟩
  rw [mem_blk3]
  have f := idx_facts t
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- So the query array ends at the projection with slab 0. -/
theorem final3 (c : Dev nD) : (dat0 V c).arrAt 3 cfg0.N = projOut V c 0 :=
  (dat0 V c).arrAt_eq_of_cover 3 (projOut V c 0) (fun t _ => flushed3_eq V c t) cover3

/-! ## The key array -/

/-- An entry of the key block stored at point t is the entry of the projection under it in the array. -/
theorem entry4 (c : Dev nD) (t : Fin cfg0.N) (y : S1x16x512x64.Idx) :
    k0_pay3 (iblk0 V c 0 t) (iblk0 V c 1 t) (iblk0 V c 2 t) y = projOut V c 1 (((cfg0.win 4).blk t).view.emb y) := by
  obtain ⟨u, hd, r, d, rfl⟩ : ∃ (u : Fin 1) (hd : Fin 16) (r : Fin 512) (d : Fin 64), y = ix4 u hd r d :=
    ⟨y 0, y 1, y 2, y 3, eq_ix4 y⟩
  have ht : t.val < 16 := N0_eq ▸ t.isLt
  have f := idx_facts t
  have hemb : ((cfg0.win 4).blk t).view.emb (ix4 u hd r d)
      = ix4 (⟨t.val / 4, by omega⟩ : Fin 4) hd (⟨(t.val % 4) * 512 + r.val, by omega⟩ : Fin 2048) d := by
    funext a
    apply Fin.ext
    match a with
    | ⟨0, _⟩ => show win0_4.index t (0 : Fin 4) * 1 + 1 * u.val = t.val / 4; omega
    | ⟨1, _⟩ => show win0_4.index t (1 : Fin 4) * 16 + 1 * hd.val = hd.val; omega
    | ⟨2, _⟩ => show win0_4.index t (2 : Fin 4) * 512 + 1 * r.val = (t.val % 4) * 512 + r.val; omega
    | ⟨3, _⟩ => show win0_4.index t (3 : Fin 4) * 64 + 1 * d.val = d.val; omega
  rw [hemb]
  refine (pay3_apply _ _ _ u hd r d ⟨1024 + (hd.val * 64 + d.val), by omega⟩ rfl).trans ?_
  exact block_value V c 1 hd r d _ _ _ rfl _ _ _ (fun k => iblk0_0_apply V c t r k _ _ rfl rfl)
    (fun k => iblk0_1_apply V c t _ k) (iblk0_2_apply V c t _)

/-- What point t writes back to the key array is its block of the projection. -/
theorem flushed4_eq (c : Dev nD) (t : Fin cfg0.N) :
    (dat0 V c).flushed 4 t = ((cfg0.win 4).blk t).view.read (Elt Ideal) (projOut V c 1) := by
  show (cfg0.win 4).cut (grid0.coords t) ((dat0 V c).after 4 t) = _
  rw [after0_4]
  unfold out0_4
  rw [View.canon_unit_zero hz4]
  simp only [View.ld_unit_zero (S := S1x512x1024) hz3, View.ld_unit_zero (S := S3072x1024) hz2, View.ld_unit_zero (S := S3072) hz1]
  funext y
  exact entry4 V c t y

/-- An index of the key array lies in point t's block when each coordinate lies in the block's range. -/
theorem mem_blk4 (t : Fin cfg0.N) (i : S4x16x2048x64.Idx) :
    i ∈ ((cfg0.win 4).blk t).view.set ↔ ∀ a : Fin 4, win0_4.index t a * S1x16x512x64.size a ≤ (i a).val ∧ (i a).val < win0_4.index t a * S1x16x512x64.size a + S1x16x512x64.size a := by
  show i ∈ ((View.whole main_v4_1).slice (win0_4.rect t)).set ↔ _
  rw [View.set_slice_whole, Rect.mem_set_unit]
  exact Iff.rfl

/-- The sixteen blocks tile the key array: batch b, row s lies in the block of point 4 · b + s / 512. -/
theorem cover4 (i : S4x16x2048x64.Idx) :
    ∃ t : Fin cfg0.N, (cfg0.win 4).flush t = true ∧ i ∈ ((cfg0.win 4).blk t).view.set := by
  have h0 : (i 0).val < 4 := (i 0).isLt
  have h1 : (i 1).val < 16 := (i 1).isLt
  have h2 : (i 2).val < 2048 := (i 2).isLt
  have h3 : (i 3).val < 64 := (i 3).isLt
  obtain ⟨t, ht⟩ : ∃ t : Fin cfg0.N, t.val = (i 0).val * 4 + (i 2).val / 512 :=
    ⟨⟨(i 0).val * 4 + (i 2).val / 512, by rw [N0_eq]; omega⟩, rfl⟩
  refine ⟨t, flush0_4 t, ?_⟩
  rw [mem_blk4]
  have f := idx_facts t
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- So the key array ends at the projection with slab 1. -/
theorem final4 (c : Dev nD) : (dat0 V c).arrAt 4 cfg0.N = projOut V c 1 :=
  (dat0 V c).arrAt_eq_of_cover 4 (projOut V c 1) (fun t _ => flushed4_eq V c t) cover4

/-! ## The value array -/

/-- An entry of the value block stored at point t is the entry of the projection under it in the array. -/
theorem entry5 (c : Dev nD) (t : Fin cfg0.N) (y : S1x16x512x64.Idx) :
    k0_pay4 (iblk0 V c 0 t) (iblk0 V c 1 t) (iblk0 V c 2 t) y = projOut V c 2 (((cfg0.win 5).blk t).view.emb y) := by
  obtain ⟨u, hd, r, d, rfl⟩ : ∃ (u : Fin 1) (hd : Fin 16) (r : Fin 512) (d : Fin 64), y = ix4 u hd r d :=
    ⟨y 0, y 1, y 2, y 3, eq_ix4 y⟩
  have ht : t.val < 16 := N0_eq ▸ t.isLt
  have f := idx_facts t
  have hemb : ((cfg0.win 5).blk t).view.emb (ix4 u hd r d)
      = ix4 (⟨t.val / 4, by omega⟩ : Fin 4) hd (⟨(t.val % 4) * 512 + r.val, by omega⟩ : Fin 2048) d := by
    funext a
    apply Fin.ext
    match a with
    | ⟨0, _⟩ => show win0_5.index t (0 : Fin 4) * 1 + 1 * u.val = t.val / 4; omega
    | ⟨1, _⟩ => show win0_5.index t (1 : Fin 4) * 16 + 1 * hd.val = hd.val; omega
    | ⟨2, _⟩ => show win0_5.index t (2 : Fin 4) * 512 + 1 * r.val = (t.val % 4) * 512 + r.val; omega
    | ⟨3, _⟩ => show win0_5.index t (3 : Fin 4) * 64 + 1 * d.val = d.val; omega
  rw [hemb]
  refine (pay4_apply _ _ _ u hd r d ⟨2048 + (hd.val * 64 + d.val), by omega⟩ rfl).trans ?_
  exact block_value V c 2 hd r d _ _ _ rfl _ _ _ (fun k => iblk0_0_apply V c t r k _ _ rfl rfl)
    (fun k => iblk0_1_apply V c t _ k) (iblk0_2_apply V c t _)

/-- What point t writes back to the value array is its block of the projection. -/
theorem flushed5_eq (c : Dev nD) (t : Fin cfg0.N) :
    (dat0 V c).flushed 5 t = ((cfg0.win 5).blk t).view.read (Elt Ideal) (projOut V c 2) := by
  show (cfg0.win 5).cut (grid0.coords t) ((dat0 V c).after 5 t) = _
  rw [after0_5]
  unfold out0_5
  rw [View.canon_unit_zero hz4]
  simp only [View.ld_unit_zero (S := S1x512x1024) hz3, View.ld_unit_zero (S := S3072x1024) hz2, View.ld_unit_zero (S := S3072) hz1]
  funext y
  exact entry5 V c t y

/-- An index of the value array lies in point t's block when each coordinate lies in the block's range. -/
theorem mem_blk5 (t : Fin cfg0.N) (i : S4x16x2048x64.Idx) :
    i ∈ ((cfg0.win 5).blk t).view.set ↔ ∀ a : Fin 4, win0_5.index t a * S1x16x512x64.size a ≤ (i a).val ∧ (i a).val < win0_5.index t a * S1x16x512x64.size a + S1x16x512x64.size a := by
  show i ∈ ((View.whole main_v4_2).slice (win0_5.rect t)).set ↔ _
  rw [View.set_slice_whole, Rect.mem_set_unit]
  exact Iff.rfl

/-- The sixteen blocks tile the value array: batch b, row s lies in the block of point 4 · b + s / 512. -/
theorem cover5 (i : S4x16x2048x64.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 2048 := (i 2).isLt
  have h3 : (i 3).val < 64 := (i 3).isLt
  obtain ⟨t, ht⟩ : ∃ t : Fin cfg0.N, t.val = (i 0).val * 4 + (i 2).val / 512 :=
    ⟨⟨(i 0).val * 4 + (i 2).val / 512, by rw [N0_eq]; omega⟩, rfl⟩
  refine ⟨t, flush0_5 t, ?_⟩
  rw [mem_blk5]
  have f := idx_facts t
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 512 ≤ (i 2).val ∧ (i 2).val < win0_5.index t (2 : Fin 4) * 512 + 512; omega
  | ⟨3, _⟩ => show win0_5.index t (3 : Fin 4) * 64 ≤ (i 3).val ∧ (i 3).val < win0_5.index t (3 : Fin 4) * 64 + 64; omega

/-- So the value array ends at the projection with slab 2. -/
theorem final5 (c : Dev nD) : (dat0 V c).arrAt 5 cfg0.N = projOut V c 2 :=
  (dat0 V c).arrAt_eq_of_cover 5 (projOut V c 2) (fun t _ => flushed5_eq V c t) cover5

end R0

/-- The query array after the region is the projection of the input with slab 0. -/
theorem region0_value_q (c : Dev nD) (bi : Fin 4) (h : Fin 16) (s : Fin 2048) (d : Fin 64) :
    ((dat0 (F := Ideal) V c).arrAt 3 cfg0.N : S4x16x2048x64.Idx → EReal) (ix4 bi h s d)
      = Cert.Spec.proj (xIn V c) (wcIn V c 0) (bcIn V c 0) bi h s d := by
  rw [R0.final3 V c]
  rfl
/-- The key array, with slab 1. -/
theorem region0_value_k (c : Dev nD) (bi : Fin 4) (h : Fin 16) (s : Fin 2048) (d : Fin 64) :
    ((dat0 (F := Ideal) V c).arrAt 4 cfg0.N : S4x16x2048x64.Idx → EReal) (ix4 bi h s d)
      = Cert.Spec.proj (xIn V c) (wcIn V c 1) (bcIn V c 1) bi h s d := by
  rw [R0.final4 V c]
  rfl
/-- The value array, with slab 2. -/
theorem region0_value_v (c : Dev nD) (bi : Fin 4) (h : Fin 16) (s : Fin 2048) (d : Fin 64) :
    ((dat0 (F := Ideal) V c).arrAt 5 cfg0.N : S4x16x2048x64.Idx → EReal) (ix4 bi h s d)
      = Cert.Spec.proj (xIn V c) (wcIn V c 2) (bcIn V c 2) bi h s d := by
  rw [R0.final5 V c]
  rfl

end Cert.KernelIdeal.HandVal

end
-- ==== Proof.KIVal1Blocks.lean ====
/-
  The second kernel region (attention): where its windows' blocks sit in their arrays.

  The grid has 4 × 8 × 8 points: point t is batch t / 64, head pair t / 8 % 8, query tile t % 8.  At point t the query
  window holds 256 query rows of two heads of one batch; the key and the value windows hold all 2048 rows of the same two
  heads; the output window is 256 rows by 128 columns of the context array, the two heads side by side.  This module
  decides the printed index maps over the grid, reads each input block as entries of its array, and shows that the 256
  output blocks tile the context array.
-/
import proofs.«423255_j9981503996505_3_alg».proof.Proof.KIReg1
import Idealize.ShloMosaic.Lib.ValueIdx
import Idealize.ShloMosaic.Lib.Pipeline.Value

set_option maxRecDepth 16384

noncomputable section

namespace Cert.KernelIdeal.HandVal.R1B

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/- The contents of the core's unscoped buffers when the region is entered, at the ideal values. -/
variable (V : (c : Dev nD) → (b : Ref sig .tc) → Buf (Elt Ideal) ((c : Thread nD τ).loc b))

/-! ## The printed index maps over the 256 grid points -/

/-- The query window's block: batch t / 64, head pair t / 8 % 8, query tile t % 8. -/
theorem q_block_indices : ∀ t : Fin cfg1.N,
    win1_0.index t (0 : Fin 4) = t.val / 64 ∧ win1_0.index t (1 : Fin 4) = t.val / 8 % 8
    ∧ win1_0.index t (2 : Fin 4) = t.val % 8 ∧ win1_0.index t (3 : Fin 4) = 0 :=
  (by decide +kernel : ∀ t : Fin grid1.N, _)

/-- The key window's block: batch t / 64, head pair t / 8 % 8, all rows. -/
theorem k_block_indices : ∀ t : Fin cfg1.N,
    win1_1.index t (0 : Fin 4) = t.val / 64 ∧ win1_1.index t (1 : Fin 4) = t.val / 8 % 8
    ∧ win1_1.index t (2 : Fin 4) = 0 ∧ win1_1.index t (3 : Fin 4) = 0 :=
  (by decide +kernel : ∀ t : Fin grid1.N, _)

/-- The value window's block: the same. -/
theorem v_block_indices : ∀ t : Fin cfg1.N,
    win1_2.index t (0 : Fin 4) = t.val / 64 ∧ win1_2.index t (1 : Fin 4) = t.val / 8 % 8
    ∧ win1_2.index t (2 : Fin 4) = 0 ∧ win1_2.index t (3 : Fin 4) = 0 :=
  (by decide +kernel : ∀ t : Fin grid1.N, _)

/-- The output window's block: batch t / 64, row tile t % 8, column tile t / 8 % 8. -/
theorem out_block_indices : ∀ t : Fin cfg1.N,
    win1_3.index t (0 : Fin 3) = t.val / 64 ∧ win1_3.index t (1 : Fin 3) = t.val % 8
    ∧ win1_3.index t (2 : Fin 3) = t.val / 8 % 8 :=
  (by decide +kernel : ∀ t : Fin grid1.N, _)

/-- The four windows' block indices at a point, together. -/
theorem block_indices1 : ∀ t : Fin cfg1.N,
    win1_0.index t (0 : Fin 4) = t.val / 64 ∧ win1_0.index t (1 : Fin 4) = t.val / 8 % 8 ∧ win1_0.index t (2 : Fin 4) = t.val % 8 ∧ win1_0.index t (3 : Fin 4) = 0
    ∧ win1_1.index t (0 : Fin 4) = t.val / 64 ∧ win1_1.index t (1 : Fin 4) = t.val / 8 % 8 ∧ win1_1.index t (2 : Fin 4) = 0 ∧ win1_1.index t (3 : Fin 4) = 0
    ∧ win1_2.index t (0 : Fin 4) = t.val / 64 ∧ win1_2.index t (1 : Fin 4) = t.val / 8 % 8 ∧ win1_2.index t (2 : Fin 4) = 0 ∧ win1_2.index t (3 : Fin 4) = 0
    ∧ win1_3.index t (0 : Fin 3) = t.val / 64 ∧ win1_3.index t (1 : Fin 3) = t.val % 8 ∧ win1_3.index t (2 : Fin 3) = t.val / 8 % 8 := fun t => by
  obtain ⟨q0, q1, q2, q3⟩ := q_block_indices t
  obtain ⟨k0, k1, k2, k3⟩ := k_block_indices t
  obtain ⟨v0, v1, v2, v3⟩ := v_block_indices t
  obtain ⟨o0, o1, o2⟩ := out_block_indices t
  exact ⟨q0, q1, q2, q3, k0, k1, k2, k3, v0, v1, v2, v3, o0, o1, o2⟩

/-! ## The input blocks as entries of their arrays -/

/-- The query block at point t: heads 2 (t / 8 % 8) + u, rows (t % 8) · 256 + r of batch t / 64. -/
theorem q_blk_apply (c : Dev nD) (t : Fin cfg1.N) (x : S1x2x256x64.Idx) (k : S4x16x2048x64.Idx)
    (h0 : (k 0).val = t.val / 64 + (x 0).val) (h1 : (k 1).val = t.val / 8 % 8 * 2 + (x 1).val)
    (h2 : (k 2).val = t.val % 8 * 256 + (x 2).val) (h3 : (k 3).val = (x 3).val) :
    (iblk1 V c 0 t : Vec Ideal S1x2x256x64 .bf16) x = (V c main_v4_0 : S4x16x2048x64.Idx → EReal) k := by
  obtain ⟨e0, e1, e2, e3⟩ := q_block_indices t
  unfold iblk1
  rw [View.read_apply]
  show V c main_v4_0 _ = V c main_v4_0 _
  congr 1
  funext a
  apply Fin.ext
  match a with
  | ⟨0, _⟩ => show win1_0.index t (0 : Fin 4) * 1 + 1 * (x 0).val = (k 0).val; rw [e0, h0]; omega
  | ⟨1, _⟩ => show win1_0.index t (1 : Fin 4) * 2 + 1 * (x 1).val = (k 1).val; rw [e1, h1]; omega
  | ⟨2, _⟩ => show win1_0.index t (2 : Fin 4) * 256 + 1 * (x 2).val = (k 2).val; rw [e2, h2]; omega
  | ⟨3, _⟩ => show win1_0.index t (3 : Fin 4) * 64 + 1 * (x 3).val = (k 3).val; rw [e3, h3]; omega

/-- The key block at point t: heads 2 (t / 8 % 8) + u, every row, of batch t / 64. -/
theorem k_blk_apply (c : Dev nD) (t : Fin cfg1.N) (x : S1x2x2048x64.Idx) (k : S4x16x2048x64.Idx)
    (h0 : (k 0).val = t.val / 64 + (x 0).val) (h1 : (k 1).val = t.val / 8 % 8 * 2 + (x 1).val)
    (h2 : (k 2).val = (x 2).val) (h3 : (k 3).val = (x 3).val) :
    (iblk1 V c 1 t : Vec Ideal S1x2x2048x64 .bf16) x = (V c main_v4_1 : S4x16x2048x64.Idx → EReal) k := by
  obtain ⟨e0, e1, e2, e3⟩ := k_block_indices t
  unfold iblk1
  rw [View.read_apply]
  show V c main_v4_1 _ = V c main_v4_1 _
  congr 1
  funext a
  apply Fin.ext
  match a with
  | ⟨0, _⟩ => show win1_1.index t (0 : Fin 4) * 1 + 1 * (x 0).val = (k 0).val; rw [e0, h0]; omega
  | ⟨1, _⟩ => show win1_1.index t (1 : Fin 4) * 2 + 1 * (x 1).val = (k 1).val; rw [e1, h1]; omega
  | ⟨2, _⟩ => show win1_1.index t (2 : Fin 4) * 2048 + 1 * (x 2).val = (k 2).val; rw [e2, h2]; omega
  | ⟨3, _⟩ => show win1_1.index t (3 : Fin 4) * 64 + 1 * (x 3).val = (k 3).val; rw [e3, h3]; omega

/-- The value block at point t: the same rows of the value array. -/
theorem v_blk_apply (c : Dev nD) (t : Fin cfg1.N) (x : S1x2x2048x64.Idx) (k : S4x16x2048x64.Idx)
    (h0 : (k 0).val = t.val / 64 + (x 0).val) (h1 : (k 1).val = t.val / 8 % 8 * 2 + (x 1).val)
    (h2 : (k 2).val = (x 2).val) (h3 : (k 3).val = (x 3).val) :
    (iblk1 V c 2 t : Vec Ideal S1x2x2048x64 .bf16) x = (V c main_v4_2 : S4x16x2048x64.Idx → EReal) k := by
  obtain ⟨e0, e1, e2, e3⟩ := v_block_indices t
  unfold iblk1
  rw [View.read_apply]
  show V c main_v4_2 _ = V c main_v4_2 _
  congr 1
  funext a
  apply Fin.ext
  match a with
  | ⟨0, _⟩ => show win1_2.index t (0 : Fin 4) * 1 + 1 * (x 0).val = (k 0).val; rw [e0, h0]; omega
  | ⟨1, _⟩ => show win1_2.index t (1 : Fin 4) * 2 + 1 * (x 1).val = (k 1).val; rw [e1, h1]; omega
  | ⟨2, _⟩ => show win1_2.index t (2 : Fin 4) * 2048 + 1 * (x 2).val = (k 2).val; rw [e2, h2]; omega
  | ⟨3, _⟩ => show win1_2.index t (3 : Fin 4) * 64 + 1 * (x 3).val = (k 3).val; rw [e3, h3]; omega

/-! ## The output blocks in the context array -/

/-- Entry y of the output block at point t sits at batch t / 64, row (t % 8) · 256 + y₁, column (t / 8 % 8) · 128 + y₂. -/
theorem out_blk_emb (t : Fin cfg1.N) (y : S1x256x128.Idx) :
    ((((cfg1.win 3).blk t).view.emb y) 0).val = t.val / 64
    ∧ ((((cfg1.win 3).blk t).view.emb y) 1).val = t.val % 8 * 256 + (y 1).val
    ∧ ((((cfg1.win 3).blk t).view.emb y) 2).val = t.val / 8 % 8 * 128 + (y 2).val := by
  obtain ⟨e0, e1, e2⟩ := out_block_indices t
  have hy0 : (y 0).val < 1 := (y 0).isLt
  refine ⟨?_, ?_, ?_⟩
  · show win1_3.index t (0 : Fin 3) * 1 + 1 * (y 0).val = _; rw [e0]; omega
  · show win1_3.index t (1 : Fin 3) * 256 + 1 * (y 1).val = _; rw [e1]; omega
  · show win1_3.index t (2 : Fin 3) * 128 + 1 * (y 2).val = _; rw [e2]; omega

/-- An index of the context array is in point t's block iff each coordinate is in the block's range on its axis. -/
theorem mem_ctx_blk (t : Fin cfg1.N) (i : S4x2048x1024.Idx) :
    i ∈ ((cfg1.win 3).blk t).view.set ↔ ∀ a : Fin 3, win1_3.index t a * S1x256x128.size a ≤ (i a).val ∧ (i a).val < win1_3.index t a * S1x256x128.size a + S1x256x128.size a := by
  show i ∈ ((View.whole main_v5).slice (win1_3.rect t)).set ↔ _
  rw [View.set_slice_whole, Rect.mem_set_unit]
  exact Iff.rfl

/-- Entry (b, s, e) is in the block of the point (8 b + e / 128) · 8 + s / 256. -/
theorem ctx_covered (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ : ∃ t : Fin cfg1.N, t.val = ((i 0).val * 8 + (i 2).val / 128) * 8 + (i 1).val / 256 :=
    ⟨⟨((i 0).val * 8 + (i 2).val / 128) * 8 + (i 1).val / 256, by show _ < 256; omega⟩, rfl⟩
  obtain ⟨e0, e1, e2⟩ := out_block_indices t
  refine ⟨t, flush1_3 t, ?_⟩
  rw [mem_ctx_blk]
  intro a
  match a with
  | ⟨0, _⟩ => show win1_3.index t (0 : Fin 3) * 1 ≤ (i 0).val ∧ (i 0).val < win1_3.index t (0 : Fin 3) * 1 + 1; rw [e0, ht]; omega
  | ⟨1, _⟩ => show win1_3.index t (1 : Fin 3) * 256 ≤ (i 1).val ∧ (i 1).val < win1_3.index t (1 : Fin 3) * 256 + 256; rw [e1, ht]; omega
  | ⟨2, _⟩ => show win1_3.index t (2 : Fin 3) * 128 ≤ (i 2).val ∧ (i 2).val < win1_3.index t (2 : Fin 3) * 128 + 128; rw [e2, ht]; omega

end Cert.KernelIdeal.HandVal.R1B

end
-- ==== Proof.KIVal1.lean ====
/-
  What the second kernel region (attention) leaves in its output array, at the ideal values.

  Every grid point takes one batch, a pair of heads and a tile of 256 query positions; for each of the two heads it forms
  the scores of the tile's queries against all 2048 keys, subtracts each query's largest score, exponentiates, sums the
  value rows under these weights and divides by the total weight; the two heads' 64 features are laid side by side in 128
  columns.  The 256 blocks tile the output array, so the array ends, entry by entry, at the heads of the sum-first context
  laid side by side.
-/
import proofs.«423255_j9981503996505_3_alg».proof.Proof.KIReg1
import proofs.«423255_j9981503996505_3_alg».proof.Proof.KIVal1Blocks
import proofs.«423255_j9981503996505_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/- The contents of the core's unscoped buffers when the region is entered, at the ideal values. -/
variable (V : (c : Dev nD) → (b : Ref sig .tc) → Buf (Elt Ideal) ((c : Thread nD τ).loc b))

/-- The query, key and value arrays as the region finds them, by coordinates. -/
def qIn (c : Dev nD) : Cert.Spec.T4 := fun bi h s d => (V c main_v4_0 : S4x16x2048x64.Idx → EReal) (ix4 bi h s d)
def kIn (c : Dev nD) : Cert.Spec.T4 := fun bi h s d => (V c main_v4_1 : S4x16x2048x64.Idx → EReal) (ix4 bi h s d)
def vIn (c : Dev nD) : Cert.Spec.T4 := fun bi h s d => (V c main_v4_2 : S4x16x2048x64.Idx → EReal) (ix4 bi h s d)

namespace R1

open scoped BigOperators

/-- The scores of a tile's queries against all keys, both heads. -/
def pScore (x0 : FVec Ideal S1x2x256x64 .bf16) (x1 : FVec Ideal S1x2x2048x64 .bf16) : FVec Ideal S2x256x2048 .f32 :=
  mulf (matmul dot_S2x256x64_S2x2048x64_S2x256x2048_2_2_1_1_0_0 none (shapeCast S2x256x64 x0 shapeCasts_S1x2x256x64_S2x256x64)
      (shapeCast S2x2048x64 x1 shapeCasts_S1x2x2048x64_S2x2048x64) (constant S2x256x2048 .f32 0x00000000#32))
    (broadcast S2x256x2048 (Scalar.ofBits .f32 0x3E000000#32))

def pRowMax (s : FVec Ideal S2x256x2048 .f32) : FVec Ideal S2x256 .f32 :=
  multiReduction .maximumf [2] S2x256 s 0xFF800000#32 reduces_S2x256x2048_S2x256 (.inl rfl) rfl

def pW (s : FVec Ideal S2x256x2048 .f32) : FVec Ideal S2x256x2048 .f32 :=
  exp (subf s (broadcastTo S2x256x2048 (shapeCast S2x256x1 (pRowMax s) shapeCasts_S2x256_S2x256x1) broadcasts_S2x256x1_S2x256x2048))

def pTot (w : FVec Ideal S2x256x2048 .f32) : FVec Ideal S2x256 .f32 :=
  multiReduction .add [2] S2x256 w 0x00000000#32 reduces_S2x256x2048_S2x256 (.inl rfl) rfl

def pCtx (w : FVec Ideal S2x256x2048 .f32) (x2 : FVec Ideal S1x2x2048x64 .bf16) : FVec Ideal S2x256x64 .f32 :=
  divf (matmul dot_S2x256x2048_S2x2048x64_S2x256x64_2_1_1_2_0_0 none (truncf .bf16 w bitsLt_bf16_f32)
      (shapeCast S2x2048x64 x2 shapeCasts_S1x2x2048x64_S2x2048x64) (constant S2x256x64 .f32 0x00000000#32))
    (broadcastTo S2x256x64 (shapeCast S2x256x1 (pTot w) shapeCasts_S2x256_S2x256x1) broadcasts_S2x256x1_S2x256x64)

def pOut (cx : FVec Ideal S2x256x64 .f32) : FVec Ideal S1x256x128 .bf16 :=
  shapeCast S1x256x128 (truncf .bf16 (shapeCast S256x128 (transpose S256x2x64 [1, 0, 2] cx transposes_S2x256x64_p1_0_2_S256x2x64)
    shapeCasts_S256x2x64_S256x128) bitsLt_bf16_f32) shapeCasts_S256x128_S1x256x128

theorem pay_eq (x0 : FVec Ideal S1x2x256x64 .bf16) (x1 : FVec Ideal S1x2x2048x64 .bf16) (x2 : FVec Ideal S1x2x2048x64 .bf16) :
    k1_pay1 (F := Ideal) x0 x1 x2 = pOut (pCtx (pW (pScore x0 x1)) x2) := rfl

/-! ## The two words the body spells -/

/-- The scale `0x3E000000` is one eighth. -/
theorem ofBits_eighth : Ideal.ofBits .f32 0x3E000000#32 = ((1 / 8 : ℝ) : EReal) := by
  simp [Ideal.ofBits, Ideal.ieee, -EReal.coe_mul]; norm_num

/-- The word the row maximum starts from, `0xFF800000`, is `⊥`. -/
theorem ofBits_neg_inf : Ideal.ofBits .f32 0xFF800000#32 = (⊥ : EReal) := by
  simp [Ideal.ofBits, Ideal.ieee]

/-! ## The two products at an index -/

/-! ### The scores' product: operand indices axis by axis

Entry (hh, r, kk) of the scores pairs row r of head hh of the queries with row kk of head hh of the keys, over the features. -/

/-- The query operand's head is the entry's head. -/
theorem lhsA_0 (i : S2x256x2048.Idx) (q : dot_S2x256x64_S2x2048x64_S2x256x2048_2_2_1_1_0_0.contr.Idx) :
    (dot_S2x256x64_S2x2048x64_S2x256x2048_2_2_1_1_0_0.lhsIdx i q 0).val = (i 0).val := by
  unfold DotDims.lhsIdx
  rw [dif_pos (show (0 : Fin S2x256x64.rank) ∈ dot_S2x256x64_S2x2048x64_S2x256x2048_2_2_1_1_0_0.lhsBatch by decide)]
  rfl

/-- The query operand's row is the entry's row. -/
theorem lhsA_1 (i : S2x256x2048.Idx) (q : dot_S2x256x64_S2x2048x64_S2x256x2048_2_2_1_1_0_0.contr.Idx) :
    (dot_S2x256x64_S2x2048x64_S2x256x2048_2_2_1_1_0_0.lhsIdx i q 1).val = (i 1).val := by
  unfold DotDims.lhsIdx
  rw [dif_neg (show ¬(1 : Fin S2x256x64.rank) ∈ dot_S2x256x64_S2x2048x64_S2x256x2048_2_2_1_1_0_0.lhsBatch by decide),
    dif_pos (show (1 : Fin S2x256x64.rank) ∈ dot_S2x256x64_S2x2048x64_S2x256x2048_2_2_1_1_0_0.lhsNonContracting by decide)]
  rfl

/-- The query operand's feature is the summation index. -/
theorem lhsA_2 (i : S2x256x2048.Idx) (q : dot_S2x256x64_S2x2048x64_S2x256x2048_2_2_1_1_0_0.contr.Idx) :
    (dot_S2x256x64_S2x2048x64_S2x256x2048_2_2_1_1_0_0.lhsIdx i q 2).val = (q ⟨0, by decide⟩).val :=
  dot_S2x256x64_S2x2048x64_S2x256x2048_2_2_1_1_0_0.lhsIdx_val_of_single rfl i q

/-- The key operand's head is the entry's head. -/
theorem rhsA_0 (i : S2x256x2048.Idx) (q : dot_S2x256x64_S2x2048x64_S2x256x2048_2_2_1_1_0_0.contr.Idx) :
    (dot_S2x256x64_S2x2048x64_S2x256x2048_2_2_1_1_0_0.rhsIdx i q 0).val = (i 0).val := by
  unfold DotDims.rhsIdx
  rw [dif_pos (show (0 : Fin S2x2048x64.rank) ∈ dot_S2x256x64_S2x2048x64_S2x256x2048_2_2_1_1_0_0.rhsBatch by decide)]
  rfl

/-- The key operand's row is the entry's key position. -/
theorem rhsA_1 (i : S2x256x2048.Idx) (q : dot_S2x256x64_S2x2048x64_S2x256x2048_2_2_1_1_0_0.contr.Idx) :
    (dot_S2x256x64_S2x2048x64_S2x256x2048_2_2_1_1_0_0.rhsIdx i q 1).val = (i 2).val := by
  unfold DotDims.rhsIdx
  rw [dif_neg (show ¬(1 : Fin S2x2048x64.rank) ∈ dot_S2x256x64_S2x2048x64_S2x256x2048_2_2_1_1_0_0.rhsBatch by decide),
    dif_pos (show (1 : Fin S2x2048x64.rank) ∈ dot_S2x256x64_S2x2048x64_S2x256x2048_2_2_1_1_0_0.rhsNonContracting by decide)]
  rfl

/-- The key operand's feature is the summation index. -/
theorem rhsA_2 (i : S2x256x2048.Idx) (q : dot_S2x256x64_S2x2048x64_S2x256x2048_2_2_1_1_0_0.contr.Idx) :
    (dot_S2x256x64_S2x2048x64_S2x256x2048_2_2_1_1_0_0.rhsIdx i q 2).val = (q ⟨0, by decide⟩).val :=
  dot_S2x256x64_S2x2048x64_S2x256x2048_2_2_1_1_0_0.rhsIdx_val_of_single rfl i q

/-! ### The context's product: operand indices axis by axis

Entry (hh, r, d) of the context pairs row r of head hh of the weights with column d of head hh of the values, over the keys. -/

/-- The weight operand's head is the entry's head. -/
theorem lhsB_0 (i : S2x256x64.Idx) (q : dot_S2x256x2048_S2x2048x64_S2x256x64_2_1_1_2_0_0.contr.Idx) :
    (dot_S2x256x2048_S2x2048x64_S2x256x64_2_1_1_2_0_0.lhsIdx i q 0).val = (i 0).val := by
  unfold DotDims.lhsIdx
  rw [dif_pos (show (0 : Fin S2x256x2048.rank) ∈ dot_S2x256x2048_S2x2048x64_S2x256x64_2_1_1_2_0_0.lhsBatch by decide)]
  rfl

/-- The weight operand's row is the entry's row. -/
theorem lhsB_1 (i : S2x256x64.Idx) (q : dot_S2x256x2048_S2x2048x64_S2x256x64_2_1_1_2_0_0.contr.Idx) :
    (dot_S2x256x2048_S2x2048x64_S2x256x64_2_1_1_2_0_0.lhsIdx i q 1).val = (i 1).val := by
  unfold DotDims.lhsIdx
  rw [dif_neg (show ¬(1 : Fin S2x256x2048.rank) ∈ dot_S2x256x2048_S2x2048x64_S2x256x64_2_1_1_2_0_0.lhsBatch by decide),
    dif_pos (show (1 : Fin S2x256x2048.rank) ∈ dot_S2x256x2048_S2x2048x64_S2x256x64_2_1_1_2_0_0.lhsNonContracting by decide)]
  rfl

/-- The weight operand's key position is the summation index. -/
theorem lhsB_2 (i : S2x256x64.Idx) (q : dot_S2x256x2048_S2x2048x64_S2x256x64_2_1_1_2_0_0.contr.Idx) :
    (dot_S2x256x2048_S2x2048x64_S2x256x64_2_1_1_2_0_0.lhsIdx i q 2).val = (q ⟨0, by decide⟩).val :=
  dot_S2x256x2048_S2x2048x64_S2x256x64_2_1_1_2_0_0.lhsIdx_val_of_single rfl i q

/-- The value operand's head is the entry's head. -/
theorem rhsB_0 (i : S2x256x64.Idx) (q : dot_S2x256x2048_S2x2048x64_S2x256x64_2_1_1_2_0_0.contr.Idx) :
    (dot_S2x256x2048_S2x2048x64_S2x256x64_2_1_1_2_0_0.rhsIdx i q 0).val = (i 0).val := by
  unfold DotDims.rhsIdx
  rw [dif_pos (show (0 : Fin S2x2048x64.rank) ∈ dot_S2x256x2048_S2x2048x64_S2x256x64_2_1_1_2_0_0.rhsBatch by decide)]
  rfl

/-- The value operand's key position is the summation index. -/
theorem rhsB_1 (i : S2x256x64.Idx) (q : dot_S2x256x2048_S2x2048x64_S2x256x64_2_1_1_2_0_0.contr.Idx) :
    (dot_S2x256x2048_S2x2048x64_S2x256x64_2_1_1_2_0_0.rhsIdx i q 1).val = (q ⟨0, by decide⟩).val :=
  dot_S2x256x2048_S2x2048x64_S2x256x64_2_1_1_2_0_0.rhsIdx_val_of_single rfl i q

/-- The value operand's feature is the entry's feature. -/
theorem rhsB_2 (i : S2x256x64.Idx) (q : dot_S2x256x2048_S2x2048x64_S2x256x64_2_1_1_2_0_0.contr.Idx) :
    (dot_S2x256x2048_S2x2048x64_S2x256x64_2_1_1_2_0_0.rhsIdx i q 2).val = (i 2).val := by
  unfold DotDims.rhsIdx
  rw [dif_neg (show ¬(2 : Fin S2x2048x64.rank) ∈ dot_S2x256x2048_S2x2048x64_S2x256x64_2_1_1_2_0_0.rhsBatch by decide),
    dif_pos (show (2 : Fin S2x2048x64.rank) ∈ dot_S2x256x2048_S2x2048x64_S2x256x64_2_1_1_2_0_0.rhsNonContracting by decide)]
  rfl

/-- The first product at an index: the inner product of a query row and a key row over the 64 features. -/
theorem mmA_apply (a : FVec Ideal S2x256x64 .bf16) (b : FVec Ideal S2x2048x64 .bf16) (hh : Fin 2) (r : Fin 256) (kk : Fin 2048) :
    matmul dot_S2x256x64_S2x2048x64_S2x256x2048_2_2_1_1_0_0 none a b (constant S2x256x2048 .f32 0x00000000#32) (ix3 hh r kk)
      = ∑ d : Fin 64, a (ix3 hh r d) * b (ix3 hh kk d) := by
  simp only [matmul]
  rw [Ideal.matmul_constant_zero_apply, ← Equiv.sum_comp (ValueIdx.contrEquiv1 dot_S2x256x64_S2x2048x64_S2x256x2048_2_2_1_1_0_0 64 rfl rfl).symm]
  refine Finset.sum_congr rfl fun d _ => ?_
  have hd := ValueIdx.contrEquiv1_symm_val dot_S2x256x64_S2x2048x64_S2x256x2048_2_2_1_1_0_0 64 rfl rfl d
  have el : dot_S2x256x64_S2x2048x64_S2x256x2048_2_2_1_1_0_0.lhsIdx (ix3 hh r kk) ((ValueIdx.contrEquiv1 dot_S2x256x64_S2x2048x64_S2x256x2048_2_2_1_1_0_0 64 rfl rfl).symm d) = ix3 hh r d := funext fun a => Fin.ext (by
    match a with
    | ⟨0, _⟩ => exact lhsA_0 _ _
    | ⟨1, _⟩ => exact lhsA_1 _ _
    | ⟨2, _⟩ => exact (lhsA_2 _ _).trans hd)
  have er : dot_S2x256x64_S2x2048x64_S2x256x2048_2_2_1_1_0_0.rhsIdx (ix3 hh r kk) ((ValueIdx.contrEquiv1 dot_S2x256x64_S2x2048x64_S2x256x2048_2_2_1_1_0_0 64 rfl rfl).symm d) = ix3 hh kk d := funext fun a => Fin.ext (by
    match a with
    | ⟨0, _⟩ => exact rhsA_0 _ _
    | ⟨1, _⟩ => exact rhsA_1 _ _
    | ⟨2, _⟩ => exact (rhsA_2 _ _).trans hd)
  rw [el, er]

/-- The second product at an index: a row of weights against a column of values over the 2048 keys. -/
theorem mmB_apply (a : FVec Ideal S2x256x2048 .bf16) (b : FVec Ideal S2x2048x64 .bf16) (hh : Fin 2) (r : Fin 256) (d : Fin 64) :
    matmul dot_S2x256x2048_S2x2048x64_S2x256x64_2_1_1_2_0_0 none a b (constant S2x256x64 .f32 0x00000000#32) (ix3 hh r d)
      = ∑ kk : Fin 2048, a (ix3 hh r kk) * b (ix3 hh kk d) := by
  simp only [matmul]
  rw [Ideal.matmul_constant_zero_apply, ← Equiv.sum_comp (ValueIdx.contrEquiv1 dot_S2x256x2048_S2x2048x64_S2x256x64_2_1_1_2_0_0 2048 rfl rfl).symm]
  refine Finset.sum_congr rfl fun kk _ => ?_
  have hk := ValueIdx.contrEquiv1_symm_val dot_S2x256x2048_S2x2048x64_S2x256x64_2_1_1_2_0_0 2048 rfl rfl kk
  have el : dot_S2x256x2048_S2x2048x64_S2x256x64_2_1_1_2_0_0.lhsIdx (ix3 hh r d) ((ValueIdx.contrEquiv1 dot_S2x256x2048_S2x2048x64_S2x256x64_2_1_1_2_0_0 2048 rfl rfl).symm kk) = ix3 hh r kk := funext fun a => Fin.ext (by
    match a with
    | ⟨0, _⟩ => exact lhsB_0 _ _
    | ⟨1, _⟩ => exact lhsB_1 _ _
    | ⟨2, _⟩ => exact (lhsB_2 _ _).trans hk)
  have er : dot_S2x256x2048_S2x2048x64_S2x256x64_2_1_1_2_0_0.rhsIdx (ix3 hh r d) ((ValueIdx.contrEquiv1 dot_S2x256x2048_S2x2048x64_S2x256x64_2_1_1_2_0_0 2048 rfl rfl).symm kk) = ix3 hh kk d := funext fun a => Fin.ext (by
    match a with
    | ⟨0, _⟩ => exact rhsB_0 _ _
    | ⟨1, _⟩ => exact (rhsB_1 _ _).trans hk
    | ⟨2, _⟩ => exact rhsB_2 _ _)
  rw [el, er]

/-! ## The stages at an index -/

/-- The index over `(hh, r)` with key `kk` inserted on the reduced axis. -/
theorem lift_ix (hh : Fin 2) (r : Fin 256) (kk : Fin 2048) :
    reduces_S2x256x2048_S2x256.lift (ix2 hh r) kk = ix3 hh r kk := by
  funext c
  apply Fin.ext
  match c with
  | ⟨0, _⟩ => rfl
  | ⟨1, _⟩ => rfl
  | ⟨2, _⟩ => rfl

/-- A per-row quantity kept as a column and spread over the 2048 keys reads the row's value. -/
theorem col_keys (v : FVec Ideal S2x256 .f32) (hh : Fin 2) (r : Fin 256) (kk : Fin 2048) :
    broadcastTo S2x256x2048 (shapeCast S2x256x1 v shapeCasts_S2x256_S2x256x1) broadcasts_S2x256x1_S2x256x2048 (ix3 hh r kk)
      = v (ix2 hh r) := by
  refine (broadcastTo_apply _ broadcasts_S2x256x1_S2x256x2048 (ix3 hh r kk) (ix3 hh r (0 : Fin 1)) (fun a => ?_)).trans ?_
  · match a with
    | ⟨0, _⟩ => show hh.val = if (2 : Nat) = 1 then 0 else hh.val; rw [if_neg (by decide)]
    | ⟨1, _⟩ => show r.val = if (256 : Nat) = 1 then 0 else r.val; rw [if_neg (by decide)]
    | ⟨2, _⟩ => show 0 = if (1 : Nat) = 1 then 0 else kk.val; rw [if_pos rfl]
  · exact shapeCast_apply v shapeCasts_S2x256_S2x256x1 _ (ix2 hh r) (by
      rw [Shape.rowMajor_val_two, Shape.rowMajor_val_three]
      show hh.val * 256 + r.val = (hh.val * 256 + r.val) * 1 + 0
      omega)

/-- The same spread over the 64 features. -/
theorem col_feats (v : FVec Ideal S2x256 .f32) (hh : Fin 2) (r : Fin 256) (d : Fin 64) :
    broadcastTo S2x256x64 (shapeCast S2x256x1 v shapeCasts_S2x256_S2x256x1) broadcasts_S2x256x1_S2x256x64 (ix3 hh r d)
      = v (ix2 hh r) := by
  refine (broadcastTo_apply _ broadcasts_S2x256x1_S2x256x64 (ix3 hh r d) (ix3 hh r (0 : Fin 1)) (fun a => ?_)).trans ?_
  · match a with
    | ⟨0, _⟩ => show hh.val = if (2 : Nat) = 1 then 0 else hh.val; rw [if_neg (by decide)]
    | ⟨1, _⟩ => show r.val = if (256 : Nat) = 1 then 0 else r.val; rw [if_neg (by decide)]
    | ⟨2, _⟩ => show 0 = if (1 : Nat) = 1 then 0 else d.val; rw [if_pos rfl]
  · exact shapeCast_apply v shapeCasts_S2x256_S2x256x1 _ (ix2 hh r) (by
      rw [Shape.rowMajor_val_two, Shape.rowMajor_val_three]
      show hh.val * 256 + r.val = (hh.val * 256 + r.val) * 1 + 0
      omega)

/-- A score: the inner product of the query row and the key row, times the constant. -/
theorem pScore_apply (x0 : FVec Ideal S1x2x256x64 .bf16) (x1 : FVec Ideal S1x2x2048x64 .bf16) (hh : Fin 2) (r : Fin 256) (kk : Fin 2048) :
    pScore x0 x1 (ix3 hh r kk)
      = (∑ d : Fin 64, x0 (ix4 (0 : Fin 1) hh r d) * x1 (ix4 (0 : Fin 1) hh kk d)) * Ideal.ofBits .f32 0x3E000000#32 := by
  unfold pScore
  rw [mulf_apply, broadcast_apply, mmA_apply]
  refine congrArg (· * _) (Finset.sum_congr rfl fun d _ => ?_)
  rw [shapeCast_1abc_abc_apply, shapeCast_1abc_abc_apply]

/-- A row's largest entry, counted from the accumulator's word. -/
theorem pRowMax_apply (s : FVec Ideal S2x256x2048 .f32) (hh : Fin 2) (r : Fin 256) :
    pRowMax s (ix2 hh r) = Finset.univ.fold max (Ideal.ofBits .f32 0xFF800000#32) (fun kk : Fin 2048 => s (ix3 hh r kk)) := by
  unfold pRowMax
  refine (Ideal.multiReduction_maximumf_single s 0xFF800000#32 reduces_S2x256x2048_S2x256 (.inl rfl) rfl (ix2 hh r)).trans ?_
  show Finset.univ.fold max (Ideal.ofBits .f32 0xFF800000#32) (fun kk : Fin 2048 => s (reduces_S2x256x2048_S2x256.lift (ix2 hh r) kk)) = _
  simp only [lift_ix]

/-- A weight: the exponential of the entry less its row's largest. -/
theorem pW_apply (s : FVec Ideal S2x256x2048 .f32) (hh : Fin 2) (r : Fin 256) (kk : Fin 2048) :
    pW s (ix3 hh r kk) = Ideal.exp (s (ix3 hh r kk) - pRowMax s (ix2 hh r)) := by
  unfold pW
  show Ideal.exp (subf s _ (ix3 hh r kk)) = _
  rw [subf_apply, col_keys]

/-- A row's total. -/
theorem pTot_apply (w : FVec Ideal S2x256x2048 .f32) (hh : Fin 2) (r : Fin 256) :
    pTot w (ix2 hh r) = ∑ kk : Fin 2048, w (ix3 hh r kk) := by
  unfold pTot
  refine (Ideal.multiReduction_add_single w 0x00000000#32 reduces_S2x256x2048_S2x256 (.inl rfl) rfl (ix2 hh r)).trans ?_
  show ∑ kk : Fin 2048, w (reduces_S2x256x2048_S2x256.lift (ix2 hh r) kk) = _
  simp only [lift_ix]

/-- A context entry: the weighted sum of a value column divided by the row's total weight. -/
theorem pCtx_apply (w : FVec Ideal S2x256x2048 .f32) (x2 : FVec Ideal S1x2x2048x64 .bf16) (hh : Fin 2) (r : Fin 256) (d : Fin 64) :
    pCtx w x2 (ix3 hh r d)
      = Ideal.div (∑ kk : Fin 2048, w (ix3 hh r kk) * x2 (ix4 (0 : Fin 1) hh kk d)) (pTot w (ix2 hh r)) := by
  unfold pCtx
  rw [divf_apply, mmB_apply, col_feats]
  refine congrArg (Ideal.div · _) (Finset.sum_congr rfl fun kk _ => ?_)
  rw [truncf_apply, shapeCast_1abc_abc_apply]

/-- The stored block: column `col` of row `r` is feature `col % 64` of head `col / 64`. -/
theorem pOut_apply (cx : FVec Ideal S2x256x64 .f32) (z : Fin 1) (r : Fin 256) (col : Fin 128) :
    pOut cx (ix3 z r col) = cx (ix3 (⟨col.val / 64, by omega⟩ : Fin 2) r (⟨col.val % 64, by omega⟩ : Fin 64)) := by
  unfold pOut
  rw [shapeCast_ab_1ab_apply, truncf_apply]
  refine (shapeCast_apply _ shapeCasts_S256x2x64_S256x128 (ix2 r col)
    (ix3 r (⟨col.val / 64, by omega⟩ : Fin 2) (⟨col.val % 64, by omega⟩ : Fin 64)) (by
      rw [Shape.rowMajor_val_three, Shape.rowMajor_val_two]
      show (r.val * 2 + col.val / 64) * 64 + col.val % 64 = r.val * 128 + col.val
      omega)).trans ?_
  exact transpose_apply _ cx transposes_S2x256x64_p1_0_2_S256x2x64 _ _ fun b => match b with
    | ⟨0, _⟩ => rfl
    | ⟨1, _⟩ => rfl
    | ⟨2, _⟩ => rfl

/-! ## The block's entries are the specification's

Row `r` of head `hh` of the block, when the query block's row is row `s` of head `h` of batch `bi` and the key and value
blocks are head `h` of batch `bi`. -/

theorem score_eq (x0 : FVec Ideal S1x2x256x64 .bf16) (x1 : FVec Ideal S1x2x2048x64 .bf16) (Q K : Cert.Spec.T4)
    (bi : Fin 4) (h : Fin 16) (s : Fin 2048) (hh : Fin 2) (r : Fin 256)
    (hq : ∀ d, x0 (ix4 (0 : Fin 1) hh r d) = Q bi h s d) (hk : ∀ kk d, x1 (ix4 (0 : Fin 1) hh kk d) = K bi h kk d) (kk : Fin 2048) :
    pScore x0 x1 (ix3 hh r kk) = Cert.Spec.score Q K bi h s kk := by
  rw [pScore_apply, ofBits_eighth]
  simp only [Cert.Spec.score, hq, hk]

theorem rowMax_eq (x0 : FVec Ideal S1x2x256x64 .bf16) (x1 : FVec Ideal S1x2x2048x64 .bf16) (Q K : Cert.Spec.T4)
    (bi : Fin 4) (h : Fin 16) (s : Fin 2048) (hh : Fin 2) (r : Fin 256)
    (hq : ∀ d, x0 (ix4 (0 : Fin 1) hh r d) = Q bi h s d) (hk : ∀ kk d, x1 (ix4 (0 : Fin 1) hh kk d) = K bi h kk d) :
    pRowMax (pScore x0 x1) (ix2 hh r) = Cert.Spec.rowMax (Cert.Spec.score Q K) bi h s := by
  rw [pRowMax_apply, ofBits_neg_inf]
  simp only [Cert.Spec.rowMax, score_eq x0 x1 Q K bi h s hh r hq hk]

theorem wexp_eq (x0 : FVec Ideal S1x2x256x64 .bf16) (x1 : FVec Ideal S1x2x2048x64 .bf16) (Q K : Cert.Spec.T4)
    (bi : Fin 4) (h : Fin 16) (s : Fin 2048) (hh : Fin 2) (r : Fin 256)
    (hq : ∀ d, x0 (ix4 (0 : Fin 1) hh r d) = Q bi h s d) (hk : ∀ kk d, x1 (ix4 (0 : Fin 1) hh kk d) = K bi h kk d) (kk : Fin 2048) :
    pW (pScore x0 x1) (ix3 hh r kk) = Cert.Spec.wexp (Cert.Spec.score Q K) bi h s kk := by
  rw [pW_apply, score_eq x0 x1 Q K bi h s hh r hq hk, rowMax_eq x0 x1 Q K bi h s hh r hq hk]
  rfl

theorem rowSum_eq (x0 : FVec Ideal S1x2x256x64 .bf16) (x1 : FVec Ideal S1x2x2048x64 .bf16) (Q K : Cert.Spec.T4)
    (bi : Fin 4) (h : Fin 16) (s : Fin 2048) (hh : Fin 2) (r : Fin 256)
    (hq : ∀ d, x0 (ix4 (0 : Fin 1) hh r d) = Q bi h s d) (hk : ∀ kk d, x1 (ix4 (0 : Fin 1) hh kk d) = K bi h kk d) :
    pTot (pW (pScore x0 x1)) (ix2 hh r) = Cert.Spec.rowSum (Cert.Spec.score Q K) bi h s := by
  rw [pTot_apply]
  simp only [Cert.Spec.rowSum, wexp_eq x0 x1 Q K bi h s hh r hq hk]

theorem ctx_eq (x0 : FVec Ideal S1x2x256x64 .bf16) (x1 : FVec Ideal S1x2x2048x64 .bf16) (Q K : Cert.Spec.T4)
    (bi : Fin 4) (h : Fin 16) (s : Fin 2048) (hh : Fin 2) (r : Fin 256)
    (hq : ∀ d, x0 (ix4 (0 : Fin 1) hh r d) = Q bi h s d) (hk : ∀ kk d, x1 (ix4 (0 : Fin 1) hh kk d) = K bi h kk d) (x2 : FVec Ideal S1x2x2048x64 .bf16) (W : Cert.Spec.T4)
    (hv : ∀ kk d, x2 (ix4 (0 : Fin 1) hh kk d) = W bi h kk d) (d : Fin 64) :
    pCtx (pW (pScore x0 x1)) x2 (ix3 hh r d) = Cert.Spec.ctxSumFirst Q K W bi h s d := by
  rw [pCtx_apply, rowSum_eq x0 x1 Q K bi h s hh r hq hk]
  simp only [Cert.Spec.ctxSumFirst, wexp_eq x0 x1 Q K bi h s hh r hq hk, hv]

/-- The body's value at column `col` of row `r` of the block: the context of the query the row holds, at the head
    `col / 64` picks and the feature `col % 64`, laid among the 1024 features. -/
theorem block_value (x0 : FVec Ideal S1x2x256x64 .bf16) (x1 x2 : FVec Ideal S1x2x2048x64 .bf16) (Q K W : Cert.Spec.T4)
    (bi : Fin 4) (s : Fin 2048) (e : Fin 1024) (z : Fin 1) (r : Fin 256) (col : Fin 128)
    (hq : ∀ d, x0 (ix4 (0 : Fin 1) (⟨col.val / 64, by omega⟩ : Fin 2) r d) = Q bi (Cert.Spec.headOf e) s d)
    (hk : ∀ kk d, x1 (ix4 (0 : Fin 1) (⟨col.val / 64, by omega⟩ : Fin 2) kk d) = K bi (Cert.Spec.headOf e) kk d)
    (hv : ∀ kk d, x2 (ix4 (0 : Fin 1) (⟨col.val / 64, by omega⟩ : Fin 2) kk d) = W bi (Cert.Spec.headOf e) kk d)
    (hd : col.val % 64 = e.val % 64) :
    k1_pay1 (F := Ideal) x0 x1 x2 (ix3 z r col) = Cert.Spec.merge (Cert.Spec.ctxSumFirst Q K W) bi s e := by
  rw [pay_eq, pOut_apply, ctx_eq x0 x1 Q K bi (Cert.Spec.headOf e) s _ r hq hk x2 W hv]
  show _ = Cert.Spec.ctxSumFirst Q K W bi (Cert.Spec.headOf e) s (Cert.Spec.featOf e)
  exact congrArg _ (Fin.ext hd)

/-- The same at an index of the block given whole. -/
theorem block_value_at (x0 : FVec Ideal S1x2x256x64 .bf16) (x1 x2 : FVec Ideal S1x2x2048x64 .bf16) (Q K W : Cert.Spec.T4)
    (bi : Fin 4) (s : Fin 2048) (e : Fin 1024) (y : S1x256x128.Idx)
    (hq : ∀ d, x0 (ix4 (0 : Fin 1) (⟨(y 2).val / 64, by have h : (y 2).val < 128 := (y 2).isLt; omega⟩ : Fin 2) (⟨(y 1).val, (y 1).isLt⟩ : Fin 256) d)
      = Q bi (Cert.Spec.headOf e) s d)
    (hk : ∀ kk d, x1 (ix4 (0 : Fin 1) (⟨(y 2).val / 64, by have h : (y 2).val < 128 := (y 2).isLt; omega⟩ : Fin 2) kk d)
      = K bi (Cert.Spec.headOf e) kk d)
    (hv : ∀ kk d, x2 (ix4 (0 : Fin 1) (⟨(y 2).val / 64, by have h : (y 2).val < 128 := (y 2).isLt; omega⟩ : Fin 2) kk d)
      = W bi (Cert.Spec.headOf e) kk d)
    (hd : (y 2).val % 64 = e.val % 64) :
    k1_pay1 (F := Ideal) x0 x1 x2 y = Cert.Spec.merge (Cert.Spec.ctxSumFirst Q K W) bi s e := by
  have hy : y = ix3 (⟨(y 0).val, (y 0).isLt⟩ : Fin 1) (⟨(y 1).val, (y 1).isLt⟩ : Fin 256) (⟨(y 2).val, (y 2).isLt⟩ : Fin 128) :=
    funext fun a => match a with | ⟨0, _⟩ => rfl | ⟨1, _⟩ => rfl | ⟨2, _⟩ => rfl
  exact (congrArg (k1_pay1 (F := Ideal) x0 x1 x2) hy).trans (block_value x0 x1 x2 Q K W bi s e _ _ _ hq hk hv hd)

/-! ## What a point writes back, and the array -/

/-- The sum-first context of what the region found, the heads side by side, as one function of the output array's index. -/
def ctxArr (c : Dev nD) : S4x2048x1024.Idx → EReal := fun i =>
  Cert.Spec.merge (Cert.Spec.ctxSumFirst (qIn V c) (kIn V c) (vIn V c))
    (⟨(i 0).val, (i 0).isLt⟩ : Fin 4) (⟨(i 1).val, (i 1).isLt⟩ : Fin 2048) (⟨(i 2).val, (i 2).isLt⟩ : Fin 1024)

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- Point `t` writes back block `t` of that function: its rows are the queries of tile `t % 8` of batch `t / 64`, its
    columns the two heads `2 (t / 8 % 8)` and `2 (t / 8 % 8) + 1`. -/
theorem flushed_ctx (c : Dev nD) (t : Fin cfg1.N) :
    (dat1 (F := Ideal) V c).flushed 3 t = ((cfg1.win 3).blk t).view.read (Elt Ideal) (ctxArr V c) := by
  show (cfg1.win 3).cut (grid1.coords t) ((dat1 (F := Ideal) V c).after 3 t) = _
  rw [after1_3]
  unfold out1_3
  rw [View.canon_unit_zero zero3]
  simp only [View.ld_unit_zero (S := S1x2x256x64) zero4, View.ld_unit_zero (S := S1x2x2048x64) zero4]
  funext y
  rw [View.read_apply]
  obtain ⟨g0, g1, g2⟩ := R1B.out_blk_emb t y
  have hy2 : (y 2).val < 128 := (y 2).isLt
  unfold ctxArr
  refine block_value_at (iblk1 V c 0 t) (iblk1 V c 1 t) (iblk1 V c 2 t) (qIn V c) (kIn V c) (vIn V c) _ _ _
    ((cfg1.win 3).xinj (grid1.coords t) y) (fun d => ?_) (fun kk d => ?_) (fun kk d => ?_) ?_
  · unfold qIn
    exact R1B.q_blk_apply V c t _ _ (by show _ = t.val / 64 + 0; exact g0)
      (by show ((((cfg1.win 3).blk t).view.emb y) 2).val / 64 = t.val / 8 % 8 * 2 + (y 2).val / 64; rw [g2]; omega)
      (by show _ = t.val % 8 * 256 + (y 1).val; exact g1) rfl
  · unfold kIn
    exact R1B.k_blk_apply V c t _ _ (by show _ = t.val / 64 + 0; exact g0)
      (by show ((((cfg1.win 3).blk t).view.emb y) 2).val / 64 = t.val / 8 % 8 * 2 + (y 2).val / 64; rw [g2]; omega) rfl rfl
  · unfold vIn
    exact R1B.v_blk_apply V c t _ _ (by show _ = t.val / 64 + 0; exact g0)
      (by show ((((cfg1.win 3).blk t).view.emb y) 2).val / 64 = t.val / 8 % 8 * 2 + (y 2).val / 64; rw [g2]; omega) rfl rfl
  · show (y 2).val % 64 = ((((cfg1.win 3).blk t).view.emb y) 2).val % 64
    rw [g2]; omega

/-- The output array after the region, whole: the 256 blocks tile it. -/
theorem region1_array (c : Dev nD) : (dat1 (F := Ideal) V c).arrAt 3 cfg1.N = ctxArr V c :=
  (dat1 (F := Ideal) V c).arrAt_eq_of_cover 3 (ctxArr V c) (fun t _ => flushed_ctx V c t) R1B.ctx_covered

end R1

/-- The context array after the region is the sum-first context of what the region found, the heads side by side. -/
theorem region1_value (c : Dev nD) (bi : Fin 4) (s : Fin 2048) (e : Fin 1024) :
    ((dat1 (F := Ideal) V c).arrAt 3 cfg1.N : S4x2048x1024.Idx → EReal) (ix3 bi s e)
      = Cert.Spec.merge (Cert.Spec.ctxSumFirst (qIn V c) (kIn V c) (vIn V c)) bi s e := by
  rw [R1.region1_array]
  rfl

end Cert.KernelIdeal.HandVal

end
-- ==== Proof.KIVal2.lean ====
/-
  What the third kernel region (the output projection) leaves in its output array, at the ideal values.

  Every grid point overwrites one block of 1024 rows of one batch with the product of that block of the context array with
  the transpose of the weight matrix, plus the bias along the rows.  The eight blocks tile the output array, so the array
  ends, entry by entry, at the closing projection of the context array the region found.
-/
import proofs.«423255_j9981503996505_3_alg».proof.Proof.KIReg2
import proofs.«423255_j9981503996505_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/- The contents of the core's unscoped buffers when the region is entered, at the ideal values. -/
variable (V : (c : Dev nD) → (b : Ref sig .tc) → Buf (Elt Ideal) ((c : Thread nD τ).loc b))

/-! ## The product's operand indices, axis by axis

The product contracts the second axis of both operands: entry (p, e) pairs row p of the left operand with row e of the
right one. -/

theorem lhs_oproj_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_oproj_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_oproj_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_oproj_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product into the zero accumulator, entry (p, e): row p of the left operand against row e of the right. -/
theorem oproj_matmul_apply (l r : FVec Ideal S1024x1024 .bf16) (p e : Fin 1024) :
    matmul dot_S1024x1024_S1024x1024_S1024x1024_1_1_0_0_n_n none l r (constant (F := Ideal) S1024x1024 .f32 0x00000000#32) (ix2 p e)
      = ∑ k : Fin 1024, l (ix2 p k) * r (ix2 e k) := by
  refine (Ideal.matmul_constant_zero_apply dot_S1024x1024_S1024x1024_S1024x1024_1_1_0_0_n_n none l r (ix2 p e)).trans ?_
  rw [← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p e) ((ValueIdx.contrEquiv1 dot_S1024x1024_S1024x1024_S1024x1024_1_1_0_0_n_n 1024 rfl rfl).symm k) = ix2 p k := funext fun a => Fin.ext (by
    match a with
    | ⟨0, _⟩ => exact lhs_oproj_0 _ _
    | ⟨1, _⟩ => exact (lhs_oproj_1 _ _).trans hk)
  have er : dot_S1024x1024_S1024x1024_S1024x1024_1_1_0_0_n_n.rhsIdx (ix2 p e) ((ValueIdx.contrEquiv1 dot_S1024x1024_S1024x1024_S1024x1024_1_1_0_0_n_n 1024 rfl rfl).symm k) = ix2 e k := funext fun a => Fin.ext (by
    match a with
    | ⟨0, _⟩ => exact rhs_oproj_0 _ _
    | ⟨1, _⟩ => exact (rhs_oproj_1 _ _).trans hk)
  rw [el, er]

/-! ## The body's value at an entry of the output block -/

/-- Entry (u, p, e): row p of the context block against row e of the weights, plus the bias at e. -/
theorem oproj_pay_apply (x0 : Vec Ideal S1x1024x1024 .bf16) (x1 : Vec Ideal S1024x1024 .bf16) (x2 : Vec Ideal S1024 .f32)
    (u : Fin 1) (p e : Fin 1024) :
    k2_pay1 (F := Ideal) x0 x1 x2 (ix3 u p e) = (∑ k : Fin 1024, x0 (ix3 (0 : Fin 1) p k) * x1 (ix2 e k)) + x2 (ix1 e) := by
  unfold k2_pay1
  rw [shapeCast_ab_1ab_apply]
  show matmul _ none _ _ _ (ix2 p e) + broadcastTo S1024x1024 _ _ (ix2 p e) = _
  rw [oproj_matmul_apply, broadcastTo_1b_ab_apply, shapeCast_a_1a_apply, shapeCast_self]
  simp only [shapeCast_1ab_ab_apply]

/-- The same at an index given whole. -/
theorem oproj_pay_at (x0 : Vec Ideal S1x1024x1024 .bf16) (x1 : Vec Ideal S1024x1024 .bf16) (x2 : Vec Ideal S1024 .f32)
    (y : S1x1024x1024.Idx) :
    k2_pay1 (F := Ideal) x0 x1 x2 y
      = (∑ k : Fin 1024, x0 (ix3 (0 : Fin 1) (⟨(y 1).val, (y 1).isLt⟩ : Fin 1024) k) * x1 (ix2 (⟨(y 2).val, (y 2).isLt⟩ : Fin 1024) k))
        + x2 (ix1 (⟨(y 2).val, (y 2).isLt⟩ : Fin 1024)) := by
  have hy : y = ix3 (⟨(y 0).val, (y 0).isLt⟩ : Fin 1) (⟨(y 1).val, (y 1).isLt⟩ : Fin 1024) (⟨(y 2).val, (y 2).isLt⟩ : Fin 1024) :=
    funext fun a => match a with | ⟨0, _⟩ => rfl | ⟨1, _⟩ => rfl | ⟨2, _⟩ => rfl
  exact (congrArg (k2_pay1 (F := Ideal) x0 x1 x2) hy).trans (oproj_pay_apply x0 x1 x2 _ _ _)

/-- The context array, the closing weights and the closing bias as the region finds them, by coordinates. -/
def ctxIn (c : Dev nD) : Cert.Spec.T3 := fun bi s k => (V c main_v5 : S4x2048x1024.Idx → EReal) (ix3 bi s k)
def woIn (c : Dev nD) : Cert.Spec.T2 := fun e k => (V c main_v3 : S1024x1024.Idx → EReal) (ix2 e k)
def boIn (c : Dev nD) : Cert.Spec.T1 := fun e => (V c main_arg8 : S1024.Idx → EReal) (ix1 e)

/-- The closing projection of what the region found, as one function of the output array's index. -/
def oprojArr (c : Dev nD) : S4x2048x1024.Idx → EReal := fun i =>
  Cert.Spec.oproj (ctxIn V c) (woIn V c) (boIn V c)
    (⟨(i 0).val, (i 0).isLt⟩ : Fin 4) (⟨(i 1).val, (i 1).isLt⟩ : Fin 2048) (⟨(i 2).val, (i 2).isLt⟩ : Fin 1024)

/-! ## The windows' blocks in their arrays -/

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The printed index maps over the eight grid points: the context and output blocks sit at batch t / 2, row tile t % 2;
    the weights and the bias are one block. -/
theorem block_indices : ∀ t : Fin cfg2.N,
    win2_0.index t (0 : Fin 3) = t.val / 2 ∧ win2_0.index t (1 : Fin 3) = t.val % 2 ∧ win2_0.index t (2 : Fin 3) = 0
    ∧ win2_1.index t (0 : Fin 2) = 0 ∧ win2_1.index t (1 : Fin 2) = 0
    ∧ win2_2.index t (0 : Fin 1) = 0
    ∧ win2_3.index t (0 : Fin 3) = t.val / 2 ∧ win2_3.index t (1 : Fin 3) = t.val % 2 ∧ win2_3.index t (2 : Fin 3) = 0 :=
  (by decide +kernel : ∀ t : Fin grid2.N, _)

/-- The context block at point t is rows (t % 2) · 1024 … of batch t / 2 of the context array. -/
theorem ctx_blk_apply (c : Dev nD) (t : Fin cfg2.N) (x : S1x1024x1024.Idx) (k : S4x2048x1024.Idx)
    (h0 : (k 0).val = t.val / 2 + (x 0).val) (h1 : (k 1).val = t.val % 2 * 1024 + (x 1).val) (h2 : (k 2).val = (x 2).val) :
    (iblk2 V c 0 t : Vec Ideal S1x1024x1024 .bf16) x = (V c main_v5 : S4x2048x1024.Idx → EReal) k := by
  obtain ⟨e0, e1, e2, -⟩ := block_indices t
  unfold iblk2
  rw [View.read_apply]
  show V c main_v5 _ = V c main_v5 _
  congr 1
  funext a
  apply Fin.ext
  match a with
  | ⟨0, _⟩ => show win2_0.index t (0 : Fin 3) * 1 + 1 * (x 0).val = (k 0).val; rw [e0, h0]; omega
  | ⟨1, _⟩ => show win2_0.index t (1 : Fin 3) * 1024 + 1 * (x 1).val = (k 1).val; rw [e1, h1]; omega
  | ⟨2, _⟩ => show win2_0.index t (2 : Fin 3) * 1024 + 1 * (x 2).val = (k 2).val; rw [e2, h2]; omega

/-- The weight block at every point is the weight matrix. -/
theorem wo_blk_apply (c : Dev nD) (t : Fin cfg2.N) (x k : S1024x1024.Idx)
    (h0 : (k 0).val = (x 0).val) (h1 : (k 1).val = (x 1).val) :
    (iblk2 V c 1 t : Vec Ideal S1024x1024 .bf16) x = (V c main_v3 : S1024x1024.Idx → EReal) k := by
  obtain ⟨-, -, -, e0, e1, -⟩ := block_indices t
  unfold iblk2
  rw [View.read_apply]
  show V c main_v3 _ = V c main_v3 _
  congr 1
  funext a
  apply Fin.ext
  match a with
  | ⟨0, _⟩ => show win2_1.index t (0 : Fin 2) * 1024 + 1 * (x 0).val = (k 0).val; rw [e0, h0]; omega
  | ⟨1, _⟩ => show win2_1.index t (1 : Fin 2) * 1024 + 1 * (x 1).val = (k 1).val; rw [e1, h1]; omega

/-- The bias block at every point is the bias vector. -/
theorem bo_blk_apply (c : Dev nD) (t : Fin cfg2.N) (x k : S1024.Idx) (h0 : (k 0).val = (x 0).val) :
    (iblk2 V c 2 t : Vec Ideal S1024 .f32) x = (V c main_arg8 : S1024.Idx → EReal) k := by
  obtain ⟨-, -, -, -, -, e0, -⟩ := block_indices t
  unfold iblk2
  rw [View.read_apply]
  show V c main_arg8 _ = V c main_arg8 _
  congr 1
  funext a
  apply Fin.ext
  match a with
  | ⟨0, _⟩ => show win2_2.index t (0 : Fin 1) * 1024 + 1 * (x 0).val = (k 0).val; rw [e0, h0]; omega

/-! ## What a point writes back -/

/-- Point t writes back block t of the closing projection. -/
theorem flushed_oproj (c : Dev nD) (t : Fin cfg2.N) :
    (dat2 (F := Ideal) V c).flushed 3 t = ((cfg2.win 3).blk t).view.read (Elt Ideal) (oprojArr V c) := by
  show (cfg2.win 3).cut (grid2.coords t) ((dat2 (F := Ideal) V c).after 3 t) = _
  rw [after2_3]
  unfold out2_3
  rw [View.canon_unit_zero zero3]
  simp only [View.ld_unit_zero (S := S1x1024x1024) zero3, View.ld_unit_zero (S := S1024x1024) zero2, View.ld_unit_zero (S := S1024) zero1]
  obtain ⟨-, -, -, -, -, -, e0, e1, e2⟩ := block_indices t
  funext y
  rw [View.read_apply]
  have hy0 : (y 0).val < 1 := (y 0).isLt
  have g0 : ((((cfg2.win 3).blk t).view.emb y) 0).val = t.val / 2 := by
    show win2_3.index t (0 : Fin 3) * 1 + 1 * (y 0).val = _; rw [e0]; omega
  have g1 : ((((cfg2.win 3).blk t).view.emb y) 1).val = t.val % 2 * 1024 + (y 1).val := by
    show win2_3.index t (1 : Fin 3) * 1024 + 1 * (y 1).val = _; rw [e1]; omega
  have g2 : ((((cfg2.win 3).blk t).view.emb y) 2).val = (y 2).val := by
    show win2_3.index t (2 : Fin 3) * 1024 + 1 * (y 2).val = _; rw [e2]; omega
  refine (oproj_pay_at (iblk2 V c 0 t) (iblk2 V c 1 t) (iblk2 V c 2 t) ((cfg2.win 3).xinj (grid2.coords t) y)).trans ?_
  unfold oprojArr Cert.Spec.oproj ctxIn woIn boIn
  refine congrArg₂ (· + ·) (Finset.sum_congr rfl fun k _ => congrArg₂ (· * ·) ?_ ?_) ?_
  · exact ctx_blk_apply V c t _ _ (by show _ = t.val / 2 + 0; exact g0) (by show _ = t.val % 2 * 1024 + (y 1).val; exact g1) rfl
  · exact wo_blk_apply V c t _ _ (by show _ = (y 2).val; exact g2) rfl
  · exact bo_blk_apply V c t _ _ (by show _ = (y 2).val; exact g2)

/-! ## The eight blocks tile the output array -/

/-- An index of the output array is in point t's block iff each coordinate is in the block's range on its axis. -/
theorem mem_out_blk (t : Fin cfg2.N) (i : S4x2048x1024.Idx) :
    i ∈ ((cfg2.win 3).blk t).view.set ↔ ∀ a : Fin 3, win2_3.index t a * S1x1024x1024.size a ≤ (i a).val ∧ (i a).val < win2_3.index t a * S1x1024x1024.size a + S1x1024x1024.size a := by
  show i ∈ ((View.whole main_v6).slice (win2_3.rect t)).set ↔ _
  rw [View.set_slice_whole, Rect.mem_set_unit]
  exact Iff.rfl

/-- Entry (b, r, e) is in the block of the point 2 b + r / 1024. -/
theorem out_covered (i : S4x2048x1024.Idx) :
    ∃ t : Fin cfg2.N, (cfg2.win 3).flush t = true ∧ i ∈ ((cfg2.win 3).blk t).view.set := by
  have hi0 : (i 0).val < 4 := (i 0).isLt
  have hi1 : (i 1).val < 2048 := (i 1).isLt
  have hi2 : (i 2).val < 1024 := (i 2).isLt
  obtain ⟨t, ht⟩ : ∃ t : Fin cfg2.N, t.val = (i 0).val * 2 + (i 1).val / 1024 :=
    ⟨⟨(i 0).val * 2 + (i 1).val / 1024, by show _ < 8; omega⟩, rfl⟩
  obtain ⟨-, -, -, -, -, -, e0, e1, e2⟩ := block_indices t
  refine ⟨t, flush2_3 t, ?_⟩
  rw [mem_out_blk]
  intro a
  match a with
  | ⟨0, _⟩ => show win2_3.index t (0 : Fin 3) * 1 ≤ (i 0).val ∧ (i 0).val < win2_3.index t (0 : Fin 3) * 1 + 1; rw [e0, ht]; omega
  | ⟨1, _⟩ => show win2_3.index t (1 : Fin 3) * 1024 ≤ (i 1).val ∧ (i 1).val < win2_3.index t (1 : Fin 3) * 1024 + 1024; rw [e1, ht]; omega
  | ⟨2, _⟩ => show win2_3.index t (2 : Fin 3) * 1024 ≤ (i 2).val ∧ (i 2).val < win2_3.index t (2 : Fin 3) * 1024 + 1024; rw [e2]; omega

/-- The output array after the region, whole. -/
theorem region2_array (c : Dev nD) : (dat2 (F := Ideal) V c).arrAt 3 cfg2.N = oprojArr V c :=
  (dat2 (F := Ideal) V c).arrAt_eq_of_cover 3 (oprojArr V c) (fun t _ => flushed_oproj V c t) out_covered

/-- The output array after the region is the closing projection of what the region found. -/
theorem region2_value (c : Dev nD) (bi : Fin 4) (s : Fin 2048) (e : Fin 1024) :
    ((dat2 (F := Ideal) V c).arrAt 3 cfg2.N : S4x2048x1024.Idx → EReal) (ix3 bi s e)
      = Cert.Spec.oproj (ctxIn V c) (woIn V c) (boIn V c) bi s e := by
  rw [region2_array]
  rfl

end Cert.KernelIdeal.HandVal

end
-- ==== Proof.LibNary.lean ====
/-
  A host operation over a LITERAL family of three or of six references (a concatenation of three or of six operands)
  read at its result buffer: the operation's function applied to each operand's contents AT ITS OWN REFERENCE, so that a
  run that is read back one operation at a time can go on rewriting the operands' contents. The library states this for
  a family of four references; these are the same statement for three and for six, proved the same way, each also in
  the form a simplifier pass uses (the result reference not indexed).
-/
import Idealize.ShloMosaic.Lib.StableHlo.Run

noncomputable section

namespace Cert.Lib

open Idealize.ShloMosaic Idealize.ShloMosaic.StableHlo

variable {τ : Topo} {sig : RefSig} {Val : EltTy → Type}
variable {x a b c d e y : Ref sig .tc}

/-- A three-operand operation's result: its function of the three operands' contents, each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, for a simplifier pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- A six-operand operation's result: its function of the six operands' contents, each at its own reference. -/
theorem nary6_result
    (f : ((k : Fin 6) → ((![x, a, b, c, d, e] : Fin 6 → Ref sig .tc) k).ty.Contents Val) → y.ty.Contents Val) (hxs hy)
    (F : Valuation τ sig Val) :
    (nary (τ := τ) ![x, a, b, c, d, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc d)) (Fin.cons (F (Proc.devRef .tc e)) (fun i => i.elim0))))))) := by
  rw [nary_result]; congr 1; funext k; fin_cases k <;> rfl

/-- The same, for a simplifier pass. -/
theorem nary6_result'
    (f : ((k : Fin 6) → ((![x, a, b, c, d, e] : Fin 6 → Ref sig .tc) k).ty.Contents Val) → y.ty.Contents Val) (hxs hy)
    (F : Valuation τ sig Val) :
    (nary (τ := τ) ![x, a, b, c, d, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (Fin.cons (F (Proc.devRef .tc e)) (fun i => i.elim0))))))) :=
  nary6_result f hxs hy F

end Cert.Lib

end
-- ==== Proof.KIHost.lean ====
/-
  What the host stretch before the first kernel region leaves, at the ideal values.

  The three projection weight matrices are stacked along the rows into one 3072 × 1024 matrix, and the three biases into
  one vector of 3072; both stackings are then read in a narrower float format, as is the closing weight matrix.  At the
  ideal values a change of format is the identity, so rows 0–1023, 1024–2047 and 2048–3071 of the stacked matrix are the
  query, key and value weights, the stacked bias likewise, and the closing weights are unchanged.
-/
import proofs.«423255_j9981503996505_3_alg».proof.Proof.Gen.KernelIdeal.Launch
import proofs.«423255_j9981503996505_3_alg».proof.Proof.LibNary
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HandVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Core `c`'s buffers after the host stretch. -/
abbrev afterHost (c : Dev nD) : Valuation τ sig (Elt Ideal) := StableHlo.after (hostOps0 (F := Ideal)) (fun b => m (c, b))

/-- The stacked weights after the host stretch: the three weight matrices one above the other (the change of float format
    is the identity at the ideal values). -/
theorem host_v1 (c : Dev nD) :
    (afterHost m c (Proc.devRef .tc main_v1) : S3072x1024.Idx → EReal)
      = concatenate S3072x1024 0 [⟨S1024x1024, (m ((c : Thread nD τ).loc main_arg1) : S1024x1024.Idx → EReal)⟩,
          ⟨S1024x1024, (m ((c : Thread nD τ).loc main_arg3) : S1024x1024.Idx → EReal)⟩,
          ⟨S1024x1024, (m ((c : Thread nD τ).loc main_arg5) : S1024x1024.Idx → EReal)⟩] concatenates_S1024x1024_S1024x1024_S1024x1024_S3072x1024_d0 := by
  show StableHlo.after (hostOps0 (F := Ideal)) (fun b => m (c, b)) (Proc.devRef .tc main_v1) = _
  simp only [hostOps0, StableHlo.after_cons, StableHlo.after_nil]
  rw [StableHlo.unary_result_ne]; rotate_left; decide
  rw [StableHlo.nary_result_ne]; rotate_left; decide
  rw [StableHlo.unary_result, Cert.Lib.nary3_result]
  rfl

/-- The stacked bias after the host stretch: the three bias vectors one after the other. -/
theorem host_v2 (c : Dev nD) :
    (afterHost m c (Proc.devRef .tc main_v2) : S3072.Idx → EReal)
      = concatenate S3072 0 [⟨S1024, (m ((c : Thread nD τ).loc main_arg2) : S1024.Idx → EReal)⟩,
          ⟨S1024, (m ((c : Thread nD τ).loc main_arg4) : S1024.Idx → EReal)⟩,
          ⟨S1024, (m ((c : Thread nD τ).loc main_arg6) : S1024.Idx → EReal)⟩] concatenates_S1024_S1024_S1024_S3072_d0 := by
  show StableHlo.after (hostOps0 (F := Ideal)) (fun b => m (c, b)) (Proc.devRef .tc main_v2) = _
  simp only [hostOps0, StableHlo.after_cons, StableHlo.after_nil]
  rw [StableHlo.unary_result_ne]; rotate_left; decide
  rw [Cert.Lib.nary3_result]
  rw [StableHlo.unary_result_ne]; rotate_left; decide
  rw [StableHlo.nary_result_ne]; rotate_left; decide
  rw [StableHlo.unary_result_ne]; rotate_left; decide
  rw [StableHlo.nary_result_ne]; rotate_left; decide
  rw [StableHlo.unary_result_ne]; rotate_left; decide
  rw [StableHlo.nary_result_ne]; rotate_left; decide
  rfl

/-- The closing weights after the host stretch: the argument itself. -/
theorem host_v3 (c : Dev nD) :
    (afterHost m c (Proc.devRef .tc main_v3) : S1024x1024.Idx → EReal)
      = (m ((c : Thread nD τ).loc main_arg7) : S1024x1024.Idx → EReal) := by
  show StableHlo.after (hostOps0 (F := Ideal)) (fun b => m (c, b)) (Proc.devRef .tc main_v3) = _
  simp only [hostOps0, StableHlo.after_cons, StableHlo.after_nil]
  rw [StableHlo.unary_result]
  rw [StableHlo.nary_result_ne]; rotate_left; decide
  rw [StableHlo.unary_result_ne]; rotate_left; decide
  rw [StableHlo.nary_result_ne]; rotate_left; decide
  rfl

/-- Three matrices of 1024 rows stacked, read at row `pre + r` of piece `p` (`pre` the rows before the piece). -/
private theorem stack2_apply (x0 x1 x2 : S1024x1024.Idx → EReal) (p : Fin 3) (pre : Nat) (hp : pre = 1024 * p.val)
    (r k : Fin 1024) (R : Fin 3072) (hR : R.val = pre + r.val) :
    concatenate S3072x1024 0 [⟨S1024x1024, x0⟩, ⟨S1024x1024, x1⟩, ⟨S1024x1024, x2⟩]
        concatenates_S1024x1024_S1024x1024_S1024x1024_S3072x1024_d0 (ix2 R k)
      = (![x0, x1, x2] p) (ix2 r k) := by
  subst hp
  refine concatenate_apply_piece (0 : Fin 2) _ _ (ix2 R k) p.val (by have := p.isLt; simpa using this) S1024x1024 _ ?_ rfl (1024 * p.val) ?_
    (ix2 r k) ?_ ?_
  · fin_cases p <;> rfl
  · fin_cases p <;> rfl
  · intro b hb
    fin_cases b
    · exact absurd rfl hb
    · rfl
  · show 1024 * p.val + r.val = R.val
    omega

/-- Three vectors of 1024 entries put end to end, read at entry `pre + r` of piece `p`. -/
private theorem stack1_apply (x0 x1 x2 : S1024.Idx → EReal) (p : Fin 3) (pre : Nat) (hp : pre = 1024 * p.val)
    (r : Fin 1024) (R : Fin 3072) (hR : R.val = pre + r.val) :
    concatenate S3072 0 [⟨S1024, x0⟩, ⟨S1024, x1⟩, ⟨S1024, x2⟩]
        concatenates_S1024_S1024_S1024_S3072_d0 (ix1 R)
      = (![x0, x1, x2] p) (ix1 r) := by
  subst hp
  refine concatenate_apply_piece (0 : Fin 1) _ _ (ix1 R) p.val (by have := p.isLt; simpa using this) S1024 _ ?_ rfl (1024 * p.val) ?_
    (ix1 r) ?_ ?_
  · fin_cases p <;> rfl
  · fin_cases p <;> rfl
  · intro b hb
    fin_cases b
    exact absurd rfl hb
  · show 1024 * p.val + r.val = R.val
    omega

/-- Rows 0–1023 of the stacked weights are the query weights, -/
theorem host_wq (c : Dev nD) (r k : Fin 1024) :
    (afterHost m c (Proc.devRef .tc main_v1) : S3072x1024.Idx → EReal) (ix2 (⟨r.val, by omega⟩ : Fin 3072) k)
      = (m ((c : Thread nD τ).loc main_arg1) : S1024x1024.Idx → EReal) (ix2 r k) := by
  rw [host_v1]
  exact stack2_apply _ _ _ 0 0 rfl r k _ (by show r.val = 0 + r.val; omega)
/-- rows 1024–2047 the key weights, -/
theorem host_wk (c : Dev nD) (r k : Fin 1024) :
    (afterHost m c (Proc.devRef .tc main_v1) : S3072x1024.Idx → EReal) (ix2 (⟨1024 + r.val, by omega⟩ : Fin 3072) k)
      = (m ((c : Thread nD τ).loc main_arg3) : S1024x1024.Idx → EReal) (ix2 r k) := by
  rw [host_v1]
  exact stack2_apply _ _ _ 1 1024 rfl r k _ rfl
/-- rows 2048–3071 the value weights. -/
theorem host_wv (c : Dev nD) (r k : Fin 1024) :
    (afterHost m c (Proc.devRef .tc main_v1) : S3072x1024.Idx → EReal) (ix2 (⟨2048 + r.val, by omega⟩ : Fin 3072) k)
      = (m ((c : Thread nD τ).loc main_arg5) : S1024x1024.Idx → EReal) (ix2 r k) := by
  rw [host_v1]
  exact stack2_apply _ _ _ 2 2048 rfl r k _ rfl
/-- Entries 0–1023 of the stacked bias are the query bias, -/
theorem host_bq (c : Dev nD) (r : Fin 1024) :
    (afterHost m c (Proc.devRef .tc main_v2) : S3072.Idx → EReal) (ix1 (⟨r.val, by omega⟩ : Fin 3072))
      = (m ((c : Thread nD τ).loc main_arg2) : S1024.Idx → EReal) (ix1 r) := by
  rw [host_v2]
  exact stack1_apply _ _ _ 0 0 rfl r _ (by show r.val = 0 + r.val; omega)
/-- entries 1024–2047 the key bias, -/
theorem host_bk (c : Dev nD) (r : Fin 1024) :
    (afterHost m c (Proc.devRef .tc main_v2) : S3072.Idx → EReal) (ix1 (⟨1024 + r.val, by omega⟩ : Fin 3072))
      = (m ((c : Thread nD τ).loc main_arg4) : S1024.Idx → EReal) (ix1 r) := by
  rw [host_v2]
  exact stack1_apply _ _ _ 1 1024 rfl r _ rfl
/-- entries 2048–3071 the value bias. -/
theorem host_bv (c : Dev nD) (r : Fin 1024) :
    (afterHost m c (Proc.devRef .tc main_v2) : S3072.Idx → EReal) (ix1 (⟨2048 + r.val, by omega⟩ : Fin 3072))
      = (m ((c : Thread nD τ).loc main_arg6) : S1024.Idx → EReal) (ix1 r) := by
  rw [host_v2]
  exact stack1_apply _ _ _ 2 2048 rfl r _ rfl
/-- The closing weights are read unchanged. -/
theorem host_wo (c : Dev nD) (e k : Fin 1024) :
    (afterHost m c (Proc.devRef .tc main_v3) : S1024x1024.Idx → EReal) (ix2 e k)
      = (m ((c : Thread nD τ).loc main_arg7) : S1024x1024.Idx → EReal) (ix2 e k) := by
  rw [host_v3]

end Cert.KernelIdeal.HandVal

end
-- ==== Proof.KIBridge.lean ====
/-
  The idealized kernel's result, at the ideal values, entry by entry.

  The last region's output array is the closing projection of what that region found; the context array it found is what
  the second region left, the sum-first context of the query, key and value arrays that region found; those are what the
  first region left, the three projections of the input with the three slabs of the stacked weights and bias; and the host
  stretch stacked exactly the query, key and value weights and biases.  Chained, the program's result is the sum-first
  spelling of multi-head attention of the launch arguments.
-/
import proofs.«423255_j9981503996505_3_alg».proof.Proof.KIRun
import proofs.«423255_j9981503996505_3_alg».proof.Proof.KIVal0
import proofs.«423255_j9981503996505_3_alg».proof.Proof.KIVal1
import proofs.«423255_j9981503996505_3_alg».proof.Proof.KIVal2
import proofs.«423255_j9981503996505_3_alg».proof.Proof.KIHost

set_option maxRecDepth 16384

noncomputable section

namespace Cert.KernelIdeal.HandVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (m : (ℓ : Loc nD τ sig) → Buf (Elt Ideal) ℓ)

/-- The argument arrays at launch, by coordinates. -/
def xOf (c : Dev nD) : Cert.Spec.T3 := fun bi s k => (m ((c : Thread nD τ).loc main_arg0) : S4x2048x1024.Idx → EReal) (ix3 bi s k)
def wqOf (c : Dev nD) : Cert.Spec.T2 := fun e k => (m ((c : Thread nD τ).loc main_arg1) : S1024x1024.Idx → EReal) (ix2 e k)
def bqOf (c : Dev nD) : Cert.Spec.T1 := fun e => (m ((c : Thread nD τ).loc main_arg2) : S1024.Idx → EReal) (ix1 e)
def wkOf (c : Dev nD) : Cert.Spec.T2 := fun e k => (m ((c : Thread nD τ).loc main_arg3) : S1024x1024.Idx → EReal) (ix2 e k)
def bkOf (c : Dev nD) : Cert.Spec.T1 := fun e => (m ((c : Thread nD τ).loc main_arg4) : S1024.Idx → EReal) (ix1 e)
def wvOf (c : Dev nD) : Cert.Spec.T2 := fun e k => (m ((c : Thread nD τ).loc main_arg5) : S1024x1024.Idx → EReal) (ix2 e k)
def bvOf (c : Dev nD) : Cert.Spec.T1 := fun e => (m ((c : Thread nD τ).loc main_arg6) : S1024.Idx → EReal) (ix1 e)
def woOf (c : Dev nD) : Cert.Spec.T2 := fun e k => (m ((c : Thread nD τ).loc main_arg7) : S1024x1024.Idx → EReal) (ix2 e k)
def boOf (c : Dev nD) : Cert.Spec.T1 := fun e => (m ((c : Thread nD τ).loc main_arg8) : S1024.Idx → EReal) (ix1 e)

/-! ## What the first region finds -/

theorem xIn_E1 (c : Dev nD) : xIn (E1 m) c = xOf m c := by
  funext bi s k; unfold xIn xOf; rw [E1_main_arg0 m c]

theorem wcIn_E1_q (c : Dev nD) : wcIn (E1 m) c 0 = wqOf m c := by
  funext r k; unfold wcIn wqOf
  refine Eq.trans ?_ (host_wq m c r k)
  exact congrArg (fun j : Fin 3072 => (E1 m c main_v1 : S3072x1024.Idx → EReal) (ix2 j k)) (Fin.ext (by simp))
theorem wcIn_E1_k (c : Dev nD) : wcIn (E1 m) c 1 = wkOf m c := by
  funext r k; unfold wcIn wkOf
  refine Eq.trans ?_ (host_wk m c r k)
  exact congrArg (fun j : Fin 3072 => (E1 m c main_v1 : S3072x1024.Idx → EReal) (ix2 j k)) (Fin.ext (by simp))
theorem wcIn_E1_v (c : Dev nD) : wcIn (E1 m) c 2 = wvOf m c := by
  funext r k; unfold wcIn wvOf
  refine Eq.trans ?_ (host_wv m c r k)
  exact congrArg (fun j : Fin 3072 => (E1 m c main_v1 : S3072x1024.Idx → EReal) (ix2 j k)) (Fin.ext (by simp))
theorem bcIn_E1_q (c : Dev nD) : bcIn (E1 m) c 0 = bqOf m c := by
  funext r; unfold bcIn bqOf
  refine Eq.trans ?_ (host_bq m c r)
  exact congrArg (fun j : Fin 3072 => (E1 m c main_v2 : S3072.Idx → EReal) (ix1 j)) (Fin.ext (by simp))
theorem bcIn_E1_k (c : Dev nD) : bcIn (E1 m) c 1 = bkOf m c := by
  funext r; unfold bcIn bkOf
  refine Eq.trans ?_ (host_bk m c r)
  exact congrArg (fun j : Fin 3072 => (E1 m c main_v2 : S3072.Idx → EReal) (ix1 j)) (Fin.ext (by simp))
theorem bcIn_E1_v (c : Dev nD) : bcIn (E1 m) c 2 = bvOf m c := by
  funext r; unfold bcIn bvOf
  refine Eq.trans ?_ (host_bv m c r)
  exact congrArg (fun j : Fin 3072 => (E1 m c main_v2 : S3072.Idx → EReal) (ix1 j)) (Fin.ext (by simp))

/-! ## What the second region finds -/

theorem qIn_E2 (c : Dev nD) : qIn (E2 m) c = Cert.Spec.proj (xOf m c) (wqOf m c) (bqOf m c) := by
  funext bi h s d; unfold qIn; rw [E2_main_v4_0 m c, region0_value_q (E1 m) c bi h s d, xIn_E1, wcIn_E1_q, bcIn_E1_q]
theorem kIn_E2 (c : Dev nD) : kIn (E2 m) c = Cert.Spec.proj (xOf m c) (wkOf m c) (bkOf m c) := by
  funext bi h s d; unfold kIn; rw [E2_main_v4_1 m c, region0_value_k (E1 m) c bi h s d, xIn_E1, wcIn_E1_k, bcIn_E1_k]
theorem vIn_E2 (c : Dev nD) : vIn (E2 m) c = Cert.Spec.proj (xOf m c) (wvOf m c) (bvOf m c) := by
  funext bi h s d; unfold vIn; rw [E2_main_v4_2 m c, region0_value_v (E1 m) c bi h s d, xIn_E1, wcIn_E1_v, bcIn_E1_v]

/-! ## What the third region finds -/

theorem ctxIn_E3 (c : Dev nD) : ctxIn (E3 m) c
    = Cert.Spec.merge (Cert.Spec.ctxSumFirst (Cert.Spec.proj (xOf m c) (wqOf m c) (bqOf m c)) (Cert.Spec.proj (xOf m c) (wkOf m c) (bkOf m c)) (Cert.Spec.proj (xOf m c) (wvOf m c) (bvOf m c))) := by
  funext bi s k; unfold ctxIn; rw [E3_main_v5 m c, region1_value (E2 m) c bi s k, qIn_E2, kIn_E2, vIn_E2]
theorem woIn_E3 (c : Dev nD) : woIn (E3 m) c = woOf m c := by
  funext e k; unfold woIn woOf; rw [E3_main_v3 m c]; exact host_wo m c e k
theorem boIn_E3 (c : Dev nD) : boIn (E3 m) c = boOf m c := by
  funext e; unfold boIn boOf; rw [E3_main_arg8 m c]

/-! ## The program's result -/

/-- The result array at the return is the sum-first multi-head attention of the launch arguments. -/
theorem kernel_value (c : Dev nD) (bi : Fin 4) (s : Fin 2048) (e : Fin 1024) :
    ((dat2 (F := Ideal) (E3 m) c).arrAt 3 cfg2.N : S4x2048x1024.Idx → EReal) (ix3 bi s e)
      = Cert.Spec.mhaSumFirst (xOf m c) (wqOf m c) (bqOf m c) (wkOf m c) (bkOf m c) (wvOf m c) (bvOf m c) (woOf m c) (boOf m c) bi s e := by
  rw [region2_value (E3 m) c bi s e, ctxIn_E3, woIn_E3, boIn_E3]
  rfl

end Cert.KernelIdeal.HandVal

end
-- ==== Proof.KIPre.lean ====
/-
  What the precondition gives: every entry of every argument array is a real number.

  The precondition says, array by array, that the absolute value of every entry is below +∞.  An extended real whose
  absolute value is below +∞ is neither infinity, hence a real number.
-/
import proofs.«423255_j9981503996505_3_alg».proof.Defs
import proofs.«423255_j9981503996505_3_alg».proof.Proof.Gen.Pre_finite_inputs
import Idealize.ShloMosaic.Lib.ValueIdx
import Idealize.ShloMosaic.Lib.ReduceAll
import Idealize.ShloMosaic.PureOps.Ideal.Laws

set_option maxRecDepth 16384

noncomputable section

namespace Cert.KernelIdeal.HandVal

open Idealize.ShloMosaic Idealize.ShloMosaic.TcCoe Idealize.ShloMosaic.ValueIdx Idealize.SL.Sem
open Cert.KernelIdeal

/-- The index set of a scalar has one element. -/
private instance : Subsingleton (⟨0, ![]⟩ : Shape).Idx := ⟨fun a b => funext fun d => d.elim0⟩

/-- An extended real whose absolute value is below +∞ is a real number. -/
private theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by
    simp [Ideal.ofBits, Ideal.ieee]
  rw [htop] at h
  induction x using EReal.rec with
  | bot => simp [Ideal.cmp] at h
  | coe r => exact ⟨r, rfl⟩
  | top => simp [Ideal.cmp] at h

/-- If the conjunction over a whole array of "the absolute value of the entry is below +∞" is true, every entry of the
    array is a real number. -/
private theorem real_of_all {s : Shape} {axes : List (Fin s.rank)} (x : FVec Ideal s .f32)
    (hb : (⟨0, ![]⟩ : Shape).BroadcastsInDim s ![]) (hr : s.ReducesTo axes ⟨0, ![]⟩) (h0 : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr h0 ix0 = 1#1)
    (i : s.Idx) : ∃ r : ℝ, (x : s.Idx → EReal) i = (r : EReal) := by
  have h := Host.reduce_andi_all _ _ hr h0 ix0 e i
  exact real_of_abs_lt_top (x i) h

/-- A conjunction of two truth values, read at the one index of a scalar, is true exactly when both are. -/
private theorem andi_one (a b : IVec (⟨0, ![]⟩ : Shape) 1) : andi a b ix0 = 1#1 ↔ a ix0 = 1#1 ∧ b ix0 = 1#1 :=
  IntOp.andi_eq_one

/-- Under the precondition every entry of each of the first seven argument arrays (the input, and the query, key and
    value weights and biases) is a real number. -/
theorem args_real (m : (ℓ : Loc nD τ sig) → Buf (Elt Ideal) ℓ)
    (hpre : @Cert.Pre_KernelIdeal Cert.Pre_finite_inputs.Gen.facts m) (c : Dev nD) :
    (∀ i : S4x2048x1024.Idx, ∃ r : ℝ, (m ((c : Thread nD τ).loc main_arg0) : S4x2048x1024.Idx → EReal) i = (r : EReal))
    ∧ (∀ i : S1024x1024.Idx, ∃ r : ℝ, (m ((c : Thread nD τ).loc main_arg1) : S1024x1024.Idx → EReal) i = (r : EReal))
    ∧ (∀ i : S1024.Idx, ∃ r : ℝ, (m ((c : Thread nD τ).loc main_arg2) : S1024.Idx → EReal) i = (r : EReal))
    ∧ (∀ i : S1024x1024.Idx, ∃ r : ℝ, (m ((c : Thread nD τ).loc main_arg3) : S1024x1024.Idx → EReal) i = (r : EReal))
    ∧ (∀ i : S1024.Idx, ∃ r : ℝ, (m ((c : Thread nD τ).loc main_arg4) : S1024.Idx → EReal) i = (r : EReal))
    ∧ (∀ i : S1024x1024.Idx, ∃ r : ℝ, (m ((c : Thread nD τ).loc main_arg5) : S1024x1024.Idx → EReal) i = (r : EReal))
    ∧ (∀ i : S1024.Idx, ∃ r : ℝ, (m ((c : Thread nD τ).loc main_arg6) : S1024.Idx → EReal) i = (r : EReal)) := by
  have h := congrFun (hpre c) ix0
  dsimp only [Cert.Pre_finite_inputs.fn, Cert.Pre_finite_inputs.fn_part1, Cert.Pre_finite_inputs.fn_part2] at h
  -- the precondition is a conjunction of nine facts, one per argument array; split it from the last conjunct back
  have e8 := (andi_one _ _).1 h
  have e7 := (andi_one _ _).1 e8.1
  have e6 := (andi_one _ _).1 e7.1
  have e5 := (andi_one _ _).1 e6.1
  have e4 := (andi_one _ _).1 e5.1
  have e3 := (andi_one _ _).1 e4.1
  have e2 := (andi_one _ _).1 e3.1
  have e1 := (andi_one _ _).1 e2.1
  exact ⟨real_of_all _ _ _ _ e1.1, real_of_all _ _ _ _ e1.2, real_of_all _ _ _ _ e2.2, real_of_all _ _ _ _ e3.2,
    real_of_all _ _ _ _ e4.2, real_of_all _ _ _ _ e5.2, real_of_all _ _ _ _ e6.2⟩

end Cert.KernelIdeal.HandVal

end
-- ==== Proof.RefValue.lean ====
/-
  The reference program's result, at the ideal values, entry by entry.

  The reference projects the input three times, reads each projection by heads, forms the scores divided by eight, takes
  every query's largest score, exponentiates the differences, divides each weight by the query's total weight, sums the
  value rows under the normalised weights, lays the heads side by side and projects once more.  Entry by entry this is the
  divide-first spelling of multi-head attention of the argument arrays.

  The reading goes stage by stage.  A projection by heads at (batch, head, position, feature) is the product-plus-bias at
  feature `head · 64 + feature`, since splitting the 1024 features into 16 × 64 and exchanging the head and position axes
  only renames coordinates.  Dividing by the word of the real number eight is multiplying by one eighth on every extended
  real.  The row maximum is folded from the word of minus infinity, the least extended real, and taking the larger of that
  least element and the folded maximum changes nothing.  The total weight is summed from the word of zero.  Laying the
  heads side by side sends feature `e` to head `e / 64`, place `e % 64`.
-/
import proofs.«423255_j9981503996505_3_alg».proof.Proof.Gen.ReferenceIdeal.Run
import proofs.«423255_j9981503996505_3_alg».proof.Proof.Gen.ReferenceIdeal.Read
import proofs.«423255_j9981503996505_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! ### Arrays by coordinates -/

/-- The three kinds of argument array. -/
abbrev Arr3 : Type := (⟨S4x2048x1024, .f32⟩ : BufTy).Contents (Elt Ideal)
abbrev Arr2 : Type := (⟨S1024x1024, .f32⟩ : BufTy).Contents (Elt Ideal)
abbrev Arr1 : Type := (⟨S1024, .f32⟩ : BufTy).Contents (Elt Ideal)

/-- An array read by its coordinates. -/
def rd3 (x : Arr3) : Cert.Spec.T3 := fun bi s k => (x : S4x2048x1024.Idx → EReal) (ix3 bi s k)
def rd2 (w : Arr2) : Cert.Spec.T2 := fun e k => (w : S1024x1024.Idx → EReal) (ix2 e k)
def rd1 (b : Arr1) : Cert.Spec.T1 := fun e => (b : S1024.Idx → EReal) (ix1 e)

/-! ### The three words -/

/-- The divisor's word denotes the real number eight. -/
private theorem ofBits_eight : Ideal.ofBits .f32 0x41000000#32 = ((8 : ℝ) : EReal) := by
  simp [Ideal.ofBits, Ideal.ieee, -EReal.coe_mul]; norm_num

/-- The word the maximum is folded from denotes the least extended real. -/
private theorem ofBits_negInf : Ideal.ofBits .f32 0xFF800000#32 = (⊥ : EReal) := by
  simp [Ideal.ofBits, Ideal.ieee]

/-! ### A projection by heads -/

/-- Exchanging the head and position axes. -/
private theorem swap_idx (bi : Fin 4) (h : Fin 16) (s : Fin 2048) (d : Fin 64) :
    idx_main_v5 (ix4 bi h s d) = ix4 bi s h d :=
  funext fun a => Fin.ext (by match a with | ⟨0, _⟩ => rfl | ⟨1, _⟩ => rfl | ⟨2, _⟩ => rfl | ⟨3, _⟩ => rfl)

/-- Feature `d` of head `h` is feature `h · 64 + d` of the 1024. -/
private theorem split_idx (bi : Fin 4) (s : Fin 2048) (h : Fin 16) (d : Fin 64) :
    idx_main_v4 (ix4 bi s h d) = ix3 bi s (Cert.Spec.hc h d) :=
  funext fun a => Fin.ext (by
    have b0 := bi.isLt; have b1 := s.isLt; have b2 := h.isLt; have b3 := d.isLt
    match a with
    | ⟨0, _⟩ => show (((bi.val * 2048 + s.val) * 16 + h.val) * 64 + d.val) / 2097152 = bi.val; omega
    | ⟨1, _⟩ => show (((bi.val * 2048 + s.val) * 16 + h.val) * 64 + d.val) / 1024 % 2048 = s.val; omega
    | ⟨2, _⟩ => show (((bi.val * 2048 + s.val) * 16 + h.val) * 64 + d.val) % 1024 = h.val * 64 + d.val; omega)

/-- The contraction of a product with a transposed weight matrix runs over the input features. -/
private theorem lhs_idx (bi : Fin 4) (s : Fin 2048) (e k : Fin 1024) : lidx_main_v0 (ix3 bi s e) k = ix3 bi s k :=
  funext fun a => Fin.ext (by match a with | ⟨0, _⟩ => rfl | ⟨1, _⟩ => rfl | ⟨2, _⟩ => rfl)
private theorem rhs_idx (bi : Fin 4) (s : Fin 2048) (e k : Fin 1024) : ridx_main_v0 (ix3 bi s e) k = ix2 e k :=
  funext fun a => Fin.ext (by match a with | ⟨0, _⟩ => rfl | ⟨1, _⟩ => rfl)
/-- The bias is read at the output feature. -/
private theorem bias_idx (bi : Fin 4) (s : Fin 2048) (e : Fin 1024) : idx_main_v1 (idx_main_v2 (ix3 bi s e)) = ix1 e :=
  funext fun a => Fin.ext (by match a with | ⟨0, _⟩ => rfl)

/-- A product with a transposed weight matrix plus a bias, at (batch, position, output feature). -/
private theorem linear_eq (x0 : Arr3) (x1 : Arr2) (x2 : Arr1) (bi : Fin 4) (s : Fin 2048) (e : Fin 1024) :
    val_main_v3 (F := Ideal) x0 x1 x2 (ix3 bi s e) = (∑ k : Fin 1024, rd3 x0 bi s k * rd2 x1 e k) + rd1 x2 e := by
  rw [val_main_v3_apply, val_main_v0_apply, val_main_v2_apply, val_main_v1_apply, bias_idx]
  simp only [lhs_idx, rhs_idx]
  rfl

/-- The query projection by heads. -/
theorem proj_q (x0 : Arr3) (x1 : Arr2) (x2 : Arr1) (bi : Fin 4) (h : Fin 16) (s : Fin 2048) (d : Fin 64) :
    val_main_v5 (F := Ideal) x0 x1 x2 (ix4 bi h s d) = Cert.Spec.proj (rd3 x0) (rd2 x1) (rd1 x2) bi h s d := by
  rw [val_main_v5_apply, swap_idx, val_main_v4_apply, split_idx, linear_eq]
  rfl

/-- The key and value projections are the same function of their own weight and bias. -/
private theorem v11_eq (x0 : Arr3) (x3 : Arr2) (x4 : Arr1) :
    val_main_v11 (F := Ideal) x0 x3 x4 = val_main_v5 (F := Ideal) x0 x3 x4 := rfl
private theorem v17_eq (x0 : Arr3) (x5 : Arr2) (x6 : Arr1) :
    val_main_v17 (F := Ideal) x0 x5 x6 = val_main_v5 (F := Ideal) x0 x5 x6 := rfl

theorem proj_k (x0 : Arr3) (x3 : Arr2) (x4 : Arr1) (bi : Fin 4) (h : Fin 16) (s : Fin 2048) (d : Fin 64) :
    val_main_v11 (F := Ideal) x0 x3 x4 (ix4 bi h s d) = Cert.Spec.proj (rd3 x0) (rd2 x3) (rd1 x4) bi h s d := by
  rw [v11_eq]; exact proj_q x0 x3 x4 bi h s d
theorem proj_v (x0 : Arr3) (x5 : Arr2) (x6 : Arr1) (bi : Fin 4) (h : Fin 16) (s : Fin 2048) (d : Fin 64) :
    val_main_v17 (F := Ideal) x0 x5 x6 (ix4 bi h s d) = Cert.Spec.proj (rd3 x0) (rd2 x5) (rd1 x6) bi h s d := by
  rw [v17_eq]; exact proj_q x0 x5 x6 bi h s d

/-! ### The scores -/

/-- The shape of the score, weight and row arrays. -/
abbrev ArrS : Type := (⟨S4x16x2048x2048, .f32⟩ : BufTy).Contents (Elt Ideal)

/-- The inner product of a query row and a key row runs over the 64 features of the head. -/
private theorem qk_lhs (bi : Fin 4) (h : Fin 16) (q k : Fin 2048) (d : Fin 64) : lidx_main_v18 (ix4 bi h q k) d = ix4 bi h q d :=
  funext fun a => Fin.ext (by match a with | ⟨0, _⟩ => rfl | ⟨1, _⟩ => rfl | ⟨2, _⟩ => rfl | ⟨3, _⟩ => rfl)
private theorem qk_rhs (bi : Fin 4) (h : Fin 16) (q k : Fin 2048) (d : Fin 64) : ridx_main_v18 (ix4 bi h q k) d = ix4 bi h k d :=
  funext fun a => Fin.ext (by match a with | ⟨0, _⟩ => rfl | ⟨1, _⟩ => rfl | ⟨2, _⟩ => rfl | ⟨3, _⟩ => rfl)

/-- The scores: dividing by the real number eight is multiplying by one eighth, on every extended real. -/
theorem score_eq (x0 : Arr3) (x1 : Arr2) (x2 : Arr1) (x3 : Arr2) (x4 : Arr1) (bi : Fin 4) (h : Fin 16) (q k : Fin 2048) :
    val_main_v20 (F := Ideal) x0 x1 x2 x3 x4 (ix4 bi h q k)
      = Cert.Spec.score (Cert.Spec.proj (rd3 x0) (rd2 x1) (rd1 x2)) (Cert.Spec.proj (rd3 x0) (rd2 x3) (rd1 x4)) bi h q k := by
  rw [val_main_v20_apply, val_main_v18_apply, val_main_v19_apply]
  simp only [val_main_cst, constant_apply, ofBits_eight, Ideal.hostDivf_def, qk_lhs, qk_rhs, proj_q, proj_k]
  rw [Ideal.div_coe (by norm_num : (8 : ℝ) ≠ 0)]
  rfl

/-! ### A query's largest score -/

/-- The fold of the larger-of-two over the last axis, from the word of the least extended real. -/
private theorem fold_max_row (y : ArrS) (bi : Fin 4) (h : Fin 16) (q : Fin 2048) :
    Host.reduce (FloatOps.maximumf (F := Ideal) (φ := .f32)) y (val_main_cst_0 (F := Ideal)) reducesTo_S4x16x2048x2048_S4x16x2048_d3 h_S_ (ix3 bi h q)
      = Finset.univ.fold max (⊥ : EReal) (fun k : Fin 2048 => (y : S4x16x2048x2048.Idx → EReal) (ix4 bi h q k)) := by
  rw [Host.reduce_eq_fold_single (FloatOps.maximumf (F := Ideal) (φ := .f32)) y _ reducesTo_S4x16x2048x2048_S4x16x2048_d3 (by decide) h_S_]
  have hinit : (val_main_cst_0 (F := Ideal)) (Shape.Idx.first h_S_) = (⊥ : EReal) := by
    simp only [val_main_cst_0, constant_apply, ofBits_negInf]
  rw [hinit]
  refine Finset.fold_congr (fun k _ => ?_)
  exact congrArg y (funext fun a => Fin.ext (by match a with | ⟨0, _⟩ => rfl | ⟨1, _⟩ => rfl | ⟨2, _⟩ => rfl | ⟨3, _⟩ => rfl))

/-- The larger of the least extended real and the folded maximum is the folded maximum. -/
theorem rowMax_eq (x0 : Arr3) (x1 : Arr2) (x2 : Arr1) (x3 : Arr2) (x4 : Arr1) (bi : Fin 4) (h : Fin 16) (q : Fin 2048) :
    val_main_v23 (F := Ideal) x0 x1 x2 x3 x4 (ix3 bi h q)
      = Cert.Spec.rowMax (Cert.Spec.score (Cert.Spec.proj (rd3 x0) (rd2 x1) (rd1 x2)) (Cert.Spec.proj (rd3 x0) (rd2 x3) (rd1 x4))) bi h q := by
  rw [val_main_v23_apply, val_main_v22_apply]
  unfold val_main_v21
  rw [fold_max_row]
  simp only [val_main_cst_1, constant_apply, ofBits_negInf, Ideal.maximumf_def, score_eq]
  rw [max_eq_right bot_le]
  rfl

/-! ### The weights and their total -/

/-- A row's maximum and total are spread back along the key axis. -/
private theorem max_back_idx (bi : Fin 4) (h : Fin 16) (q k : Fin 2048) : idx_main_v24 (idx_main_v25 (ix4 bi h q k)) = ix3 bi h q :=
  funext fun a => Fin.ext (by match a with | ⟨0, _⟩ => rfl | ⟨1, _⟩ => rfl | ⟨2, _⟩ => rfl)
private theorem sum_back_idx (bi : Fin 4) (h : Fin 16) (q k : Fin 2048) : idx_main_v29 (idx_main_v30 (ix4 bi h q k)) = ix3 bi h q :=
  funext fun a => Fin.ext (by match a with | ⟨0, _⟩ => rfl | ⟨1, _⟩ => rfl | ⟨2, _⟩ => rfl)
private theorem row_idx (bi : Fin 4) (h : Fin 16) (q k : Fin 2048) : idx_main_v28 (ix3 bi h q) k = ix4 bi h q k :=
  funext fun a => Fin.ext (by match a with | ⟨0, _⟩ => rfl | ⟨1, _⟩ => rfl | ⟨2, _⟩ => rfl | ⟨3, _⟩ => rfl)

/-- The weights: exponentials of the scores less the query's largest. -/
theorem wexp_eq (x0 : Arr3) (x1 : Arr2) (x2 : Arr1) (x3 : Arr2) (x4 : Arr1) (bi : Fin 4) (h : Fin 16) (q k : Fin 2048) :
    val_main_v27 (F := Ideal) x0 x1 x2 x3 x4 (ix4 bi h q k)
      = Cert.Spec.wexp (Cert.Spec.score (Cert.Spec.proj (rd3 x0) (rd2 x1) (rd1 x2)) (Cert.Spec.proj (rd3 x0) (rd2 x3) (rd1 x4))) bi h q k := by
  rw [val_main_v27_apply, val_main_v26_apply, val_main_v25_apply, val_main_v24_apply, max_back_idx, rowMax_eq, score_eq]
  rfl

/-- A query's total weight, summed from the word of zero. -/
theorem rowSum_eq (x0 : Arr3) (x1 : Arr2) (x2 : Arr1) (x3 : Arr2) (x4 : Arr1) (bi : Fin 4) (h : Fin 16) (q : Fin 2048) :
    val_main_v28 (F := Ideal) x0 x1 x2 x3 x4 (ix3 bi h q)
      = Cert.Spec.rowSum (Cert.Spec.score (Cert.Spec.proj (rd3 x0) (rd2 x1) (rd1 x2)) (Cert.Spec.proj (rd3 x0) (rd2 x3) (rd1 x4))) bi h q := by
  rw [val_main_v28_apply]
  simp only [val_main_cst_2, constant_apply, Ideal.ofBits_zero_f32, zero_add, row_idx, wexp_eq]
  rfl

/-- Every weight divided by the query's total. -/
theorem weight_eq (x0 : Arr3) (x1 : Arr2) (x2 : Arr1) (x3 : Arr2) (x4 : Arr1) (bi : Fin 4) (h : Fin 16) (q k : Fin 2048) :
    val_main_v31 (F := Ideal) x0 x1 x2 x3 x4 (ix4 bi h q k)
      = Ideal.div (Cert.Spec.wexp (Cert.Spec.score (Cert.Spec.proj (rd3 x0) (rd2 x1) (rd1 x2)) (Cert.Spec.proj (rd3 x0) (rd2 x3) (rd1 x4))) bi h q k)
          (Cert.Spec.rowSum (Cert.Spec.score (Cert.Spec.proj (rd3 x0) (rd2 x1) (rd1 x2)) (Cert.Spec.proj (rd3 x0) (rd2 x3) (rd1 x4))) bi h q) := by
  rw [val_main_v31_apply, val_main_v30_apply, val_main_v29_apply, sum_back_idx, wexp_eq, rowSum_eq]
  rfl

/-! ### The context, the heads side by side, the closing projection -/

/-- The weighted sum of the value rows runs over the key positions. -/
private theorem av_lhs (bi : Fin 4) (h : Fin 16) (q : Fin 2048) (d : Fin 64) (k : Fin 2048) : lidx_main_v32 (ix4 bi h q d) k = ix4 bi h q k :=
  funext fun a => Fin.ext (by match a with | ⟨0, _⟩ => rfl | ⟨1, _⟩ => rfl | ⟨2, _⟩ => rfl | ⟨3, _⟩ => rfl)
private theorem av_rhs (bi : Fin 4) (h : Fin 16) (q : Fin 2048) (d : Fin 64) (k : Fin 2048) : ridx_main_v32 (ix4 bi h q d) k = ix4 bi h k d :=
  funext fun a => Fin.ext (by match a with | ⟨0, _⟩ => rfl | ⟨1, _⟩ => rfl | ⟨2, _⟩ => rfl | ⟨3, _⟩ => rfl)

/-- The context, every weight divided by the total first. -/
theorem ctx_eq (x0 : Arr3) (x1 : Arr2) (x2 : Arr1) (x3 : Arr2) (x4 : Arr1) (x5 : Arr2) (x6 : Arr1)
    (bi : Fin 4) (h : Fin 16) (q : Fin 2048) (d : Fin 64) :
    val_main_v32 (F := Ideal) x0 x1 x2 x3 x4 x5 x6 (ix4 bi h q d)
      = Cert.Spec.ctxDivFirst (Cert.Spec.proj (rd3 x0) (rd2 x1) (rd1 x2)) (Cert.Spec.proj (rd3 x0) (rd2 x3) (rd1 x4))
          (Cert.Spec.proj (rd3 x0) (rd2 x5) (rd1 x6)) bi h q d := by
  rw [val_main_v32_apply]
  simp only [av_lhs, av_rhs, weight_eq, proj_v]
  rfl

/-- Exchanging the position and head axes back. -/
private theorem swap_back_idx (bi : Fin 4) (s : Fin 2048) (h : Fin 16) (d : Fin 64) : idx_main_v33 (ix4 bi s h d) = ix4 bi h s d :=
  funext fun a => Fin.ext (by match a with | ⟨0, _⟩ => rfl | ⟨1, _⟩ => rfl | ⟨2, _⟩ => rfl | ⟨3, _⟩ => rfl)

/-- Feature `e` of the 1024 is place `e % 64` of head `e / 64`. -/
private theorem join_idx (bi : Fin 4) (s : Fin 2048) (e : Fin 1024) :
    idx_main_v34 (ix3 bi s e) = ix4 bi s (Cert.Spec.headOf e) (Cert.Spec.featOf e) :=
  funext fun a => Fin.ext (by
    have b0 := bi.isLt; have b1 := s.isLt; have b2 := e.isLt
    match a with
    | ⟨0, _⟩ => show ((bi.val * 2048 + s.val) * 1024 + e.val) / 2097152 = bi.val; omega
    | ⟨1, _⟩ => show ((bi.val * 2048 + s.val) * 1024 + e.val) / 1024 % 2048 = s.val; omega
    | ⟨2, _⟩ => show ((bi.val * 2048 + s.val) * 1024 + e.val) / 64 % 16 = e.val / 64; omega
    | ⟨3, _⟩ => show ((bi.val * 2048 + s.val) * 1024 + e.val) % 64 = e.val % 64; omega)

/-- The heads side by side. -/
theorem merge_eq (x0 : Arr3) (x1 : Arr2) (x2 : Arr1) (x3 : Arr2) (x4 : Arr1) (x5 : Arr2) (x6 : Arr1)
    (bi : Fin 4) (s : Fin 2048) (e : Fin 1024) :
    val_main_v34 (F := Ideal) x0 x1 x2 x3 x4 x5 x6 (ix3 bi s e)
      = Cert.Spec.merge (Cert.Spec.ctxDivFirst (Cert.Spec.proj (rd3 x0) (rd2 x1) (rd1 x2)) (Cert.Spec.proj (rd3 x0) (rd2 x3) (rd1 x4))
          (Cert.Spec.proj (rd3 x0) (rd2 x5) (rd1 x6))) bi s e := by
  rw [val_main_v34_apply, join_idx, val_main_v33_apply, swap_back_idx, ctx_eq]
  rfl

/-- The closing projection contracts over the 1024 merged features and reads its bias at the output feature. -/
private theorem out_lhs (bi : Fin 4) (s : Fin 2048) (e k : Fin 1024) : lidx_main_v35 (ix3 bi s e) k = ix3 bi s k :=
  funext fun a => Fin.ext (by match a with | ⟨0, _⟩ => rfl | ⟨1, _⟩ => rfl | ⟨2, _⟩ => rfl)
private theorem out_rhs (bi : Fin 4) (s : Fin 2048) (e k : Fin 1024) : ridx_main_v35 (ix3 bi s e) k = ix2 e k :=
  funext fun a => Fin.ext (by match a with | ⟨0, _⟩ => rfl | ⟨1, _⟩ => rfl)
private theorem out_bias_idx (bi : Fin 4) (s : Fin 2048) (e : Fin 1024) : idx_main_v36 (idx_main_v37 (ix3 bi s e)) = ix1 e :=
  funext fun a => Fin.ext (by match a with | ⟨0, _⟩ => rfl)

/-- The whole, over any nine arrays. -/
theorem out_eq (x0 : Arr3) (x1 : Arr2) (x2 : Arr1) (x3 : Arr2) (x4 : Arr1) (x5 : Arr2) (x6 : Arr1) (x7 : Arr2) (x8 : Arr1)
    (bi : Fin 4) (s : Fin 2048) (e : Fin 1024) :
    val_main_v38 (F := Ideal) x0 x1 x2 x3 x4 x5 x6 x7 x8 (ix3 bi s e)
      = Cert.Spec.mhaDivFirst (rd3 x0) (rd2 x1) (rd1 x2) (rd2 x3) (rd1 x4) (rd2 x5) (rd1 x6) (rd2 x7) (rd1 x8) bi s e := by
  rw [val_main_v38_apply, val_main_v35_apply, val_main_v37_apply, val_main_v36_apply, out_bias_idx]
  simp only [out_lhs, out_rhs, merge_eq]
  rfl

variable (m : (ℓ : Loc nD τ sig) → Buf (Elt Ideal) ℓ)

/-- The argument arrays at launch, by coordinates. -/
def xOf (c : Dev nD) : Cert.Spec.T3 := fun bi s k => (m ((c : Thread nD τ).loc main_arg0) : S4x2048x1024.Idx → EReal) (ix3 bi s k)
def wqOf (c : Dev nD) : Cert.Spec.T2 := fun e k => (m ((c : Thread nD τ).loc main_arg1) : S1024x1024.Idx → EReal) (ix2 e k)
def bqOf (c : Dev nD) : Cert.Spec.T1 := fun e => (m ((c : Thread nD τ).loc main_arg2) : S1024.Idx → EReal) (ix1 e)
def wkOf (c : Dev nD) : Cert.Spec.T2 := fun e k => (m ((c : Thread nD τ).loc main_arg3) : S1024x1024.Idx → EReal) (ix2 e k)
def bkOf (c : Dev nD) : Cert.Spec.T1 := fun e => (m ((c : Thread nD τ).loc main_arg4) : S1024.Idx → EReal) (ix1 e)
def wvOf (c : Dev nD) : Cert.Spec.T2 := fun e k => (m ((c : Thread nD τ).loc main_arg5) : S1024x1024.Idx → EReal) (ix2 e k)
def bvOf (c : Dev nD) : Cert.Spec.T1 := fun e => (m ((c : Thread nD τ).loc main_arg6) : S1024.Idx → EReal) (ix1 e)
def woOf (c : Dev nD) : Cert.Spec.T2 := fun e k => (m ((c : Thread nD τ).loc main_arg7) : S1024x1024.Idx → EReal) (ix2 e k)
def boOf (c : Dev nD) : Cert.Spec.T1 := fun e => (m ((c : Thread nD τ).loc main_arg8) : S1024.Idx → EReal) (ix1 e)

/-- The reference's result is the divide-first multi-head attention of the argument arrays. -/
theorem ref_value (c : Dev nD) (bi : Fin 4) (s : Fin 2048) (e : Fin 1024) :
    (Cert.ReferenceIdeal.Value.res_out0 (F := Ideal) m c : S4x2048x1024.Idx → EReal) (ix3 bi s e)
      = Cert.Spec.mhaDivFirst (xOf m c) (wqOf m c) (bqOf m c) (wkOf m c) (bkOf m c) (wvOf m c) (bvOf m c) (woOf m c) (boOf m c) bi s e :=
  (congrFun (val_main_v38_eq (F := Ideal) m c) (ix3 bi s e)).trans (out_eq _ _ _ _ _ _ _ _ _ bi s e)

end Cert.ReferenceIdeal.RefValue

end
-- ==== Proof.lean ====
/-
  Multi-head attention in three kernel launches against the plain reference, over the extended reals.

  The kernel program stacks the query, key and value weights, projects the input once against the stack, runs attention
  over pairs of heads and tiles of queries, and projects the context once more; the reference projects three times, takes a
  softmax over the scores and projects.  Read at the ideal values the two differ in two places only.  The kernel multiplies
  the scores by one eighth where the reference divides by eight: the same function on every extended real.  And the kernel
  sums the value rows under the unnormalised weights and divides the sum by the total weight, where the reference divides
  every weight first: the same number where the entries are real, which the precondition gives — the projections of real
  arrays are real, so are the scores and their row maximum, every weight is a positive real and so is the total.

  The frames: each kernel region's body runs on its staged blocks and leaves the output blocks at one value of the input
  blocks, the regions chain over the buffers' contents from the launch to the return, and no argument array is written.
  The reference has no kernel: its frame is its run with the result dropped.
-/
import proofs.«423255_j9981503996505_3_alg».proof.Defs
import proofs.«423255_j9981503996505_3_alg».proof.Proof.Gen.Kernel
import proofs.«423255_j9981503996505_3_alg».proof.Proof.Gen.KernelIdeal
import proofs.«423255_j9981503996505_3_alg».proof.Proof.Gen.ReferenceIdeal
import proofs.«423255_j9981503996505_3_alg».proof.Proof.Gen.Pre_finite_inputs
import proofs.«423255_j9981503996505_3_alg».proof.Proof.KRun
import proofs.«423255_j9981503996505_3_alg».proof.Proof.KIRun
import proofs.«423255_j9981503996505_3_alg».proof.Proof.KIBridge
import proofs.«423255_j9981503996505_3_alg».proof.Proof.KIPre
import proofs.«423255_j9981503996505_3_alg».proof.Proof.RefValue
import proofs.«423255_j9981503996505_3_alg».proof.Proof.Spec
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The frames -/

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-! ## The two results are one array -/

/-- From memories agreeing on the arguments, under the precondition, the reference's result term is the array the
    kernel program's last region leaves: entry by entry both are multi-head attention of the arguments, the reference's in
    the divide-first spelling and the kernel's in the sum-first one, equal on real entries. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (Cert.ReferenceIdeal.Value.res_out0 (F := Ideal) m' c : (⟨3, ![4, 2048, 1024]⟩ : Shape).Idx → EReal)
      = ((Cert.KernelIdeal.Hand.dat2 (F := Ideal) (Cert.KernelIdeal.Hand.E3 m) c).arrAt 3 Cert.KernelIdeal.cfg2.N : (⟨3, ![4, 2048, 1024]⟩ : Shape).Idx → EReal) := by
  funext i
  obtain ⟨bi, s, e, rfl⟩ : ∃ (bi : Fin 4) (s : Fin 2048) (e : Fin 1024), i = ix3 bi s e := ⟨i 0, i 1, i 2, eq_ix3 i⟩
  refine (Cert.ReferenceIdeal.RefValue.ref_value m' c bi s e).trans ?_
  refine Eq.trans ?_ (Cert.KernelIdeal.HandVal.kernel_value m c bi s e).symm
  have ex : Cert.ReferenceIdeal.RefValue.xOf m' c = Cert.KernelIdeal.HandVal.xOf m c := by
    funext a b k; unfold Cert.ReferenceIdeal.RefValue.xOf Cert.KernelIdeal.HandVal.xOf; rw [h0]
  have e1 : Cert.ReferenceIdeal.RefValue.wqOf m' c = Cert.KernelIdeal.HandVal.wqOf m c := by
    funext a k; unfold Cert.ReferenceIdeal.RefValue.wqOf Cert.KernelIdeal.HandVal.wqOf; rw [h1]
  have e2 : Cert.ReferenceIdeal.RefValue.bqOf m' c = Cert.KernelIdeal.HandVal.bqOf m c := by
    funext a; unfold Cert.ReferenceIdeal.RefValue.bqOf Cert.KernelIdeal.HandVal.bqOf; rw [h2]
  have e3 : Cert.ReferenceIdeal.RefValue.wkOf m' c = Cert.KernelIdeal.HandVal.wkOf m c := by
    funext a k; unfold Cert.ReferenceIdeal.RefValue.wkOf Cert.KernelIdeal.HandVal.wkOf; rw [h3]
  have e4 : Cert.ReferenceIdeal.RefValue.bkOf m' c = Cert.KernelIdeal.HandVal.bkOf m c := by
    funext a; unfold Cert.ReferenceIdeal.RefValue.bkOf Cert.KernelIdeal.HandVal.bkOf; rw [h4]
  have e5 : Cert.ReferenceIdeal.RefValue.wvOf m' c = Cert.KernelIdeal.HandVal.wvOf m c := by
    funext a k; unfold Cert.ReferenceIdeal.RefValue.wvOf Cert.KernelIdeal.HandVal.wvOf; rw [h5]
  have e6 : Cert.ReferenceIdeal.RefValue.bvOf m' c = Cert.KernelIdeal.HandVal.bvOf m c := by
    funext a; unfold Cert.ReferenceIdeal.RefValue.bvOf Cert.KernelIdeal.HandVal.bvOf; rw [h6]
  have e7 : Cert.ReferenceIdeal.RefValue.woOf m' c = Cert.KernelIdeal.HandVal.woOf m c := by
    funext a k; unfold Cert.ReferenceIdeal.RefValue.woOf Cert.KernelIdeal.HandVal.woOf; rw [h7]
  have e8 : Cert.ReferenceIdeal.RefValue.boOf m' c = Cert.KernelIdeal.HandVal.boOf m c := by
    funext a; unfold Cert.ReferenceIdeal.RefValue.boOf Cert.KernelIdeal.HandVal.boOf; rw [h8]
  rw [ex, e1, e2, e3, e4, e5, e6, e7, e8]
  obtain ⟨r0, r1, r2, r3, r4, r5, r6⟩ := Cert.KernelIdeal.HandVal.args_real m hpre c
  exact (congrFun (congrFun (congrFun (Cert.Spec.mhaSumFirst_eq_mhaDivFirst _ _ _ _ _ _ _ _ _
    (fun a b k => r0 _) (fun a k => r1 _) (fun a => r2 _) (fun a k => r3 _) (fun a => r4 _) (fun a k => r5 _) (fun a => r6 _)) bi) s) e).symm

/-! ## The claims -/

/-- At the ideal values, from memories agreeing on the arguments, both programs run and end with equal results. -/
theorem algebraic : Cert.algebraic_KernelIdeal_ReferenceIdeal := by
  intro m ρ m' ρ' hpre hagree
  refine ⟨fun c => (Cert.KernelIdeal.Hand.dat2 (F := Ideal) (Cert.KernelIdeal.Hand.E3 m) c).arrAt 3 Cert.KernelIdeal.cfg2.N,
    Cert.KernelIdeal.Hand.run_value (F := Ideal) m ρ, ?_⟩
  refine (θ_run Cert.ReferenceIdeal.defs _ _).mono (fun r h c => ⟨(h c).1.trans ?_, (h c).2⟩)
    (Cert.ReferenceIdeal.Value.run (F := Ideal) m' ρ')
  exact result_eq m m' hpre c (hagree c).1 (hagree c).2.1 (hagree c).2.2.1 (hagree c).2.2.2.1 (hagree c).2.2.2.2.1
    (hagree c).2.2.2.2.2.1 (hagree c).2.2.2.2.2.2.1 (hagree c).2.2.2.2.2.2.2.1 (hagree c).2.2.2.2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
